-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x512 : Shape := ⟨2, ![4096, 512]⟩
abbrev S100000x512 : Shape := ⟨2, ![100000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096 32) (main_arg1 : FVec F S4096x512 .f32) (main_arg2 : FVec F S100000x512 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg0 main_v9
  let main_c_3 : IVec S_ 32 := constantI S_ 32 100000#32
  let main_v11 : IVec S4096 32 := broadcastInDim S4096 ![] bcast_S_S4096 main_c_3
  let main_v12 : IVec S4096 1 := cmpi .slt main_arg0 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096 : Shape := ⟨1, ![4096]⟩
abbrev S4096x512 : Shape := ⟨2, ![4096, 512]⟩
abbrev S100000x512 : Shape := ⟨2, ![100000, 512]⟩
abbrev S4096x1x512 : Shape := ⟨3, ![4096, 1, 512]⟩
abbrev S100000x1x512 : Shape := ⟨3, ![100000, 1, 512]⟩
abbrev S4096x1x1 : Shape := ⟨3, ![4096, 1, 1]⟩
abbrev S1x1x512 : Shape := ⟨3, ![1, 1, 512]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S1x512 : Shape := ⟨2, ![1, 512]⟩

abbrev nBuf : Space → Nat
  | .hbm => 16
  | .vmem => 11
  | .smem => 1
  | _ => 0

abbrev bufTy : (tb : Table) → Fin (tcTables nBuf tb) → BufTy
  | .hbm, ⟨0, _⟩ => ⟨S4096x512, .f32⟩
  | .hbm, ⟨1, _⟩ => ⟨S100000x512, .f32⟩
  | .hbm, ⟨2, _⟩ => ⟨S4096x1x512, .f32⟩
  | .hbm, ⟨3, _⟩ => ⟨S100000x1x512, .f32⟩
  | .hbm, ⟨4, _⟩ => ⟨S4096x1x512, .f32⟩
  | .hbm, ⟨5, _⟩ => ⟨S4096x1x1, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S100000x1x512, .f32⟩
  | .hbm, ⟨15, _⟩ => ⟨S100000x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x1, .f32⟩
  | .local _ .vmem, ⟨7, _⟩ => ⟨S1x1x1, .f32⟩
  | .local _ .vmem, ⟨8, _⟩ => ⟨S1x1x512, .f32⟩
  | .local _ .vmem, ⟨9, _⟩ => ⟨S1x1x512, .f32⟩
  | .local _ .vmem, ⟨10, _⟩ => ⟨S1x512, .f32⟩
  | .local _ .smem, ⟨0, _⟩ => ⟨S4096, .i32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9

abbrev nD : Nat := 1
abbrev τ : Topo := Topo.v7x

variable {F : FTy → Type} [FloatOps F]

abbrev grid0 : Pipeline.Grid := ⟨1, ![4096], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S4096) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4096], ![false]⟩

abbrev pre1 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (v1 : BitVec 32) : Fin 3 → Nat :=
  let c0_i32 : BitVec 32 := 0#32
  let c0_i32_0 : BitVec 32 := 0#32
  ![v1.toNat, 0, 0]

def k1_chk1 (v1 : BitVec 32) : Prop :=
  (∀ a, (k1_off2 v1) a + S1x1x512.size a ≤ S100000x1x512.size a)
instance k1_chk1.dec : ∀ (v1 : BitVec 32), Decidable (k1_chk1 v1) := fun v1 => decidable_of_iff' _ (Iff.of_eq (k1_chk1.eq_1 v1))
theorem k1_off2_inb : ∀ (v1 : BitVec 32) (k1_hw1 : k1_chk1 v1), ∀ a, (k1_off2 v1) a + S1x1x512.size a ≤ S100000x1x512.size a := fun v1 k1_hw1 => k1_hw1

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

class Facts₀ : Prop where
  shapeCasts_S4096x512_S4096x1x512 : S4096x512.ShapeCasts S4096x1x512
  shapeCasts_S100000x512_S100000x1x512 : S100000x512.ShapeCasts S100000x1x512
  numel1_S1 : S1.numel = 1
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  reduces_S1x1x512_S1x1 : S1x1x512.Reduces [2] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S4096x1x1_S4096 : S4096x1x1.ShapeCasts S4096
  bcast_S_S4096 : S_.BroadcastsInDim S4096 (![] : Fin 0 → Fin S4096.rank)
  reducesTo_S4096_S_d0 : S4096.ReducesTo [0] S_
  h_S_ : 0 < S_.numel
  squeezes_S1x1x512_S1x512 : S1x1x512.Squeezes S1x512
  shapeCasts_S1x1x512_S1x512 : S1x1x512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S100000x1x512_S100000x512 : S100000x1x512.ShapeCasts S100000x512
  hcc1_scratch1 : 10 + S_.numel ≤ 11
  hrank0 : 0 < grid0.rank
  k0_off1_inb : ∀ i : grid0.Coords, ∀ a, (k0_off1 i) a + S1.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S4096x1x512.size a
  hwx0_0 : ∀ i : grid0.Coords, EltTy.bits .f32 = 32 ∨ (Rect.block (s := S4096x1x512) S1x1x512.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S4096x1x512.size a
  hwx0_2 : ∀ i : grid0.Coords, EltTy.bits .f32 = 32 ∨ (Rect.block (s := S4096x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S4096x1x1.size a
  hwx0_3 : ∀ i : grid0.Coords, EltTy.bits .f32 = 32 ∨ (Rect.block (s := S4096x1x1) S1x1x1.size (cc0_transform_3 i) (hinb0_3 i)).WholeWords (EltTy.packing .f32)
  hrank1 : 0 < grid1.rank
  k1_off1_inb : ∀ i : grid1.Coords, ∀ a, (k1_off1 i) a + S1.size a ≤ S4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S4096x1x512.size a
  hwx1_0 : ∀ i : grid1.Coords, EltTy.bits .f32 = 32 ∨ (Rect.block (s := S4096x1x512) S1x1x512.size (cc1_transform_0 i) (hinb1_0 i)).WholeWords (EltTy.packing .f32)

variable [Facts₀]

abbrev cc1_scratch1 : DmaSems sig S_ := SemArray.consecutive 10 S_ hcc1_scratch1

abbrev spec0_0 : Pipeline.WinSpec sig grid0.rank :=
  Pipeline.WinSpec.ofSpec (Memref.whole main_v0) S1x1x512.size reads0_0 false false 2 stage0_0 sem0_0 nbuf0_0 hstage0_0

abbrev spec0_1 : Pipeline.WinSpec sig grid0.rank :=
  Pipeline.WinSpec.ofSpec (Memref.whole main_v1) S1x1x512.size reads0_1 false false 2 stage0_1 sem0_1 nbuf0_1 hstage0_1

abbrev spec0_2 : Pipeline.WinSpec sig grid0.rank :=
  Pipeline.WinSpec.ofSpec (Memref.whole main_v2_0) S1x1x512.size reads0_2 true false 2 stage0_2 sem0_2 nbuf0_2 hstage0_2

abbrev spec0_3 : Pipeline.WinSpec sig grid0.rank :=
  Pipeline.WinSpec.ofSpec (Memref.whole main_v2_1) S1x1x1.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1x512.size a ≤ S100000x1x512.size a), EltTy.bits .f32 = 32 ∨ (Rect.block (s := S100000x1x512) S1x1x512.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | ⟨_ + 4, h⟩ => absurd h (Nat.not_lt.2 (Nat.le_add_left _ _))
abbrev spec1_0 : Pipeline.WinSpec sig grid1.rank :=
  Pipeline.WinSpec.ofSpec (Memref.whole main_v2_0) S1x1x512.size reads1_0 false false 2 stage1_0 sem1_0 nbuf1_0 hstage1_0

abbrev spec1 : Fin 1 → Pipeline.WinSpec sig grid1.rank := fun | 0 => spec1_0 | ⟨_ + 1, h⟩ => absurd h (Nat.not_lt.2 (Nat.le_add_left _ _))
theorem hcount1 : ∀ w, grid1.bufCount (spec1 w).reads (spec1 w).sync = (spec1 w).nbuf := fun | 0 => nbuf1_0 | ⟨_ + 1, h⟩ => absurd h (Nat.not_lt.2 (Nat.le_add_left _ _))
abbrev ix1 (pf : pre1.Contents (Elt F)) : (w : Fin 1) → grid1.Coords → Fin (spec1 w).shape.rank → Nat := fun | 0 => cc1_transform_0 | ⟨_ + 1, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | ⟨_ + 1, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | ⟨_ + 1, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | ⟨_ + 1, h⟩ => absurd h (Nat.not_lt.2 (Nat.le_add_left _ _))

class Facts : Prop extends Facts₀ where
  harr0 : ∀ w, (spec0 w).arr.IsWhole
  harr1 : ∀ w, (spec1 w).arr.IsWhole

variable [Facts]
-- ==== ReferenceIdeal.lean ====
abbrev S4096 : Shape := ⟨1, ![4096]⟩
abbrev S4096x512 : Shape := ⟨2, ![4096, 512]⟩
abbrev S100000x512 : Shape := ⟨2, ![100000, 512]⟩
abbrev S_ : Shape := ⟨0, ![]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x512, .f32⟩
  | .hbm, ⟨2, _⟩ => ⟨S100000x512, .f32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S4096x1, .i32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S100000x512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x512 : S_.BroadcastsInDim S4096x512 (![] : Fin 0 → Fin S4096x512.rank)
  reducesTo_S4096x512_S4096_d1 : S4096x512.ReducesTo [1] S4096
  h_S_ : 0 < S_.numel
  reducesTo_S4096_S_d0 : S4096.ReducesTo [0] S_
  gather_S100000x512_S4096x1_S4096x512_1_0_n_n_0_1_1512_wf : GatherDims.WF S100000x512 S4096x1 S4096x512 [1] [0] [] [0] [] 1 ![1, 512]
  scatter_S100000x512_S4096x1_S4096x512_1_0_0_1_wf : ScatterDims.WF S100000x512 S4096x1 S4096x512 [1] [0] [0] 1

variable [Facts₀]

def gather_S100000x512_S4096x1_S4096x512_1_0_n_n_0_1_1512 : GatherDims S100000x512 S4096x1 S4096x512 where
  offsetDims := [1]
  collapsedSliceDims := [0]
  operandBatchingDims := []
  startIndicesBatchingDims := []
  startIndexMap := [0]
  indexVectorDim := 1
  sliceSizes := ![1, 512]
  wf := gather_S100000x512_S4096x1_S4096x512_1_0_n_n_0_1_1512_wf
def scatter_S100000x512_S4096x1_S4096x512_1_0_0_1 : ScatterDims S100000x512 S4096x1 S4096x512 where
  updateWindowDims := [1]
  insertedWindowDims := [0]
  scatterDimsToOperandDims := [0]
  indexVectorDim := 1
  wf := scatter_S100000x512_S4096x1_S4096x512_1_0_0_1_wf

class Facts : Prop extends Facts₀ where

variable [Facts]
-- ==== Proof.YRange.lean ====
/-
  The class ids are in range. The precondition's last conjunct is
  `jnp.all((y >= 0) & (y < 100000))` over the int32 class ids: a signed compare with 0, a signed
  compare with 100000, their `and`, and the reduction by `and` over the one axis. When the predicate is 1,
  every class id is a nonnegative signed word below 100000, so read unsigned it is below 100000.
-/
import proofs.«424214_j72353019068995_1_alg».proof.Pre_finite_inputs
import Idealize.ShloMosaic.Lib.ReduceAll
import Idealize.ShloMosaic.Lib.StableHlo.Predicate
import Idealize.ShloMosaic.Lib.ValueIdx

namespace Cert.CL

open Idealize.ShloMosaic

/-- A 32-bit word that is signed-nonnegative and signed-below 100000 is, read unsigned, below 100000:
    the sign test clears the top bit, so the signed and the unsigned readings agree. -/
theorem word_lt_of_sge_slt (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  have hw : 2 * w.toNat < 2 ^ 32 := BitVec.toInt_pos_iff.1 h0
  rw [BitVec.toInt_eq_toNat_of_lt hw] at h1
  omega

/-- The precondition, when it holds, bounds every class id: as an unsigned word it is below 100000. -/
theorem y_lt_of_pre {F : FTy → Type} [FloatOps F] [Cert.Pre_finite_inputs.Facts]
    (y : IVec Cert.Pre_finite_inputs.S4096 32) (b : FVec F Cert.Pre_finite_inputs.S4096x512 .f32)
    (c : FVec F Cert.Pre_finite_inputs.S100000x512 .f32)
    (h : Cert.Pre_finite_inputs.fn (F := F) y b c = fun _ => 1#1) (i : Cert.Pre_finite_inputs.S4096.Idx) :
    (y i).toNat < 100000 := by
  -- a rank-0 shape has one index
  haveI : Subsingleton Cert.Pre_finite_inputs.S_.Idx := ⟨fun a b => funext fun d => d.elim0⟩
  have h' := congrFun h ValueIdx.ix0
  dsimp only [Cert.Pre_finite_inputs.fn] at h'
  -- the outer `and`: keep the class-id conjunct
  have hall := (IntOp.andi_eq_one.1 h').2
  -- the reduction by `and` over the one axis: every element is 1
  have hel := Host.reduce_andi_all _ _ _ _ _ hall i
  -- the element: both compares are 1
  obtain ⟨hge, hlt⟩ := IntOp.andi_eq_one.1 hel
  have hz : broadcastInDim Cert.Pre_finite_inputs.S4096 ![] Cert.Pre_finite_inputs.Facts.bcast_S_S4096
      (constantI Cert.Pre_finite_inputs.S_ 32 0#32) i = 0#32 := rfl
  have hk : broadcastInDim Cert.Pre_finite_inputs.S4096 ![] Cert.Pre_finite_inputs.Facts.bcast_S_S4096
      (constantI Cert.Pre_finite_inputs.S_ 32 100000#32) i = 100000#32 := rfl
  refine word_lt_of_sge_slt (y i) ?_ ?_
  · have := hge; simp only [cmpi, hz] at this; exact this
  · have := hlt; simp only [cmpi, hk] at this; exact this

end Cert.CL
-- ==== Proof.KBody.lean ====
/-
  The program's two kernel bodies, each run once at symbolic operands.

  The first body takes a sample's embedding block `x0` and the block of the centre its class id names `x1`, and
  leaves their difference in its first output block (`out0_2`) and the squared length of that difference in its
  second (`out0_3`); each output block is written by one store through the whole block.

  The second body reads the sample's class id `v` from the table of ids, copies row `v` of the centres' buffer
  into a scratch row, adds the step size times the sample's difference block `x` to it, and copies the scratch row
  back over row `v`. The copies are started and waited one after the other on one counter, so each wait ends
  with the counter back at zero and the copy landed. Its effect on the centres' buffer `A` is `step1 v x A`:
  row `v` becomes that row plus the step, every other row is as it was, whatever the scratch row held before.
  The body has a step only if row `v` lies inside the buffer; that is the hypothesis `hchk` on the table.
-/
import proofs.«424214_j72353019068995_1_alg».proof.Proof.Gen.Kernel
import proofs.«424214_j72353019068995_1_alg».proof.Proof.Gen.Kernel.Skeleton
import Idealize.ShloMosaic.Lib.Tactic
import Idealize.ShloMosaic.Lib.Pipeline.Kit
import Idealize.ShloMosaic.Lib.Pipeline.FrameBody
import Idealize.ShloMosaic.Lib.Pipeline.Value

noncomputable section

namespace Cert.CL.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipelines' staging cells beside the counters the body's own copies draw on. -/
abbrev UU (nD : Nat) (τ : Topo) : Type := UR sig nD τ × Counters

local notation "𝕄" => MT nD τ sig Unit (Elt F) ℕ (UU nD τ) ℕ

/-- A memref's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The first body: the difference and its squared length -/

/-- The whole block of 512 lanes, and the whole one-element block. -/
abbrev r3 : Rect S1x1x512 := Rect.unit (s := S1x1x512) ![0, 0, 0] S1x1x512.size inb_S1x1x512_S1x1x512_0_0_0
abbrev r1 : Rect S1x1x1 := Rect.unit (s := S1x1x1) ![0, 0, 0] S1x1x1.size inb_S1x1x1_S1x1x1_0_0_0

/-- What the body leaves in its first output block: the one store of the difference. -/
def out0_2 (x0 x1 : Vec F S1x1x512 .f32) : Vec F S1x1x512 .f32 :=
  View.canon [⟨r3, k0_pay1 (View.ld x0 r3) (View.ld x1 r3)⟩]

/-- What it leaves in its second: the one store of the squared length. -/
def out0_3 (x0 x1 : Vec F S1x1x512 .f32) : Vec F S1x1x1 .f32 :=
  View.canon [⟨r1, k0_pay2 (View.ld x0 r3) (View.ld x1 r3)⟩]

theorem cover0_2 (p0 : Vec F S1x1x512 .f32) (y : S1x1x512.Idx) :
    ∃ pc ∈ ([⟨r3, p0⟩] : List (View.Piece (Elt F) S1x1x512 .f32)), y ∈ pc.1.set :=
  View.cover_of_tiled [⟨r3, p0⟩] S1x1x512.size (by rfl) y

theorem cover0_3 (p0 : Vec F S1x1x1 .f32) (y : S1x1x1.Idx) :
    ∃ pc ∈ ([⟨r1, p0⟩] : List (View.Piece (Elt F) S1x1x1 .f32)), y ∈ pc.1.set :=
  View.cover_of_tiled [⟨r1, p0⟩] S1x1x1.size (by rfl) y

set_option maxHeartbeats 1000000 in
/-- The first body on whole staging memrefs, the inputs' at `x0`, `x1` and the outputs' at anything, runs to the
    continuation with the inputs as they were and the outputs at `out0_2 x0 x1`, `out0_3 x0 x1`. -/
theorem sound_kernel0 (c : Dev nD) (E : Set ℕ) (i : grid0.Coords)
    (arg2 : Memref sig .tc .vmem S1x1x512 .f32) (harg2 : arg2.IsWhole) (arg3 : Memref sig .tc .vmem S1x1x512 .f32) (harg3 : arg3.IsWhole)
    (arg4 : Memref sig .tc .vmem S1x1x512 .f32) (harg4 : arg4.IsWhole) (arg5 : Memref sig .tc .vmem S1x1x1 .f32) (harg5 : arg5.IsWhole)
    (x0 x1 : Vec F S1x1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)) -∗ K ⟨⟩))
      ⊢ wp frame (wpE (defs₀ (F := F)) Variants.none c none) E
          (cc0__gather_delta_kernel i (Memref.whole main_arg0) (Memref.isWhole_whole _) arg2 harg2 arg3 harg3 arg4 harg4 arg5 harg5) K := by
  simp only [cc0__gather_delta_kernel_eq_skeleton]; unfold cc0__gather_delta_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The second body: one row of the centres' buffer read, stepped and written back -/

/-- The class id the second body reads from the table at grid point `t`. -/
def wordAt (c : Dev nD) (fy : Bf (F := F) c (Memref.whole main_arg0)) (t : Fin grid1.N) : Elt F main_arg0.ty.elt :=
  View.readAt (Elt F) (Memref.whole main_arg0).view (Rect.unit (s := S4096) (k1_off1 (grid1.coords t)) S1.size (k1_off1_inb (grid1.coords t))).toLoadRect fy
    (Shape.Idx.first (numel1_S1.symm ▸ Nat.one_pos))

/-- The row of the centres' buffer a class id names, as the body slices it. -/
abbrev rowRef (v : BitVec 32) (hv : k1_chk1 v) : Memref sig .tc .hbm S1x512 .f32 :=
  ((Memref.whole main_v8).slice (Rect.unit (s := S100000x1x512) (k1_off2 v) S1x1x512.size (k1_off2_inb v hv)) (fun _ => rfl)).squeeze S1x512 squeezes_S1x1x512_S1x512

/-- One grid point's effect on the centres' buffer: row `v` takes the body's payload of the sample's block `x` and
    of the row itself (the row plus the step size times the block); every other row is unchanged. -/
def step1 (c : Dev nD) (v : BitVec 32) (hv : k1_chk1 v) (x : Vec F S1x1x512 .f32) (A : Bf (F := F) c (Memref.whole main_v8)) :
    Bf (F := F) c (Memref.whole main_v8) :=
  View.write (Elt F) (rowRef v hv).view A (k1_pay1 x (View.read (Elt F) (rowRef v hv).view A)) Finset.univ

/-- An unmasked write through a whole view reads back as its payload. -/
theorem read_write_univ {sig' : RefSig} {κ : Kind} {sp : Space} {s : Shape} {e : EltTy} (v : View sig' κ sp s e)
    (f : v.ty.Contents (Elt F)) (w : s.Idx → Elt F e) :
    v.read (Elt F) (v.write (Elt F) f w Finset.univ) = w := by
  have h := View.write_univ_eq_writes_whole v f [] w
  rw [View.writes_nil] at h
  rw [h, View.read_writes_whole]

/-- One store through the whole-shape rectangle at zero offsets reads back as its payload, whatever the buffer held. -/
theorem read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w := by
  subst h
  exact View.read_writes_whole v f w

set_option maxHeartbeats 1000000 in
/-- The second body at grid point `t`: from the table of ids held at `fy` (every id naming a row inside the buffer),
    the sample's block at `x`, the centres' buffer at `A`, the scratch row at `fs`, its counter at zero and the core
    owing nothing, it runs to the continuation with the table and the block as they were, the counter at zero again,
    the core owing nothing, and the centres' buffer at the contents the run finds (`scatterRun_eq`: `step1`). -/
def scatterRun (c : Dev nD) (t : Fin grid1.N) (M2 : Memref sig .tc .vmem S1x1x512 .f32) (h2 : M2.IsWhole)
    (fy : Bf (F := F) c (Memref.whole main_arg0)) (x : Vec F S1x1x512 .f32) (A : Bf (F := F) c (Memref.whole main_v8))
    (fs : Bf (F := F) c (Memref.whole cc1_scratch0)) (hchk : ∀ i, k1_chk1 (fy i)) :
    { A' : Bf (F := F) c (Memref.whole main_v8) // ∀ (W : Waits sig Unit) (K : PUnit → sProp 𝕄),
        iprop(pt c (Memref.whole main_arg0) fy ∗ owns (c : Thread nD τ) M2 fullShare x ∗ pt c (Memref.whole main_v8) A
            ∗ pt c (Memref.whole cc1_scratch0) fs ∗ semVal ((c : Thread nD τ), SemLoc.dma 10) 0 ∗ owes (c : Thread nD τ) 0 W
            ∗ (iprop(pt c (Memref.whole main_arg0) fy ∗ owns (c : Thread nD τ) M2 fullShare x ∗ pt c (Memref.whole main_v8) A'
                ∗ (∃ f, pt c (Memref.whole cc1_scratch0) f) ∗ semVal ((c : Thread nD τ), SemLoc.dma 10) 0
                ∗ ∃ W, owes (c : Thread nD τ) 0 W) -∗ K ⟨⟩))
          ⊢ wp frame (wpE (defs₀ (F := F)) Variants.none c none) Set.univ
              (cc1__scatter_kernel (grid1.coords t) (Memref.whole main_arg0) (Memref.isWhole_whole _) M2 h2
                (Memref.whole main_v8) (Memref.isWhole_whole _) (Memref.whole main_v8) (Memref.isWhole_whole _)
                (Memref.whole cc1_scratch0) (Memref.isWhole_whole _) cc1_scratch1) K } := by
  refine ⟨?_, fun W K => ?run⟩
  case run =>
    unfold owns
    iintro ⟨Hy, ⟨%f2, %hf2, H2⟩, HA, Hs, Hd, HO, Hk⟩
    obtain rfl := h2.eq_unread hf2
    sl_exec! (disch := exact hchk _)
    sl_step
    iapply Hk
    isplitl [Hy]; · iexact Hy
    isplitl [H2]
    · iexists _; isplitr; · ipureintro; exact h2.read_unread _
      iexact H2
    isplitl [HA]; · iexact HA
    isplitl [Hs]; · iexists _; iexact Hs
    isplitl [Hd]; · iexact Hd
    iexists _; iexact HO

/-- What the run leaves in the centres' buffer is `step1` at the id read: the scratch row's earlier contents and the
    staging memref do not enter. -/
theorem scatterRun_eq (c : Dev nD) (t : Fin grid1.N) (M2 : Memref sig .tc .vmem S1x1x512 .f32) (h2 : M2.IsWhole)
    (fy : Bf (F := F) c (Memref.whole main_arg0)) (x : Vec F S1x1x512 .f32) (A : Bf (F := F) c (Memref.whole main_v8))
    (fs : Bf (F := F) c (Memref.whole cc1_scratch0)) (hchk : ∀ i, k1_chk1 (fy i)) :
    (scatterRun c t M2 h2 fy x A fs hchk).1 = step1 c (wordAt c fy t) (hchk _) x A := by
  unfold scatterRun
  dsimp only
  unfold scatterRun.sl.HA_w1 step1 scatterRun.sl.dma5 scatterRun.sl.Hs_1 scatterRun.sl.v8 scatterRun.sl.dma1
  have hz2 : (![0, 0] : Fin 2 → Nat) = fun _ => 0 := by funext a; fin_cases a <;> rfl
  have hz3 : (![0, 0, 0] : Fin 3 → Nat) = fun _ => 0 := by funext a; fin_cases a <;> rfl
  refine congrArg (fun w => View.write (Elt F) (rowRef (wordAt c fy t) (hchk _)).view A w Finset.univ) ?_
  simp only [ReadAs.apply_same, View.readAt_eq_ld, read_write_univ, View.ld_unit_zero (S := S1x512) hz2,
    View.ld_unit_zero (S := S1x1x512) hz3, h2.read_unread]
  exact read_writes_unit_zero (S := S1x512) _ _ hz2 _ _

end Cert.CL.K

end
-- ==== Proof.KData.lean ====
/-
  The proof data of the program's two kernel launches.

  The table of class ids is read off the launch memory (the program runs on one device). The first launch is
  admissible when every id, as a block index, keeps the gathered centre block inside the centres' array (`Ok`); the
  second body has a step at every grid point when every id names a row inside the centres' buffer (`Hyps`).

  First launch, at grid point `t`: the two input windows hold sample `t`'s embedding block and the block of the
  centre its id names; the body leaves their difference and the squared length of it in the two output windows.
  Second launch, at grid point `t`: the input window holds sample `t`'s difference block; the centres' buffer, which
  the body copies a row out of and back into, is carried by the launch's invariant: before point `t` it holds
  `acc1 t`, the buffer as the launch found it with the steps of the samples below `t` applied one after the other.
-/
import proofs.«424214_j72353019068995_1_alg».proof.Proof.KBody
import proofs.«424214_j72353019068995_1_alg».proof.Proof.Gen.Kernel.Regions

set_option maxRecDepth 16384

noncomputable section

namespace Cert.CL.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (outs : Outs (F := F))

/-! ## The table of class ids -/

/-- The table as each launch reads it at entry: the launch contents of the ids' buffer on the one device. -/
def tbl0 : pre0.Contents (Elt F) := fun j => V0 m (0 : Dev nD) (pre0.ref j)
def tbl1 : pre1.Contents (Elt F) := fun j => V0 m (0 : Dev nD) (pre1.ref j)

/-- The first launch's side condition of the table: every gathered centre block lies inside the centres' array. -/
abbrev Ok : Prop := ok0 (F := F) (tbl0 m)

/-- The second body's side condition of the table: every id names a row inside the centres' buffer. -/
def Hyps : Prop := ∀ i, k1_chk1 (tbl1 m 0 i)

/-- The table as admissible contents of each launch's prefetched tables. -/
def adm (hO : Ok m) : (p : Fin 2) → (pcfgs (F := F) p).Adm
  | ⟨0, _⟩ => ⟨tbl0 m, hO⟩
  | ⟨1, _⟩ => ⟨tbl1 m, trivial⟩
  | ⟨_ + 2, h⟩ => absurd h (Nat.not_lt.2 (Nat.le_add_left _ _))

/-- The two pipelines at the table. -/
abbrev cfgA (hO : Ok m) : Cfg sig Λ₀ := cfg0 (adm m hO 0)
abbrev cfgB (hO : Ok m) : Cfg sig Λ₀ := cfg1 (adm m hO 1)

/-! ## The first launch -/

/-- Window `w`'s block at point `t`, read off its array as the launch finds it. -/
def iblk0 (hO : Ok m) (c : Dev nD) (w : Fin (cfgA m hO).W) (t : Fin (cfgA m hO).N) :
    (((cfgA m hO).win w).xblock ((cfgA m hO).grid.coords t)).Idx → Elt F ((cfgA m hO).win w).elt :=
  (((cfgA m hO).win w).blk t).view.read (Elt F) (V1 m c (Pipeline.arrRef spec0 w))

/-- The first launch's proof data on core `c`: the arrays as the launch finds them; after the body at point `t` the
    inputs' buffers at their blocks and the outputs' at the difference and its squared length; the invariant the
    table and the scoped buffers no window stages, untouched; nothing owed. -/
def dat0 (hO : Ok m) (c : Dev nD) : Dat τ (Elt F) Unit ℕ (UU nD τ) ℕ (cfgA m hO) c where
  A w := V1 m c (Pipeline.arrRef spec0 w)
  after w t := match w with
    | ⟨0, _⟩ => iblk0 m hO c 0 t
    | ⟨1, _⟩ => iblk0 m hO c 1 t
    | ⟨2, _⟩ => out0_2 (iblk0 m hO c 0 t) (iblk0 m hO c 1 t)
    | ⟨3, _⟩ => out0_3 (iblk0 m hO c 0 t) (iblk0 m hO c 1 t)
  Φ _ := iprop(Pipeline.prefHeld (Ix := Unit) (Name := ℕ) (U := UU nD τ) (Lvl := ℕ) pre0 c (fun _ => fullShare) (tbl0 m)
    ∗ Pipeline.scopedRest (Ix := Unit) (Name := ℕ) (U := UU nD τ) (Lvl := ℕ) (Val := Elt F) spec0 c)
  q _ := fullShare
  owed _ := 0

theorem A0_eq (hO : Ok m) (c : Dev nD) (w : Fin (cfgA m hO).W) : (dat0 m hO c).A w = V1 m c (Pipeline.arrRef spec0 w) := by
  dsimp only [dat0]

theorem after0_0 (hO : Ok m) (c : Dev nD) (t : Fin (cfgA m hO).N) : (dat0 m hO c).after 0 t = iblk0 m hO c 0 t := by dsimp only [dat0]; try rfl
theorem after0_1 (hO : Ok m) (c : Dev nD) (t : Fin (cfgA m hO).N) : (dat0 m hO c).after 1 t = iblk0 m hO c 1 t := by dsimp only [dat0]; try rfl
theorem after0_2 (hO : Ok m) (c : Dev nD) (t : Fin (cfgA m hO).N) :
    (dat0 m hO c).after 2 t = out0_2 (iblk0 m hO c 0 t) (iblk0 m hO c 1 t) := by dsimp only [dat0]; try rfl
theorem after0_3 (hO : Ok m) (c : Dev nD) (t : Fin (cfgA m hO).N) :
    (dat0 m hO c).after 3 t = out0_3 (iblk0 m hO c 0 t) (iblk0 m hO c 1 t) := by dsimp only [dat0]; try rfl

/-- Each input's current staging buffer holds its block at every point, fetched there or not: unfetched, the block
    index has not moved. -/
theorem before0_0 (hO : Ok m) (c : Dev nD) (t : Fin (cfgA m hO).N) (d) : (dat0 m hO c).before 0 t d = iblk0 m hO c 0 t :=
  ((dat0 m hO c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (hO : Ok m) (c : Dev nD) (t : Fin (cfgA m hO).N) (d) : (dat0 m hO c).before 1 t d = iblk0 m hO c 1 t :=
  ((dat0 m hO c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)

/-! ## The second launch -/

/-- Its one window's block at point `t`: sample `t`'s difference block, read off the array the first launch left. -/
def iblk1 (hO : Ok m) (c : Dev nD) (w : Fin (cfgB m hO).W) (t : Fin (cfgB m hO).N) :
    (((cfgB m hO).win w).xblock ((cfgB m hO).grid.coords t)).Idx → Elt F ((cfgB m hO).win w).elt :=
  (((cfgB m hO).win w).blk t).view.read (Elt F) (V3 m outs c (Pipeline.arrRef spec1 w))

/-- The centres' buffer before grid point `n`: as the launch finds it, then one body's step per sample below `n`,
    in sample order. -/
def acc1 (hO : Ok m) (hH : Hyps m) (c : Dev nD) : Nat → Bf (F := F) c (Memref.whole main_v8)
  | 0 => V3 m outs c main_v8
  | n + 1 =>
    if h : n < (cfgB m hO).N then
      step1 c (wordAt c (tbl1 m 0) ⟨n, h⟩) (hH _) (iblk1 m outs hO c 0 ⟨n, h⟩) (acc1 hO hH c n)
    else acc1 hO hH c n

/-- The second launch's proof data on core `c`: its array as the first launch left it; after the body the input's
    buffer at its block; the invariant the centres' buffer at `acc1`, the body's counter at zero, the table and the
    scoped buffers no window stages; nothing owed. -/
def dat1 (hO : Ok m) (hH : Hyps m) (c : Dev nD) : Dat τ (Elt F) Unit ℕ (UU nD τ) ℕ (cfgB m hO) c where
  A w := V3 m outs c (Pipeline.arrRef spec1 w)
  after w t := match w with
    | ⟨0, _⟩ => iblk1 m outs hO c 0 t
  Φ t := iprop(pt c (Memref.whole main_v8) (acc1 m outs hO hH c t.val) ∗ semVal ((c : Thread nD τ), SemLoc.dma 10) 0
    ∗ Pipeline.prefHeld (Ix := Unit) (Name := ℕ) (U := UU nD τ) (Lvl := ℕ) pre1 c (fun _ => fullShare) (tbl1 m)
    ∗ Pipeline.scopedRest (Ix := Unit) (Name := ℕ) (U := UU nD τ) (Lvl := ℕ) (Val := Elt F) spec1 c)
  q _ := fullShare
  owed _ := 0

theorem A1_eq (hO : Ok m) (hH : Hyps m) (c : Dev nD) (w : Fin (cfgB m hO).W) :
    (dat1 m outs hO hH c).A w = V3 m outs c (Pipeline.arrRef spec1 w) := by
  dsimp only [dat1]

theorem after1_0 (hO : Ok m) (hH : Hyps m) (c : Dev nD) (t : Fin (cfgB m hO).N) :
    (dat1 m outs hO hH c).after 0 t = iblk1 m outs hO c 0 t := by dsimp only [dat1]; try rfl

theorem before1_0 (hO : Ok m) (hH : Hyps m) (c : Dev nD) (t : Fin (cfgB m hO).N) (d) :
    (dat1 m outs hO hH c).before 0 t d = iblk1 m outs hO c 0 t :=
  ((dat1 m outs hO hH c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)

/-! ## The two together -/

/-- The proof data family, by launch. -/
def pdats (hO : Ok m) (hH : Hyps m) :
    (p : Fin 2) → (c : Dev nD) → Dat τ (Elt F) Unit ℕ (UU nD τ) ℕ (Pipeline.pin (pcfgs (F := F)) (adm m hO) p) c
  | ⟨0, _⟩ => fun c => dat0 m hO c
  | ⟨1, _⟩ => fun c => dat1 m outs hO hH c
  | ⟨_ + 2, h⟩ => absurd h (Nat.not_lt.2 (Nat.le_add_left _ _))

end Cert.CL.K

end
-- ==== Proof.KOblig.lean ====
/-
  The body obligations of the two launches: at every grid point, from the launch's invariant, the core owing nothing
  and each window's current staging buffer at what it then holds, the body runs to the invariant at the next point,
  the core owing nothing, and each staging buffer at what the proof data says the body leaves.

  First launch: the inputs' buffers hold their blocks, the body's run leaves the difference and its squared length in
  the outputs'; the invariant (the table, the other scoped buffers) passes through unread.
  Second launch: the invariant lends the body the table, the centres' buffer at `acc1 t`, the scratch row and its
  counter; the body's run returns the centres' buffer one step further, which is `acc1 (t + 1)`.
-/
import proofs.«424214_j72353019068995_1_alg».proof.Proof.KData

set_option maxRecDepth 16384

noncomputable section

namespace Cert.CL.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (outs : Outs (F := F))

/-! ## The first launch -/

/-- Each window's current staging memref at point `t`, and its wholeness. -/
abbrev ms0_0 (hO : Ok m) (t : Fin (cfgA m hO).N) : Memref sig .tc .vmem S1x1x512 .f32 := spec0_0.stage ((cfgA m hO).slots t 0)
abbrev hs0_0 (hO : Ok m) (t : Fin (cfgA m hO).N) : (ms0_0 m hO t).IsWhole := hstage0_0 (((cfgA m hO).slots t 0).cast nbuf0_0)
abbrev ms0_1 (hO : Ok m) (t : Fin (cfgA m hO).N) : Memref sig .tc .vmem S1x1x512 .f32 := spec0_1.stage ((cfgA m hO).slots t 1)
abbrev hs0_1 (hO : Ok m) (t : Fin (cfgA m hO).N) : (ms0_1 m hO t).IsWhole := hstage0_1 (((cfgA m hO).slots t 1).cast nbuf0_1)
abbrev ms0_2 (hO : Ok m) (t : Fin (cfgA m hO).N) : Memref sig .tc .vmem S1x1x512 .f32 := spec0_2.stage ((cfgA m hO).slots t 2)
abbrev hs0_2 (hO : Ok m) (t : Fin (cfgA m hO).N) : (ms0_2 m hO t).IsWhole := hstage0_2 (((cfgA m hO).slots t 2).cast nbuf0_2)
abbrev ms0_3 (hO : Ok m) (t : Fin (cfgA m hO).N) : Memref sig .tc .vmem S1x1x1 .f32 := spec0_3.stage ((cfgA m hO).slots t 3)
abbrev hs0_3 (hO : Ok m) (t : Fin (cfgA m hO).N) : (ms0_3 m hO t).IsWhole := hstage0_3 (((cfgA m hO).slots t 3).cast nbuf0_3)

/-- The body at point `t`, on what the pipeline calls it with. -/
abbrev bodyAt0 (hO : Ok m) (t : Fin (cfgA m hO).N) : Prog (TpuEff nD τ sig (Elt F) Λ₀ .tc) PUnit :=
  cc0__gather_delta_kernel (grid0.coords t) (Memref.whole main_arg0) (Memref.isWhole_whole _)
    (ms0_0 m hO t) (hs0_0 m hO t) (ms0_1 m hO t) (hs0_1 m hO t) (ms0_2 m hO t) (hs0_2 m hO t) (ms0_3 m hO t) (hs0_3 m hO t)

def bodyPre0 (hO : Ok m) (c : Dev nD) (t : Fin (cfgA m hO).N) : sProp 𝕄 :=
  iprop((dat0 m hO c).Φ t.castSucc ∗ (dat0 m hO c).owesAt () t.castSucc
    ∗ (∃ d, owns (c : Thread nD τ) (ms0_0 m hO t) fullShare ((dat0 m hO c).before 0 t d))
    ∗ (∃ d, owns (c : Thread nD τ) (ms0_1 m hO t) fullShare ((dat0 m hO c).before 1 t d))
    ∗ (∃ d, owns (c : Thread nD τ) (ms0_2 m hO t) fullShare ((dat0 m hO c).before 2 t d))
    ∗ (∃ d, owns (c : Thread nD τ) (ms0_3 m hO t) fullShare ((dat0 m hO c).before 3 t d)))

def bodyPost0 (hO : Ok m) (c : Dev nD) (t : Fin (cfgA m hO).N) : sProp 𝕄 :=
  iprop((dat0 m hO c).Φ t.succ ∗ (dat0 m hO c).owesAt () t.succ
    ∗ owns (c : Thread nD τ) (ms0_0 m hO t) fullShare ((dat0 m hO c).after 0 t)
    ∗ owns (c : Thread nD τ) (ms0_1 m hO t) fullShare ((dat0 m hO c).after 1 t)
    ∗ owns (c : Thread nD τ) (ms0_2 m hO t) fullShare ((dat0 m hO c).after 2 t)
    ∗ owns (c : Thread nD τ) (ms0_3 m hO t) fullShare ((dat0 m hO c).after 3 t))

theorem sound_body0 (hO : Ok m) (c : Dev nD) (t : Fin (cfgA m hO).N) :
    bodyPre0 m hO c t ⊢ wp frame (wpE (defs₀ (F := F)) Variants.none c none) Set.univ (bodyAt0 m hO t) (fun _ => bodyPost0 m hO c t) := by
  unfold bodyPre0 bodyPost0 bodyAt0
  simp only [before0_0, before0_1]
  rw [show (dat0 m hO c).Φ t.succ = (dat0 m hO c).Φ t.castSucc from rfl,
    show (dat0 m hO c).owesAt () t.succ = (dat0 m hO c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 m hO c 0 t) (iblk0 m hO c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The first launch's body obligation. -/
theorem body_obligation0 (hO : Ok m) (c : Dev nD) :
    BodyObligation (dat0 (F := F) m hO c) (defs₀ (F := F)) Variants.none () Set.univ := fun t => by
  rw [bigSep_W0, bigSep_W0]
  exact sound_body0 m hO c t

/-! ## The second launch -/

abbrev ms1_0 (hO : Ok m) (t : Fin (cfgB m hO).N) : Memref sig .tc .vmem S1x1x512 .f32 := spec1_0.stage ((cfgB m hO).slots t 0)
abbrev hs1_0 (hO : Ok m) (t : Fin (cfgB m hO).N) : (ms1_0 m hO t).IsWhole := hstage1_0 (((cfgB m hO).slots t 0).cast nbuf1_0)

abbrev bodyAt1 (hO : Ok m) (t : Fin (cfgB m hO).N) : Prog (TpuEff nD τ sig (Elt F) Λ₀ .tc) PUnit :=
  cc1__scatter_kernel (grid1.coords t) (Memref.whole main_arg0) (Memref.isWhole_whole _) (ms1_0 m hO t) (hs1_0 m hO t)
    (Memref.whole main_v8) (Memref.isWhole_whole _) (Memref.whole main_v8) (Memref.isWhole_whole _)
    (Memref.whole cc1_scratch0) (Memref.isWhole_whole _) cc1_scratch1

/-- The table held whole is its one buffer held whole. -/
theorem prefHeld1_eq (c : Dev nD) (T : pre1.Contents (Elt F)) :
    (Pipeline.prefHeld (Ix := Unit) (Name := ℕ) (U := UU nD τ) (Lvl := ℕ) pre1 c (fun _ => fullShare) T : sProp 𝕄)
      = pt c (Memref.whole main_arg0) (T 0) := by
  unfold Pipeline.prefHeld
  rw [show (Finset.univ : Finset (Fin 1)) = {(0 : Fin 1)} from by decide, bigSep_singleton]
  rfl

/-- The centres' buffer one point further. -/
theorem acc1_succ (hO : Ok m) (hH : Hyps m) (c : Dev nD) (t : Fin (cfgB m hO).N) :
    acc1 m outs hO hH c (t.val + 1)
      = step1 c (wordAt c (tbl1 m 0) t) (hH _) (iblk1 m outs hO c 0 t) (acc1 m outs hO hH c t.val) := by
  rw [acc1, dif_pos t.isLt]

def bodyPre1 (hO : Ok m) (hH : Hyps m) (c : Dev nD) (t : Fin (cfgB m hO).N) : sProp 𝕄 :=
  iprop((dat1 m outs hO hH c).Φ t.castSucc ∗ (dat1 m outs hO hH c).owesAt () t.castSucc
    ∗ (∃ d, owns (c : Thread nD τ) (ms1_0 m hO t) fullShare ((dat1 m outs hO hH c).before 0 t d)))

def bodyPost1 (hO : Ok m) (hH : Hyps m) (c : Dev nD) (t : Fin (cfgB m hO).N) : sProp 𝕄 :=
  iprop((dat1 m outs hO hH c).Φ t.succ ∗ (dat1 m outs hO hH c).owesAt () t.succ
    ∗ owns (c : Thread nD τ) (ms1_0 m hO t) fullShare ((dat1 m outs hO hH c).after 0 t))

theorem sound_body1 (hO : Ok m) (hH : Hyps m) (c : Dev nD) (t : Fin (cfgB m hO).N) :
    bodyPre1 m outs hO hH c t ⊢ wp frame (wpE (defs₀ (F := F)) Variants.none c none) Set.univ (bodyAt1 m hO t)
      (fun _ => bodyPost1 m outs hO hH c t) := by
  unfold bodyPre1 bodyPost1 bodyAt1
  simp only [before1_0]
  rw [after1_0]
  rw [show (dat1 m outs hO hH c).Φ t.castSucc = iprop(pt c (Memref.whole main_v8) (acc1 m outs hO hH c t.val)
        ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c) from rfl,
    show (dat1 m outs hO hH c).Φ t.succ = iprop(pt c (Memref.whole main_v8) (acc1 m outs hO hH c (t.val + 1))
        ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c) from rfl,
    prefHeld1_eq, scopedRest1_eq, acc1_succ]
  unfold Dat.owesAt Pipeline.owesWithin
  rw [show (dat1 m outs hO hH c).owed t.castSucc = 0 from rfl, show (dat1 m outs hO hH c).owed t.succ = 0 from rfl]
  iintro ⟨⟨HA, Hd, Hy, S0, S1, S2, S3, S4, S5, S6, S7, ⟨%fs, Hs⟩⟩, ⟨%W, %hW, HO⟩, ⟨%d0, H0⟩⟩
  iapply ((scatterRun c t (ms1_0 m hO t) (hs1_0 m hO t) (tbl1 m 0) (iblk1 m outs hO c 0 t) (acc1 m outs hO hH c t.val) fs hH).2 W _)
  isplitl [Hy]; · iexact Hy
  isplitl [H0]; · iexact H0
  isplitl [HA]; · iexact HA
  isplitl [Hs]; · iexact Hs
  isplitl [Hd]; · iexact Hd
  isplitl [HO]; · iexact HO
  have e := Entails.of_eq (congrArg (fun f => pt c (Memref.whole main_v8) f)
    (scatterRun_eq c t (ms1_0 m hO t) (hs1_0 m hO t) (tbl1 m 0) (iblk1 m outs hO c 0 t) (acc1 m outs hO hH c t.val) fs hH))
  iintro ⟨Hy, H0, HA0, Hs, Hd, ⟨%W', HO⟩⟩
  ihave HA := e $$ HA0
  isplitl [HA Hd Hy S0 S1 S2 S3 S4 S5 S6 S7 Hs]
  · isplitl [HA]; · iexact HA
    isplitl [Hd]; · iexact Hd
    isplitl [Hy]; · iexact Hy
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hs
  isplitl [HO]
  · iexists W'; isplitr; · ipureintro; exact fun _ _ => Or.inl trivial
    iexact HO
  iexact H0

/-- The second launch's body obligation. -/
theorem body_obligation1 (hO : Ok m) (hH : Hyps m) (c : Dev nD) :
    BodyObligation (dat1 (F := F) m outs hO hH c) (defs₀ (F := F)) Variants.none () Set.univ := fun t => by
  rw [bigSep_W1, bigSep_W1]
  exact sound_body1 m outs hO hH c t

end Cert.CL.K

end
-- ==== Proof.KRun.lean ====
/-
  The program's run, from its two kernel launches.

  @main is five items in order: a host stretch (two reshapes), the first launch, a host stretch (the loss from the
  squared lengths, and the copy of the centres that the second launch updates in place), the second launch, a host
  stretch (one reshape). Between two items a core holds every unscoped buffer whole at a valuation: the launch
  contents, then each host stretch's operations applied, then what a launch leaves in the arrays it may change.

  Each launch is entered by sorting those buffers into its windows' arrays, the table of class ids and the rest, and
  left by putting them back: the first launch changes only its two output arrays; the second changes only the centres'
  buffer, which its invariant carries from `acc1 0` (as found) to `acc1 N` (every sample's step applied, in order).
  The run then reads the two results and the three arguments off the last valuation against the final memory.
  What the launches leave (`outs`) is chosen last, the first launch's arrays first and the second's buffer over them;
  the second's running buffer depends on the choice only through the first's.
-/
import proofs.«424214_j72353019068995_1_alg».proof.Proof.KOblig
import Idealize.ShloMosaic.Lib.Pipeline.Regions

set_option maxRecDepth 16384

noncomputable section

namespace Cert.CL.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UU nD τ) ℕ

variable (m : (ℓ : Loc nD τ sig) → Buf (Elt F) ℓ) (outs : Outs (F := F)) (ρ : Dev nD → PrngReg)

abbrev 𝒱₀ : Variants := Variants.none
abbrev L : GSem nD τ sig → Finset Unit := fun _ => ∅
abbrev lv : GSem nD τ sig → Unit → ℕ := fun _ _ => 0
/-- What rides beside the buffers between the launches: the core owing nothing. -/
abbrev R (c : Dev nD) : sProp 𝕄 := iprop(∃ W, owes (c : Thread nD τ) (0 : CellTallies nD τ sig Unit) W)

/-! ## What the launches find and leave -/

/-- On the one device the ids' buffer reaches both launches as launched. -/
theorem tblV1 (c : Dev nD) : (fun k => V1 m c (pre0.ref k)) = tbl0 m := by
  funext k
  obtain rfl : c = 0 := Subsingleton.elim _ _
  obtain rfl : k = 0 := Subsingleton.elim _ _
  exact V1_of m 0 (pre0.ref 0) (by decide)

/-- After the first launch its two inputs' arrays are as it found them and its two outputs' arrays are what the
    write-backs of all its points leave. -/
theorem arr0_final (hO : Ok m)
    (h20 : ∀ c, outs 2 main_v2_0 c = (dat0 m hO c).arrAt 2 (cfgA m hO).N)
    (h21 : ∀ c, outs 2 main_v2_1 c = (dat0 m hO c).arrAt 3 (cfgA m hO).N) (c : Dev nD) :
    ∀ w : Fin (cfgA m hO).W, (dat0 m hO c).arrAt w (cfgA m hO).N = V2 m outs c (Pipeline.arrRef spec0 w)
  | ⟨0, _⟩ => ((dat0 m hO c).arrAt_in 0 rfl _).trans ((A0_eq m hO c 0).trans (V2_of m outs c main_v0 (by decide)).symm)
  | ⟨1, _⟩ => ((dat0 m hO c).arrAt_in 1 rfl _).trans ((A0_eq m hO c 1).trans (V2_of m outs c main_v1 (by decide)).symm)
  | ⟨2, _⟩ => (h20 c).symm.trans (by
      show _ = Function.update (Function.update (V1 m c) main_v2_0 (outs 2 main_v2_0 c)) main_v2_1 (outs 2 main_v2_1 c) main_v2_0
      rw [Function.update_of_ne (StableHlo.devRef_ne_of_ne (by decide : (main_v2_0 : Ref sig .tc) ≠ main_v2_1)), Function.update_self])
  | ⟨3, _⟩ => (h21 c).symm.trans (by
      show _ = Function.update (Function.update (V1 m c) main_v2_0 (outs 2 main_v2_0 c)) main_v2_1 (outs 2 main_v2_1 c) main_v2_1
      rw [Function.update_self])

/-- The unscoped buffers that are neither an array of the first launch nor the table are the same before and after it. -/
theorem restP0_V2 (c : Dev nD) :
    (Pipeline.unscopedRestP (Ix := Unit) (Name := ℕ) (U := UU nD τ) (Lvl := ℕ) pre0 spec0 c (fun b => V2 m outs c b) : sProp 𝕄)
      = Pipeline.unscopedRestP pre0 spec0 c (fun b => V1 m c b) := by
  rw [unscopedRestP0_eq, unscopedRestP0_eq]
  simp only [V2_of m outs c main_arg1 (by decide), V2_of m outs c main_arg2 (by decide), V2_of m outs c main_v3 (by decide),
    V2_of m outs c main_cst (by decide), V2_of m outs c main_v4 (by decide), V2_of m outs c main_v5 (by decide),
    V2_of m outs c main_cst_0 (by decide), V2_of m outs c main_v6 (by decide), V2_of m outs c main_cst_1 (by decide),
    V2_of m outs c main_v7 (by decide), V2_of m outs c main_v8 (by decide), V2_of m outs c main_v9 (by decide)]

/-- The ids' buffer is not an array the first launch changes. -/
theorem tblV2 (c : Dev nD) : (fun k => V2 m outs c (pre0.ref k)) = tbl0 m :=
  (funext fun k => V2_of m outs c (pre0.ref k) (by obtain rfl : k = 0 := Subsingleton.elim _ _; decide)).trans (tblV1 m c)

/-- Entering the first launch: every unscoped buffer at what the host operations before it left is the launch's arrays
    at their entry contents, the table, and the rest. -/
theorem enter0 (hO : Ok m) (hH : Hyps m) (c : Dev nD) :
    (StableHlo.held (c : Thread nD τ) (Pipeline.ucRefs τ sig) (V1 m c) : sProp 𝕄)
      ⊢ iprop((pdats m outs hO hH 0 c).arrays ((pdats m outs hO hH 0 c).arrAt · 0)
          ∗ Pipeline.prefHeld pre0 c (fun _ => fullShare) (tbl0 m) ∗ Pipeline.unscopedRestP pre0 spec0 c (fun b => V1 m c b)) := by
  rw [show StableHlo.held (c : Thread nD τ) (Pipeline.ucRefs τ sig) (V1 m c) = unscopedBufs c (fun b => V1 m c b) from
    (Pipeline.unscopedBufs_held c _).symm]
  exact (Pipeline.arrays_of_unscopedBufs (p := 0) (pcfgs (F := F)) (adm m hO) (pdats m outs hO hH) (launch0 (F := F)).win (launch0 (F := F)).arr_whole c
    ((pdats m outs hO hH 0 c).share_full fun _ => rfl) (fun b => V1 m c b) fun _ => rfl).trans
    (sep_mono .rfl ((Entails.of_eq (Pipeline.unscopedRest_split (launch0 (F := F)).pre c (fun b => V1 m c b))).trans
      (sep_mono (Entails.of_eq (congrArg (fun T => (Pipeline.prefHeld (Ix := Unit) (Name := ℕ) (U := UU nD τ) (Lvl := ℕ) pre0 c (fun _ => fullShare) T : sProp 𝕄)) (tblV1 m c))) .rfl)))

/-- Leaving it: its arrays at their final contents, the table and the rest are every unscoped buffer at the
    valuation after it. -/
theorem leave0 (hO : Ok m) (hH : Hyps m)
    (h20 : ∀ c, outs 2 main_v2_0 c = (dat0 m hO c).arrAt 2 (cfgA m hO).N)
    (h21 : ∀ c, outs 2 main_v2_1 c = (dat0 m hO c).arrAt 3 (cfgA m hO).N) (c : Dev nD) :
    iprop((pdats m outs hO hH 0 c).arrays ((pdats m outs hO hH 0 c).arrAt · (Pipeline.pin (pcfgs (F := F)) (adm m hO) 0).N)
        ∗ Pipeline.prefHeld pre0 c (fun _ => fullShare) (tbl0 m) ∗ Pipeline.unscopedRestP pre0 spec0 c (fun b => V1 m c b))
      ⊢ (StableHlo.held (c : Thread nD τ) (Pipeline.ucRefs τ sig) (V2 m outs c) : sProp 𝕄) := by
  rw [show StableHlo.held (c : Thread nD τ) (Pipeline.ucRefs τ sig) (V2 m outs c) = unscopedBufs c (fun b => V2 m outs c b) from
      (Pipeline.unscopedBufs_held c _).symm,
    Pipeline.unscopedBufs_split (Pipeline.pin (pcfgs (F := F)) (adm m hO)) 0 (launch0 (F := F)).win.arr_unscoped (launch0 (F := F)).win.arr_inj c (fun b => V2 m outs c b),
    Pipeline.arrays_eq (Pipeline.pin (pcfgs (F := F)) (adm m hO)) (pdats m outs hO hH) 0 c (launch0 (F := F)).arr_whole
      ((pdats m outs hO hH 0 c).share_full fun _ => rfl)]
  refine BI.sep_mono (Entails.of_eq (bigSep_congr fun w _ =>
      congrArg (fun f => (((c : Thread nD τ).loc (Pipeline.arrRef spec0 w)) ↦{fullShare} f : sProp 𝕄)) (arr0_final m outs hO h20 h21 c w))) ?_
  exact (BI.sep_mono (Entails.of_eq (congrArg (fun T => (Pipeline.prefHeld (Ix := Unit) (Name := ℕ) (U := UU nD τ) (Lvl := ℕ) pre0 c (fun _ => fullShare) T : sProp 𝕄)) (tblV2 m outs c).symm))
    (Entails.of_eq (restP0_V2 m outs c).symm)).trans (Entails.of_eq (Pipeline.unscopedRest_split (launch0 (F := F)).pre c (fun b => V2 m outs c b)).symm)

set_option backward.isDefEq.respectTransparency.types false in
/-- THE FIRST LAUNCH as a segment of the program: entered with every unscoped buffer at what the host operations
    before it left, it is left with its two outputs' arrays at what its write-backs leave and everything else as it was. -/
def reg0 (hO : Ok m) (hH : Hyps m)
    (h20 : ∀ c, outs 2 main_v2_0 c = (dat0 m hO c).arrAt 2 (cfgA m hO).N)
    (h21 : ∀ c, outs 2 main_v2_1 c = (dat0 m hO c).arrAt 3 (cfgA m hO).N) :
    RegionSeg (pcfgs (F := F)) (adm m hO) (pdats m outs hO hH) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation0 m hO c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(emp)
  Y c := Pipeline.prefHeld (Ix := Unit) (Name := ℕ) (U := UU nD τ) (Lvl := ℕ) pre0 c (fun _ => fullShare) (tbl0 m)
  Z c := Pipeline.unscopedRestP (Ix := Unit) (Name := ℕ) (U := UU nD τ) (Lvl := ℕ) pre0 spec0 c (fun b => V1 m c b)
  hentry c := by
    iintro ⟨⟨Hub, HO⟩, -, -⟩
    ihave H := (enter0 m outs hO hH c) $$ Hub
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m outs hO hH 0 c).Φ 0 = iprop(Pipeline.prefHeld (Ix := Unit) (Name := ℕ) (U := UU nD τ) (Lvl := ℕ) pre0 c (fun _ => fullShare) (tbl0 m)
      ∗ Pipeline.scopedRest (Ix := Unit) (Name := ℕ) (U := UU nD τ) (Lvl := ℕ) (Val := Elt F) spec0 c) from rfl]
    show iprop((emp : sProp 𝕄) ∗ Pipeline.prefHeld (Ix := Unit) (Name := ℕ) (U := UU nD τ) (Lvl := ℕ) pre0 c (fun _ => fullShare) (tbl0 m)
        ∗ Pipeline.scopedRest (Ix := Unit) (Name := ℕ) (U := UU nD τ) (Lvl := ℕ) (Val := Elt F) spec0 c)
      ⊢ iprop(Pipeline.prefHeld (Ix := Unit) (Name := ℕ) (U := UU nD τ) (Lvl := ℕ) pre0 c (fun _ => fullShare) (tbl0 m)
        ∗ Pipeline.scopedRest (Ix := Unit) (Name := ℕ) (U := UU nD τ) (Lvl := ℕ) (Val := Elt F) spec0 c)
    iintro ⟨-, Hp, Hr⟩
    isplitl [Hp]; · iexact Hp
    iexact Hr
  hout c := by
    rw [show (pdats m outs hO hH 0 c).Φ (Fin.last (Pipeline.pin (pcfgs (F := F)) (adm m hO) 0).N)
      = iprop(Pipeline.prefHeld (Ix := Unit) (Name := ℕ) (U := UU nD τ) (Lvl := ℕ) pre0 c (fun _ => fullShare) (tbl0 m)
      ∗ Pipeline.scopedRest (Ix := Unit) (Name := ℕ) (U := UU nD τ) (Lvl := ℕ) (Val := Elt F) spec0 c) from rfl]
    unfold Pipeline.ownSems0
    rw [Finset.univ_eq_empty, BI.bigSep_empty]
    iintro ⟨Hp, Hr⟩
    isplitl [Hp]; · iexact Hp
    isplitr; · iempintro
    iexact Hr
  hexit c := by
    iintro ⟨Ha, HO, Hp, Hz⟩
    ihave Hh := (leave0 m outs hO hH h20 h21 c) $$ [Ha Hp Hz]
    · isplitl [Ha]; · iexact Ha
      isplitl [Hp] <;> iassumption
    imodintro
    isplitl [Hh]; · iexact Hh
    unfold Pipeline.Dat.owesAt Pipeline.owesWithin
    icases HO with ⟨%W, -, HO⟩; iexists W; iexact HO

/-! ## The second launch -/

/-- The ids' buffer reaches the second launch as launched, and leaves it so. -/
theorem tblV3 (c : Dev nD) : (fun k => V3 m outs c (pre1.ref k)) = tbl1 m := by
  funext k
  obtain rfl : c = 0 := Subsingleton.elim _ _
  obtain rfl : k = 0 := Subsingleton.elim _ _
  exact (V3_of m outs 0 (pre1.ref 0) (by decide)).trans ((V2_of m outs 0 (pre1.ref 0) (by decide)).trans (V1_of m 0 (pre1.ref 0) (by decide)))

theorem tblV4 (c : Dev nD) : (fun k => V4 m outs c (pre1.ref k)) = tbl1 m :=
  (funext fun k => V4_of m outs c (pre1.ref k) (by obtain rfl : k = 0 := Subsingleton.elim _ _; decide)).trans (tblV3 m outs c)

/-- The centres' buffer after the second launch is what that launch leaves there. -/
theorem V4_v8 (c : Dev nD) : V4 m outs c main_v8 = outs 4 main_v8 c := by
  show Function.update (V3 m outs c) main_v8 (outs 4 main_v8 c) main_v8 = _
  rw [Function.update_self]

/-- The second launch's one array, an input, is after it as it found it. -/
theorem arr1_final (hO : Ok m) (hH : Hyps m) (c : Dev nD) :
    ∀ w : Fin (cfgB m hO).W, (dat1 m outs hO hH c).arrAt w (cfgB m hO).N = V4 m outs c (Pipeline.arrRef spec1 w)
  | ⟨0, _⟩ => ((dat1 m outs hO hH c).arrAt_in 0 rfl _).trans ((A1_eq m outs hO hH c 0).trans (V4_of m outs c main_v2_0 (by decide)).symm)

/-- The fourteen unscoped buffers the second launch neither stages, nor reads as its table, nor writes: each whole at `V`. -/
abbrev rest14 (c : Dev nD) (V : (b : Ref sig .tc) → Buf (Elt F) ((c : Thread nD τ).loc b)) : sProp 𝕄 :=
  iprop((((c : Thread nD τ).loc main_arg1) ↦{fullShare} V main_arg1) ∗ (((c : Thread nD τ).loc main_arg2) ↦{fullShare} V main_arg2)
    ∗ (((c : Thread nD τ).loc main_v0) ↦{fullShare} V main_v0) ∗ (((c : Thread nD τ).loc main_v1) ↦{fullShare} V main_v1)
    ∗ (((c : Thread nD τ).loc main_v2_1) ↦{fullShare} V main_v2_1) ∗ (((c : Thread nD τ).loc main_v3) ↦{fullShare} V main_v3)
    ∗ (((c : Thread nD τ).loc main_cst) ↦{fullShare} V main_cst) ∗ (((c : Thread nD τ).loc main_v4) ↦{fullShare} V main_v4)
    ∗ (((c : Thread nD τ).loc main_v5) ↦{fullShare} V main_v5) ∗ (((c : Thread nD τ).loc main_cst_0) ↦{fullShare} V main_cst_0)
    ∗ (((c : Thread nD τ).loc main_v6) ↦{fullShare} V main_v6) ∗ (((c : Thread nD τ).loc main_cst_1) ↦{fullShare} V main_cst_1)
    ∗ (((c : Thread nD τ).loc main_v7) ↦{fullShare} V main_v7) ∗ (((c : Thread nD τ).loc main_v9) ↦{fullShare} V main_v9))

/-- The rest of the second launch is the centres' buffer and the fourteen others. -/
theorem restP1_split (c : Dev nD) (V : (b : Ref sig .tc) → Buf (Elt F) ((c : Thread nD τ).loc b)) :
    (Pipeline.unscopedRestP (Ix := Unit) (Name := ℕ) (U := UU nD τ) (Lvl := ℕ) pre1 spec1 c V : sProp 𝕄)
      ⊣⊢ iprop((((c : Thread nD τ).loc main_v8) ↦{fullShare} V main_v8) ∗ rest14 c V) := by
  rw [unscopedRestP1_eq]
  constructor
  · iintro ⟨H1, H2, H3, H4, H5, H6, H7, H8, H9, H10, H11, H12, H13, H14, H15⟩
    isplitl [H14]; · iexact H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H15
  · iintro ⟨H14, H1, H2, H3, H4, H5, H6, H7, H8, H9, H10, H11, H12, H13, H15⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The fourteen others are the same before and after the second launch. -/
theorem rest14_V4 (c : Dev nD) : (rest14 c (fun b => V4 m outs c b) : sProp 𝕄) = rest14 c (fun b => V3 m outs c b) := by
  unfold rest14
  simp only [V4_of m outs c main_arg1 (by decide), V4_of m outs c main_arg2 (by decide), V4_of m outs c main_v0 (by decide),
    V4_of m outs c main_v1 (by decide), V4_of m outs c main_v2_1 (by decide), V4_of m outs c main_v3 (by decide),
    V4_of m outs c main_cst (by decide), V4_of m outs c main_v4 (by decide), V4_of m outs c main_v5 (by decide),
    V4_of m outs c main_cst_0 (by decide), V4_of m outs c main_v6 (by decide), V4_of m outs c main_cst_1 (by decide),
    V4_of m outs c main_v7 (by decide), V4_of m outs c main_v9 (by decide)]

/-- Entering the second launch. -/
theorem enter1 (hO : Ok m) (hH : Hyps m) (c : Dev nD) :
    (StableHlo.held (c : Thread nD τ) (Pipeline.ucRefs τ sig) (V3 m outs c) : sProp 𝕄)
      ⊢ iprop((pdats m outs hO hH 1 c).arrays ((pdats m outs hO hH 1 c).arrAt · 0)
          ∗ Pipeline.prefHeld pre1 c (fun _ => fullShare) (tbl1 m)
          ∗ pt c (Memref.whole main_v8) (V3 m outs c main_v8) ∗ rest14 c (fun b => V3 m outs c b)) := by
  rw [show StableHlo.held (c : Thread nD τ) (Pipeline.ucRefs τ sig) (V3 m outs c) = unscopedBufs c (fun b => V3 m outs c b) from
    (Pipeline.unscopedBufs_held c _).symm]
  exact (Pipeline.arrays_of_unscopedBufs (p := 1) (pcfgs (F := F)) (adm m hO) (pdats m outs hO hH) (launch1 (F := F)).win (launch1 (F := F)).arr_whole c
    ((pdats m outs hO hH 1 c).share_full fun _ => rfl) (fun b => V3 m outs c b) fun _ => rfl).trans
    (BI.sep_mono (BI.Entails.refl _) ((Entails.of_eq (Pipeline.unscopedRest_split (launch1 (F := F)).pre c (fun b => V3 m outs c b))).trans
      (BI.sep_mono (Entails.of_eq (congrArg (fun T => (Pipeline.prefHeld (Ix := Unit) (Name := ℕ) (U := UU nD τ) (Lvl := ℕ) pre1 c (fun _ => fullShare) T : sProp 𝕄)) (tblV3 m outs c)))
        (restP1_split c (fun b => V3 m outs c b)).1)))

/-- Leaving it. -/
theorem leave1 (hO : Ok m) (hH : Hyps m)
    (h48 : ∀ c, outs 4 main_v8 c = acc1 m outs hO hH c (cfgB m hO).N) (c : Dev nD) :
    iprop((pdats m outs hO hH 1 c).arrays ((pdats m outs hO hH 1 c).arrAt · (Pipeline.pin (pcfgs (F := F)) (adm m hO) 1).N)
        ∗ Pipeline.prefHeld pre1 c (fun _ => fullShare) (tbl1 m)
        ∗ pt c (Memref.whole main_v8) (acc1 m outs hO hH c (cfgB m hO).N) ∗ rest14 c (fun b => V3 m outs c b))
      ⊢ (StableHlo.held (c : Thread nD τ) (Pipeline.ucRefs τ sig) (V4 m outs c) : sProp 𝕄) := by
  rw [show StableHlo.held (c : Thread nD τ) (Pipeline.ucRefs τ sig) (V4 m outs c) = unscopedBufs c (fun b => V4 m outs c b) from
      (Pipeline.unscopedBufs_held c _).symm,
    Pipeline.unscopedBufs_split (Pipeline.pin (pcfgs (F := F)) (adm m hO)) 1 (launch1 (F := F)).win.arr_unscoped (launch1 (F := F)).win.arr_inj c (fun b => V4 m outs c b),
    Pipeline.arrays_eq (Pipeline.pin (pcfgs (F := F)) (adm m hO)) (pdats m outs hO hH) 1 c (launch1 (F := F)).arr_whole
      ((pdats m outs hO hH 1 c).share_full fun _ => rfl)]
  refine BI.sep_mono (Entails.of_eq (bigSep_congr fun w _ =>
      congrArg (fun f => (((c : Thread nD τ).loc (Pipeline.arrRef spec1 w)) ↦{fullShare} f : sProp 𝕄)) (arr1_final m outs hO hH c w))) ?_
  refine (BI.sep_mono (Entails.of_eq (congrArg (fun T => (Pipeline.prefHeld (Ix := Unit) (Name := ℕ) (U := UU nD τ) (Lvl := ℕ) pre1 c (fun _ => fullShare) T : sProp 𝕄)) (tblV4 m outs c).symm))
    ?_).trans (Entails.of_eq (Pipeline.unscopedRest_split (launch1 (F := F)).pre c (fun b => V4 m outs c b)).symm)
  refine (BI.sep_mono (Entails.of_eq (congrArg (fun f => pt c (Memref.whole main_v8) f) ((h48 c).symm.trans (V4_v8 m outs c).symm)))
    (Entails.of_eq (rest14_V4 m outs c).symm)).trans (restP1_split c (fun b => V4 m outs c b)).2

/-- The second body's one counter is scoped, and no staging cell. -/
theorem ownSemFacts1 : Pipeline.OwnSemFacts spec1 (fun _ : Fin 1 => (SemLoc.dma 10 : SemLoc sig)) := by decide

/-- The second body's one counter at zero. -/
theorem ownSems1_eq (c : Dev nD) :
    (Pipeline.ownSems0 (Ix := Unit) (Name := ℕ) (U := UU nD τ) (Lvl := ℕ) (Val := Elt F) (τ := τ) (fun _ : Fin 1 => (SemLoc.dma 10 : SemLoc sig)) c : sProp 𝕄)
      = semVal ((c : Thread nD τ), SemLoc.dma 10) 0 := by
  unfold Pipeline.ownSems0
  rw [show (Finset.univ : Finset (Fin 1)) = {(0 : Fin 1)} from by decide, bigSep_singleton]

set_option backward.isDefEq.respectTransparency.types false in
/-- THE SECOND LAUNCH as a segment of the program: entered with every unscoped buffer at what the host operations
    between the launches left, it is left with the centres' buffer at the last `acc1` and everything else as it was. -/
def reg1 (hO : Ok m) (hH : Hyps m) (h48 : ∀ c, outs 4 main_v8 c = acc1 m outs hO hH c (cfgB m hO).N) :
    RegionSeg (pcfgs (F := F)) (adm m hO) (pdats m outs hO hH) () defs₀ 𝒱₀ L lv 1 where
  win := (launch1 (F := F)).win.to₀
  block_pos := (launch1 (F := F)).block_pos
  stage_whole := (launch1 (F := F)).stage_whole
  K := Fin 1
  osem := fun _ => SemLoc.dma 10
  ho := ownSemFacts1
  hbody c := (body_obligation1 m outs hO hH c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(pt c (Memref.whole main_v8) (V3 m outs c main_v8) ∗ semVal ((c : Thread nD τ), SemLoc.dma 10) 0)
  Y c := iprop(pt c (Memref.whole main_v8) (acc1 m outs hO hH c (cfgB m hO).N)
    ∗ Pipeline.prefHeld (Ix := Unit) (Name := ℕ) (U := UU nD τ) (Lvl := ℕ) pre1 c (fun _ => fullShare) (tbl1 m))
  Z c := rest14 c (fun b => V3 m outs c b)
  hentry c := by
    rw [ownSems1_eq]
    iintro ⟨⟨Hub, HO⟩, Hos, -⟩
    ihave H := (enter1 m outs hO hH c) $$ Hub
    icases H with ⟨Ha, Hp, H8, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H8 Hos]
    · isplitl [H8]; · iexact H8
      iexact Hos
    iexact Hz
  hin c := by
    show iprop(iprop(pt c (Memref.whole main_v8) (V3 m outs c main_v8) ∗ semVal ((c : Thread nD τ), SemLoc.dma 10) 0)
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c)
      ⊢ iprop(pt c (Memref.whole main_v8) (V3 m outs c main_v8) ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c)
    iintro ⟨⟨H8, Hd⟩, Hp, Hr⟩
    isplitl [H8]; · iexact H8
    isplitl [Hd]; · iexact Hd
    isplitl [Hp]; · iexact Hp
    iexact Hr
  hout c := by
    rw [ownSems1_eq]
    show iprop(pt c (Memref.whole main_v8) (acc1 m outs hO hH c (cfgB m hO).N) ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c)
      ⊢ iprop(iprop(pt c (Memref.whole main_v8) (acc1 m outs hO hH c (cfgB m hO).N)
          ∗ Pipeline.prefHeld (Ix := Unit) (Name := ℕ) (U := UU nD τ) (Lvl := ℕ) pre1 c (fun _ => fullShare) (tbl1 m))
        ∗ semVal ((c : Thread nD τ), SemLoc.dma 10) 0
        ∗ Pipeline.scopedRest (Ix := Unit) (Name := ℕ) (U := UU nD τ) (Lvl := ℕ) (Val := Elt F) spec1 c)
    iintro ⟨H8, Hd, Hp, Hr⟩
    isplitl [H8 Hp]
    · isplitl [H8]; · iexact H8
      iexact Hp
    isplitl [Hd]; · iexact Hd
    iexact Hr
  hexit c := by
    iintro ⟨Ha, HO, ⟨H8, Hp⟩, Hz⟩
    ihave Hh := (leave1 m outs hO hH h48 c) $$ [Ha Hp H8 Hz]
    · isplitl [Ha]; · iexact Ha
      isplitl [Hp]; · iexact Hp
      isplitl [H8]; · iexact H8
      iexact Hz
    imodintro
    isplitl [Hh]; · iexact Hh
    unfold Pipeline.Dat.owesAt Pipeline.owesWithin
    icases HO with ⟨%W, -, HO⟩; iexists W; iexact HO

/-! ## The program's run -/

/-- What rides beside the buffers through each host stretch. -/
abbrev Erest : Fin 3 → Dev nD → sProp 𝕄 := fun _ c => R c

/-- The launch element: the pipelines' staging cells and transfers as the library deals them; no counter drawn yet. -/
def u₀ (hO : Ok m) : UU nD τ :=
  (initOf (Pipeline.cells (Pipeline.pin (pcfgs (F := F)) (adm m hO)) (cellOf_inj (adm m hO)))
    (Pipeline.launchToks (Pipeline.pin (pcfgs (F := F)) (adm m hO)) (cellOf_inj (adm m hO))), 1)

set_option backward.isDefEq.respectTransparency.types false in
/-- From any memory with zero counters, under the two side conditions of the table: every weakly fair execution of the
    program terminates, nothing faulting, with its two results at what the last host stretch computes from what the
    launches left (`V5`) and its three arguments as launched. @main is run as its five items in order — host
    stretch, first launch, host stretch, second launch, host stretch —, each entered from exactly what the one before
    left; the first state is made from what the launch deals, the last is read against the final memory. -/
theorem run_main (hO : Ok m) (hH : Hyps m)
    (h20 : ∀ c, outs 2 main_v2_0 c = (dat0 m hO c).arrAt 2 (cfgA m hO).N)
    (h21 : ∀ c, outs 2 main_v2_1 c = (dat0 m hO c).arrAt 3 (cfgA m hO).N)
    (h48 : ∀ c, outs 4 main_v8 c = acc1 m outs hO hH c (cfgB m hO).N) :
    θ_run defs (onTc (τ := τ) (main (F := F))) ⟨m, fun _ => 0, ρ⟩ (fun r => ∀ c : Dev nD,
      r.2.mem ((c.tc : Thread nD τ).loc main_v7) = V5 m outs c main_v7
      ∧ r.2.mem ((c.tc : Thread nD τ).loc main_v9) = V5 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) (adm m hO) (pdats m outs hO hH) () (cellOf_inj (adm m hO)) embL defs₀ 𝒱₀ L lv m ρ main
    [.host (seg0 m 𝒱₀ L lv Erest), .region (reg0 m outs hO hH h20 h21), .host (seg2 m outs 𝒱₀ L lv Erest),
      .region (reg1 m outs hO hH h48), .host (seg4 m outs 𝒱₀ L lv Erest)]
    (fun c Q => by
      rw [main_segs (adm m hO) (pdats m outs hO hH) () 𝒱₀ L lv (seg0 m 𝒱₀ L lv Erest) (seg2 m outs 𝒱₀ L lv Erest)
        (seg4 m outs 𝒱₀ L lv Erest) (reg0 m outs hO hH h20 h21) (reg1 m outs hO hH h48) rfl rfl rfl c])
    (by simp only [Pipeline.Seg.pipes_host, Pipeline.Seg.pipes_region, Pipeline.Seg.pipes_nil]; decide)
    (O₀ := 0) (hL := fun _ _ => rfl) (G := fun _ => iprop(emp)) (u₀ := u₀ m hO)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m outs c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v7) = V5 m outs c main_v7
      ∧ s.mem ((c.tc : Thread nD τ).loc main_v9) = V5 m outs c main_v9
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V5 m outs c) s') $$ [Hh HSI]
      · isplitl [Hh] <;> iassumption
      icases Hr with ⟨%h, HSI⟩
      imodintro
      isplitr
      · ipureintro
        have rd : ∀ r : Ref sig .tc, (Proc.devRef .tc r : DevRef τ sig).isScoped = false →
            s'.mem.mem ((c.tc : Thread nD τ).loc r) = V5 m outs c r := fun r hr =>
          h (Proc.devRef .tc r) (Finset.mem_filter.mpr ⟨StableHlo.devRef_mem_tcRefs r, by simp [hr]⟩)
        exact ⟨rd main_v7 (by decide), rd main_v9 (by decide), (rd main_arg0 (by decide)).trans (V5_main_arg0 m outs c),
          (rd main_arg1 (by decide)).trans (V5_main_arg1 m outs c), (rd main_arg2 (by decide)).trans (V5_main_arg2 m outs c)⟩
      · iexact HSI)
    (hQ := fun _ h => h)

/-- info: 'Cert.CL.K.run_main' depends on axioms: [propext, Classical.choice, Quot.sound] -/
#guard_msgs in #print axioms run_main

/-! ## What the launches leave, chosen -/

/-- The second launch's running buffer depends on what the launches leave only through the buffers the host stretch
    before it computes from. -/
theorem acc1_congr (outs' : Outs (F := F)) (hO : Ok m) (hH : Hyps m) (c : Dev nD) (hV : V3 m outs c = V3 m outs' c) (n : Nat) :
    acc1 m outs hO hH c n = acc1 m outs' hO hH c n := by
  induction n with
  | zero =>
    show V3 m outs c main_v8 = V3 m outs' c main_v8
    rw [hV]
  | succ n ih =>
    rw [acc1, acc1]
    by_cases h : n < (cfgB m hO).N
    · rw [dif_pos h, dif_pos h, ih]
      have hb : iblk1 m outs hO c 0 ⟨n, h⟩ = iblk1 m outs' hO c 0 ⟨n, h⟩ := by unfold iblk1; rw [hV]
      rw [hb]
    · rw [dif_neg h, dif_neg h, ih]

/-- What the first launch leaves in its two outputs' arrays; elsewhere, anything. -/
def outsA (hO : Ok m) : Outs (F := F) := fun _ r c =>
  if h : r = main_v2_0 then h ▸ ((dat0 m hO c).arrAt 2 (cfgA m hO).N : Buf (Elt F) ((c : Thread nD τ).loc main_v2_0))
  else if h : r = main_v2_1 then h ▸ ((dat0 m hO c).arrAt 3 (cfgA m hO).N : Buf (Elt F) ((c : Thread nD τ).loc main_v2_1))
  else V0 m c r

/-- With it, what the second launch leaves in the centres' buffer. -/
def outsC (hO : Ok m) (hH : Hyps m) : Outs (F := F) := fun J r c =>
  if J = 4 then
    (if h : r = main_v8 then h ▸ (acc1 m (outsA m hO) hO hH c (cfgB m hO).N : Buf (Elt F) ((c : Thread nD τ).loc main_v8))
      else outsA m hO J r c)
  else outsA m hO J r c

theorem outsC_two (hO : Ok m) (hH : Hyps m) (r : Ref sig .tc) (c : Dev nD) : outsC m hO hH 2 r c = outsA m hO 2 r c :=
  if_neg (by decide)

theorem outsC_h20 (hO : Ok m) (hH : Hyps m) (c : Dev nD) : outsC m hO hH 2 main_v2_0 c = (dat0 m hO c).arrAt 2 (cfgA m hO).N :=
  (outsC_two m hO hH main_v2_0 c).trans (dif_pos rfl)

theorem outsC_h21 (hO : Ok m) (hH : Hyps m) (c : Dev nD) : outsC m hO hH 2 main_v2_1 c = (dat0 m hO c).arrAt 3 (cfgA m hO).N :=
  (outsC_two m hO hH main_v2_1 c).trans ((dif_neg (by decide)).trans (dif_pos rfl))

theorem V3_outsC (hO : Ok m) (hH : Hyps m) (c : Dev nD) : V3 m (outsC m hO hH) c = V3 m (outsA m hO) c := by
  show StableHlo.after hostOps1 (Function.update (Function.update (V1 m c) main_v2_0 (outsC m hO hH 2 main_v2_0 c)) main_v2_1 (outsC m hO hH 2 main_v2_1 c))
    = StableHlo.after hostOps1 (Function.update (Function.update (V1 m c) main_v2_0 (outsA m hO 2 main_v2_0 c)) main_v2_1 (outsA m hO 2 main_v2_1 c))
  rw [outsC_two, outsC_two]

theorem outsC_h48 (hO : Ok m) (hH : Hyps m) (c : Dev nD) :
    outsC m hO hH 4 main_v8 c = acc1 m (outsC m hO hH) hO hH c (cfgB m hO).N :=
  ((if_pos rfl).trans (dif_pos rfl)).trans (acc1_congr m (outsC m hO hH) (outsA m hO) hO hH c (V3_outsC m hO hH c) _).symm

/-- THE RUN, with what the launches leave chosen: under the two side conditions of the table, the program terminates
    with its results at the last valuation and its arguments as launched. -/
theorem run_final (hO : Ok m) (hH : Hyps m) :
    θ_run defs (onTc (τ := τ) (main (F := F))) ⟨m, fun _ => 0, ρ⟩ (fun r => ∀ c : Dev nD,
      r.2.mem ((c.tc : Thread nD τ).loc main_v7) = V5 m (outsC m hO hH) c main_v7
      ∧ r.2.mem ((c.tc : Thread nD τ).loc main_v9) = V5 m (outsC m hO hH) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m (outsC m hO hH) ρ hO hH (outsC_h20 m hO hH) (outsC_h21 m hO hH) (outsC_h48 m hO hH)

end Cert.CL.K

end
-- ==== Proof.KHyps.lean ====
/-
  The two side conditions of the table of class ids, from one bound: every id, read as an unsigned word, is below the
  number of centres. Then each gathered centre block, at block index the id, lies inside the centres' array (and a
  block of 32-bit elements is word-exact), and each row the second body slices lies inside the centres' buffer.
-/
import proofs.«424214_j72353019068995_1_alg».proof.Proof.KData

noncomputable section

namespace Cert.CL.K

open Cert.Kernel Cert.Kernel.Gen
open Idealize.ShloMosaic Idealize.ShloMosaic.TcCoe Idealize.SL.Sem

variable {F : FTy → Type} [FloatOps F]

/-- A block index below the number of rows keeps a one-row block inside. -/
theorem block_inb (n : Nat) (h : n < 100000) : (n + 1) * 1 ≤ 100000 := by omega

/-- A word below the number of centres names a row inside the centres' buffer. -/
theorem chk1_of_lt (v : BitVec 32) (h : v.toNat < 100000) : k1_chk1 v := by
  intro a
  fin_cases a
  · show v.toNat + 1 ≤ 100000
    omega
  · show 0 + 1 ≤ 1
    omega
  · show 0 + 512 ≤ 512
    omega

/-- At a table all of whose words are below the number of centres, the first launch's gathered blocks lie inside. -/
theorem ok0_of_lt (pf : pre0.Contents (Elt F)) (hlt : ∀ i, (pf 0 i).toNat < 100000) : ok0 (F := F) pf := fun i =>
  ⟨fun a => by
    fin_cases a
    · exact block_inb _ (hlt _)
    · show (0 + 1) * 1 ≤ 1
      omega
    · show (0 + 1) * 512 ≤ 512
      omega, Or.inl rfl⟩

variable (m : (ℓ : Loc nD τ sig) → Buf (Elt F) ℓ)

/-- The first launch's side condition, from the bound. -/
theorem ok_of_lt (hlt : ∀ i, (tbl0 m 0 i).toNat < 100000) : Ok m := ok0_of_lt (tbl0 m) hlt

/-- The second body's side condition, from the bound. -/
theorem hyps_of_lt (hlt : ∀ i, (tbl1 m 0 i).toNat < 100000) : Hyps m := fun i => chk1_of_lt _ (hlt i)

end Cert.CL.K

end
-- ==== Proof.KIBody.lean ====
/-
  The program's two kernel bodies, each run once at symbolic operands.

  The first body takes a sample's embedding block `x0` and the block of the centre its class id names `x1`, and
  leaves their difference in its first output block (`out0_2`) and the squared length of that difference in its
  second (`out0_3`); each output block is written by one store through the whole block.

  The second body reads the sample's class id `v` from the table of ids, copies row `v` of the centres' buffer
  into a scratch row, adds the step size times the sample's difference block `x` to it, and copies the scratch row
  back over row `v`. The copies are started and waited one after the other on one counter, so each wait ends
  with the counter back at zero and the copy landed. Its effect on the centres' buffer `A` is `step1 v x A`:
  row `v` becomes that row plus the step, every other row is as it was, whatever the scratch row held before.
  The body has a step only if row `v` lies inside the buffer; that is the hypothesis `hchk` on the table.
-/
import proofs.«424214_j72353019068995_1_alg».proof.Proof.Gen.KernelIdeal
import proofs.«424214_j72353019068995_1_alg».proof.Proof.Gen.KernelIdeal.Skeleton
import Idealize.ShloMosaic.Lib.Tactic
import Idealize.ShloMosaic.Lib.Pipeline.Kit
import Idealize.ShloMosaic.Lib.Pipeline.FrameBody
import Idealize.ShloMosaic.Lib.Pipeline.Value

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipelines' staging cells beside the counters the body's own copies draw on. -/
abbrev UU (nD : Nat) (τ : Topo) : Type := UR sig nD τ × Counters

local notation "𝕄" => MT nD τ sig Unit (Elt F) ℕ (UU nD τ) ℕ

/-- A memref's buffer on core `c`, and that buffer held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The first body: the difference and its squared length -/

/-- The whole block of 512 lanes, and the whole one-element block. -/
abbrev r3 : Rect S1x1x512 := Rect.unit (s := S1x1x512) ![0, 0, 0] S1x1x512.size inb_S1x1x512_S1x1x512_0_0_0
abbrev r1 : Rect S1x1x1 := Rect.unit (s := S1x1x1) ![0, 0, 0] S1x1x1.size inb_S1x1x1_S1x1x1_0_0_0

/-- What the body leaves in its first output block: the one store of the difference. -/
def out0_2 (x0 x1 : Vec F S1x1x512 .f32) : Vec F S1x1x512 .f32 :=
  View.canon [⟨r3, k0_pay1 (View.ld x0 r3) (View.ld x1 r3)⟩]

/-- What it leaves in its second: the one store of the squared length. -/
def out0_3 (x0 x1 : Vec F S1x1x512 .f32) : Vec F S1x1x1 .f32 :=
  View.canon [⟨r1, k0_pay2 (View.ld x0 r3) (View.ld x1 r3)⟩]

theorem cover0_2 (p0 : Vec F S1x1x512 .f32) (y : S1x1x512.Idx) :
    ∃ pc ∈ ([⟨r3, p0⟩] : List (View.Piece (Elt F) S1x1x512 .f32)), y ∈ pc.1.set :=
  View.cover_of_tiled [⟨r3, p0⟩] S1x1x512.size (by rfl) y

theorem cover0_3 (p0 : Vec F S1x1x1 .f32) (y : S1x1x1.Idx) :
    ∃ pc ∈ ([⟨r1, p0⟩] : List (View.Piece (Elt F) S1x1x1 .f32)), y ∈ pc.1.set :=
  View.cover_of_tiled [⟨r1, p0⟩] S1x1x1.size (by rfl) y

set_option maxHeartbeats 1000000 in
/-- The first body on whole staging memrefs, the inputs' at `x0`, `x1` and the outputs' at anything, runs to the
    continuation with the inputs as they were and the outputs at `out0_2 x0 x1`, `out0_3 x0 x1`. -/
theorem sound_kernel0 (c : Dev nD) (E : Set ℕ) (i : grid0.Coords)
    (arg2 : Memref sig .tc .vmem S1x1x512 .f32) (harg2 : arg2.IsWhole) (arg3 : Memref sig .tc .vmem S1x1x512 .f32) (harg3 : arg3.IsWhole)
    (arg4 : Memref sig .tc .vmem S1x1x512 .f32) (harg4 : arg4.IsWhole) (arg5 : Memref sig .tc .vmem S1x1x1 .f32) (harg5 : arg5.IsWhole)
    (x0 x1 : Vec F S1x1x512 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0 x1) ∗ owns (c : Thread nD τ) arg5 fullShare (out0_3 x0 x1)) -∗ K ⟨⟩))
      ⊢ wp frame (wpE (defs₀ (F := F)) Variants.none c none) E
          (cc0__gather_delta_kernel i (Memref.whole main_arg0) (Memref.isWhole_whole _) arg2 harg2 arg3 harg3 arg4 harg4 arg5 harg5) K := by
  simp only [cc0__gather_delta_kernel_eq_skeleton]; unfold cc0__gather_delta_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  iexists _; isplitr
  swap; · iexact H3
  ipureintro
  exact View.read_writes_eq_canon _ _ _ (cover0_3 _)

/-! ## The second body: one row of the centres' buffer read, stepped and written back -/

/-- The class id the second body reads from the table at grid point `t`. -/
def wordAt (c : Dev nD) (fy : Bf (F := F) c (Memref.whole main_arg0)) (t : Fin grid1.N) : Elt F main_arg0.ty.elt :=
  View.readAt (Elt F) (Memref.whole main_arg0).view (Rect.unit (s := S4096) (k1_off1 (grid1.coords t)) S1.size (k1_off1_inb (grid1.coords t))).toLoadRect fy
    (Shape.Idx.first (numel1_S1.symm ▸ Nat.one_pos))

/-- The row of the centres' buffer a class id names, as the body slices it. -/
abbrev rowRef (v : BitVec 32) (hv : k1_chk1 v) : Memref sig .tc .hbm S1x512 .f32 :=
  ((Memref.whole main_v8).slice (Rect.unit (s := S100000x1x512) (k1_off2 v) S1x1x512.size (k1_off2_inb v hv)) (fun _ => rfl)).squeeze S1x512 squeezes_S1x1x512_S1x512

/-- One grid point's effect on the centres' buffer: row `v` takes the body's payload of the sample's block `x` and
    of the row itself (the row plus the step size times the block); every other row is unchanged. -/
def step1 (c : Dev nD) (v : BitVec 32) (hv : k1_chk1 v) (x : Vec F S1x1x512 .f32) (A : Bf (F := F) c (Memref.whole main_v8)) :
    Bf (F := F) c (Memref.whole main_v8) :=
  View.write (Elt F) (rowRef v hv).view A (k1_pay1 x (View.read (Elt F) (rowRef v hv).view A)) Finset.univ

/-- An unmasked write through a whole view reads back as its payload. -/
theorem read_write_univ {sig' : RefSig} {κ : Kind} {sp : Space} {s : Shape} {e : EltTy} (v : View sig' κ sp s e)
    (f : v.ty.Contents (Elt F)) (w : s.Idx → Elt F e) :
    v.read (Elt F) (v.write (Elt F) f w Finset.univ) = w := by
  have h := View.write_univ_eq_writes_whole v f [] w
  rw [View.writes_nil] at h
  rw [h, View.read_writes_whole]

/-- One store through the whole-shape rectangle at zero offsets reads back as its payload, whatever the buffer held. -/
theorem read_writes_unit_zero {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w := by
  subst h
  exact View.read_writes_whole v f w

set_option maxHeartbeats 1000000 in
/-- The second body at grid point `t`: from the table of ids held at `fy` (every id naming a row inside the buffer),
    the sample's block at `x`, the centres' buffer at `A`, the scratch row at `fs`, its counter at zero and the core
    owing nothing, it runs to the continuation with the table and the block as they were, the counter at zero again,
    the core owing nothing, and the centres' buffer at the contents the run finds (`scatterRun_eq`: `step1`). -/
def scatterRun (c : Dev nD) (t : Fin grid1.N) (M2 : Memref sig .tc .vmem S1x1x512 .f32) (h2 : M2.IsWhole)
    (fy : Bf (F := F) c (Memref.whole main_arg0)) (x : Vec F S1x1x512 .f32) (A : Bf (F := F) c (Memref.whole main_v8))
    (fs : Bf (F := F) c (Memref.whole cc1_scratch0)) (hchk : ∀ i, k1_chk1 (fy i)) :
    { A' : Bf (F := F) c (Memref.whole main_v8) // ∀ (W : Waits sig Unit) (K : PUnit → sProp 𝕄),
        iprop(pt c (Memref.whole main_arg0) fy ∗ owns (c : Thread nD τ) M2 fullShare x ∗ pt c (Memref.whole main_v8) A
            ∗ pt c (Memref.whole cc1_scratch0) fs ∗ semVal ((c : Thread nD τ), SemLoc.dma 10) 0 ∗ owes (c : Thread nD τ) 0 W
            ∗ (iprop(pt c (Memref.whole main_arg0) fy ∗ owns (c : Thread nD τ) M2 fullShare x ∗ pt c (Memref.whole main_v8) A'
                ∗ (∃ f, pt c (Memref.whole cc1_scratch0) f) ∗ semVal ((c : Thread nD τ), SemLoc.dma 10) 0
                ∗ ∃ W, owes (c : Thread nD τ) 0 W) -∗ K ⟨⟩))
          ⊢ wp frame (wpE (defs₀ (F := F)) Variants.none c none) Set.univ
              (cc1__scatter_kernel (grid1.coords t) (Memref.whole main_arg0) (Memref.isWhole_whole _) M2 h2
                (Memref.whole main_v8) (Memref.isWhole_whole _) (Memref.whole main_v8) (Memref.isWhole_whole _)
                (Memref.whole cc1_scratch0) (Memref.isWhole_whole _) cc1_scratch1) K } := by
  refine ⟨?_, fun W K => ?run⟩
  case run =>
    unfold owns
    iintro ⟨Hy, ⟨%f2, %hf2, H2⟩, HA, Hs, Hd, HO, Hk⟩
    obtain rfl := h2.eq_unread hf2
    sl_exec! (disch := exact hchk _)
    sl_step
    iapply Hk
    isplitl [Hy]; · iexact Hy
    isplitl [H2]
    · iexists _; isplitr; · ipureintro; exact h2.read_unread _
      iexact H2
    isplitl [HA]; · iexact HA
    isplitl [Hs]; · iexists _; iexact Hs
    isplitl [Hd]; · iexact Hd
    iexists _; iexact HO

/-- What the run leaves in the centres' buffer is `step1` at the id read: the scratch row's earlier contents and the
    staging memref do not enter. -/
theorem scatterRun_eq (c : Dev nD) (t : Fin grid1.N) (M2 : Memref sig .tc .vmem S1x1x512 .f32) (h2 : M2.IsWhole)
    (fy : Bf (F := F) c (Memref.whole main_arg0)) (x : Vec F S1x1x512 .f32) (A : Bf (F := F) c (Memref.whole main_v8))
    (fs : Bf (F := F) c (Memref.whole cc1_scratch0)) (hchk : ∀ i, k1_chk1 (fy i)) :
    (scatterRun c t M2 h2 fy x A fs hchk).1 = step1 c (wordAt c fy t) (hchk _) x A := by
  unfold scatterRun
  dsimp only
  unfold scatterRun.sl.HA_w1 step1 scatterRun.sl.dma5 scatterRun.sl.Hs_1 scatterRun.sl.v8 scatterRun.sl.dma1
  have hz2 : (![0, 0] : Fin 2 → Nat) = fun _ => 0 := by funext a; fin_cases a <;> rfl
  have hz3 : (![0, 0, 0] : Fin 3 → Nat) = fun _ => 0 := by funext a; fin_cases a <;> rfl
  refine congrArg (fun w => View.write (Elt F) (rowRef (wordAt c fy t) (hchk _)).view A w Finset.univ) ?_
  simp only [ReadAs.apply_same, View.readAt_eq_ld, read_write_univ, View.ld_unit_zero (S := S1x512) hz2,
    View.ld_unit_zero (S := S1x1x512) hz3, h2.read_unread]
  exact read_writes_unit_zero (S := S1x512) _ _ hz2 _ _

end Cert.CL.KI

end
-- ==== Proof.KIData.lean ====
/-
  The proof data of the program's two kernel launches.

  The table of class ids is read off the launch memory (the program runs on one device). The first launch is
  admissible when every id, as a block index, keeps the gathered centre block inside the centres' array (`Ok`); the
  second body has a step at every grid point when every id names a row inside the centres' buffer (`Hyps`).

  First launch, at grid point `t`: the two input windows hold sample `t`'s embedding block and the block of the
  centre its id names; the body leaves their difference and the squared length of it in the two output windows.
  Second launch, at grid point `t`: the input window holds sample `t`'s difference block; the centres' buffer, which
  the body copies a row out of and back into, is carried by the launch's invariant: before point `t` it holds
  `acc1 t`, the buffer as the launch found it with the steps of the samples below `t` applied one after the other.
-/
import proofs.«424214_j72353019068995_1_alg».proof.Proof.KIBody
import proofs.«424214_j72353019068995_1_alg».proof.Proof.Gen.KernelIdeal.Regions

set_option maxRecDepth 16384

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (outs : Outs (F := F))

/-! ## The table of class ids -/

/-- The table as each launch reads it at entry: the launch contents of the ids' buffer on the one device. -/
def tbl0 : pre0.Contents (Elt F) := fun j => V0 m (0 : Dev nD) (pre0.ref j)
def tbl1 : pre1.Contents (Elt F) := fun j => V0 m (0 : Dev nD) (pre1.ref j)

/-- The first launch's side condition of the table: every gathered centre block lies inside the centres' array. -/
abbrev Ok : Prop := ok0 (F := F) (tbl0 m)

/-- The second body's side condition of the table: every id names a row inside the centres' buffer. -/
def Hyps : Prop := ∀ i, k1_chk1 (tbl1 m 0 i)

/-- The table as admissible contents of each launch's prefetched tables. -/
def adm (hO : Ok m) : (p : Fin 2) → (pcfgs (F := F) p).Adm
  | ⟨0, _⟩ => ⟨tbl0 m, hO⟩
  | ⟨1, _⟩ => ⟨tbl1 m, trivial⟩
  | ⟨_ + 2, h⟩ => absurd h (Nat.not_lt.2 (Nat.le_add_left _ _))

/-- The two pipelines at the table. -/
abbrev cfgA (hO : Ok m) : Cfg sig Λ₀ := cfg0 (adm m hO 0)
abbrev cfgB (hO : Ok m) : Cfg sig Λ₀ := cfg1 (adm m hO 1)

/-! ## The first launch -/

/-- Window `w`'s block at point `t`, read off its array as the launch finds it. -/
def iblk0 (hO : Ok m) (c : Dev nD) (w : Fin (cfgA m hO).W) (t : Fin (cfgA m hO).N) :
    (((cfgA m hO).win w).xblock ((cfgA m hO).grid.coords t)).Idx → Elt F ((cfgA m hO).win w).elt :=
  (((cfgA m hO).win w).blk t).view.read (Elt F) (V1 m c (Pipeline.arrRef spec0 w))

/-- The first launch's proof data on core `c`: the arrays as the launch finds them; after the body at point `t` the
    inputs' buffers at their blocks and the outputs' at the difference and its squared length; the invariant the
    table and the scoped buffers no window stages, untouched; nothing owed. -/
def dat0 (hO : Ok m) (c : Dev nD) : Dat τ (Elt F) Unit ℕ (UU nD τ) ℕ (cfgA m hO) c where
  A w := V1 m c (Pipeline.arrRef spec0 w)
  after w t := match w with
    | ⟨0, _⟩ => iblk0 m hO c 0 t
    | ⟨1, _⟩ => iblk0 m hO c 1 t
    | ⟨2, _⟩ => out0_2 (iblk0 m hO c 0 t) (iblk0 m hO c 1 t)
    | ⟨3, _⟩ => out0_3 (iblk0 m hO c 0 t) (iblk0 m hO c 1 t)
  Φ _ := iprop(Pipeline.prefHeld (Ix := Unit) (Name := ℕ) (U := UU nD τ) (Lvl := ℕ) pre0 c (fun _ => fullShare) (tbl0 m)
    ∗ Pipeline.scopedRest (Ix := Unit) (Name := ℕ) (U := UU nD τ) (Lvl := ℕ) (Val := Elt F) spec0 c)
  q _ := fullShare
  owed _ := 0

theorem A0_eq (hO : Ok m) (c : Dev nD) (w : Fin (cfgA m hO).W) : (dat0 m hO c).A w = V1 m c (Pipeline.arrRef spec0 w) := by
  dsimp only [dat0]

theorem after0_0 (hO : Ok m) (c : Dev nD) (t : Fin (cfgA m hO).N) : (dat0 m hO c).after 0 t = iblk0 m hO c 0 t := by dsimp only [dat0]; try rfl
theorem after0_1 (hO : Ok m) (c : Dev nD) (t : Fin (cfgA m hO).N) : (dat0 m hO c).after 1 t = iblk0 m hO c 1 t := by dsimp only [dat0]; try rfl
theorem after0_2 (hO : Ok m) (c : Dev nD) (t : Fin (cfgA m hO).N) :
    (dat0 m hO c).after 2 t = out0_2 (iblk0 m hO c 0 t) (iblk0 m hO c 1 t) := by dsimp only [dat0]; try rfl
theorem after0_3 (hO : Ok m) (c : Dev nD) (t : Fin (cfgA m hO).N) :
    (dat0 m hO c).after 3 t = out0_3 (iblk0 m hO c 0 t) (iblk0 m hO c 1 t) := by dsimp only [dat0]; try rfl

/-- Each input's current staging buffer holds its block at every point, fetched there or not: unfetched, the block
    index has not moved. -/
theorem before0_0 (hO : Ok m) (c : Dev nD) (t : Fin (cfgA m hO).N) (d) : (dat0 m hO c).before 0 t d = iblk0 m hO c 0 t :=
  ((dat0 m hO c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (hO : Ok m) (c : Dev nD) (t : Fin (cfgA m hO).N) (d) : (dat0 m hO c).before 1 t d = iblk0 m hO c 1 t :=
  ((dat0 m hO c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)

/-! ## The second launch -/

/-- Its one window's block at point `t`: sample `t`'s difference block, read off the array the first launch left. -/
def iblk1 (hO : Ok m) (c : Dev nD) (w : Fin (cfgB m hO).W) (t : Fin (cfgB m hO).N) :
    (((cfgB m hO).win w).xblock ((cfgB m hO).grid.coords t)).Idx → Elt F ((cfgB m hO).win w).elt :=
  (((cfgB m hO).win w).blk t).view.read (Elt F) (V3 m outs c (Pipeline.arrRef spec1 w))

/-- The centres' buffer before grid point `n`: as the launch finds it, then one body's step per sample below `n`,
    in sample order. -/
def acc1 (hO : Ok m) (hH : Hyps m) (c : Dev nD) : Nat → Bf (F := F) c (Memref.whole main_v8)
  | 0 => V3 m outs c main_v8
  | n + 1 =>
    if h : n < (cfgB m hO).N then
      step1 c (wordAt c (tbl1 m 0) ⟨n, h⟩) (hH _) (iblk1 m outs hO c 0 ⟨n, h⟩) (acc1 hO hH c n)
    else acc1 hO hH c n

/-- The second launch's proof data on core `c`: its array as the first launch left it; after the body the input's
    buffer at its block; the invariant the centres' buffer at `acc1`, the body's counter at zero, the table and the
    scoped buffers no window stages; nothing owed. -/
def dat1 (hO : Ok m) (hH : Hyps m) (c : Dev nD) : Dat τ (Elt F) Unit ℕ (UU nD τ) ℕ (cfgB m hO) c where
  A w := V3 m outs c (Pipeline.arrRef spec1 w)
  after w t := match w with
    | ⟨0, _⟩ => iblk1 m outs hO c 0 t
  Φ t := iprop(pt c (Memref.whole main_v8) (acc1 m outs hO hH c t.val) ∗ semVal ((c : Thread nD τ), SemLoc.dma 10) 0
    ∗ Pipeline.prefHeld (Ix := Unit) (Name := ℕ) (U := UU nD τ) (Lvl := ℕ) pre1 c (fun _ => fullShare) (tbl1 m)
    ∗ Pipeline.scopedRest (Ix := Unit) (Name := ℕ) (U := UU nD τ) (Lvl := ℕ) (Val := Elt F) spec1 c)
  q _ := fullShare
  owed _ := 0

theorem A1_eq (hO : Ok m) (hH : Hyps m) (c : Dev nD) (w : Fin (cfgB m hO).W) :
    (dat1 m outs hO hH c).A w = V3 m outs c (Pipeline.arrRef spec1 w) := by
  dsimp only [dat1]

theorem after1_0 (hO : Ok m) (hH : Hyps m) (c : Dev nD) (t : Fin (cfgB m hO).N) :
    (dat1 m outs hO hH c).after 0 t = iblk1 m outs hO c 0 t := by dsimp only [dat1]; try rfl

theorem before1_0 (hO : Ok m) (hH : Hyps m) (c : Dev nD) (t : Fin (cfgB m hO).N) (d) :
    (dat1 m outs hO hH c).before 0 t d = iblk1 m outs hO c 0 t :=
  ((dat1 m outs hO hH c).before_in_eq_fetched 0 rfl (fun _ => rfl) (fun _ _ _ => rfl)
    (fun t => by rw [after1_0]; unfold Dat.blockOf iblk1; rw [A1_eq]; try rfl) t d).trans
    (by unfold Dat.fetched Dat.blockOf iblk1; rw [A1_eq]; try rfl)

/-! ## The two together -/

/-- The proof data family, by launch. -/
def pdats (hO : Ok m) (hH : Hyps m) :
    (p : Fin 2) → (c : Dev nD) → Dat τ (Elt F) Unit ℕ (UU nD τ) ℕ (Pipeline.pin (pcfgs (F := F)) (adm m hO) p) c
  | ⟨0, _⟩ => fun c => dat0 m hO c
  | ⟨1, _⟩ => fun c => dat1 m outs hO hH c
  | ⟨_ + 2, h⟩ => absurd h (Nat.not_lt.2 (Nat.le_add_left _ _))

end Cert.CL.KI

end
-- ==== Proof.KIOblig.lean ====
/-
  The body obligations of the two launches: at every grid point, from the launch's invariant, the core owing nothing
  and each window's current staging buffer at what it then holds, the body runs to the invariant at the next point,
  the core owing nothing, and each staging buffer at what the proof data says the body leaves.

  First launch: the inputs' buffers hold their blocks, the body's run leaves the difference and its squared length in
  the outputs'; the invariant (the table, the other scoped buffers) passes through unread.
  Second launch: the invariant lends the body the table, the centres' buffer at `acc1 t`, the scratch row and its
  counter; the body's run returns the centres' buffer one step further, which is `acc1 (t + 1)`.
-/
import proofs.«424214_j72353019068995_1_alg».proof.Proof.KIData

set_option maxRecDepth 16384

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (outs : Outs (F := F))

/-! ## The first launch -/

/-- Each window's current staging memref at point `t`, and its wholeness. -/
abbrev ms0_0 (hO : Ok m) (t : Fin (cfgA m hO).N) : Memref sig .tc .vmem S1x1x512 .f32 := spec0_0.stage ((cfgA m hO).slots t 0)
abbrev hs0_0 (hO : Ok m) (t : Fin (cfgA m hO).N) : (ms0_0 m hO t).IsWhole := hstage0_0 (((cfgA m hO).slots t 0).cast nbuf0_0)
abbrev ms0_1 (hO : Ok m) (t : Fin (cfgA m hO).N) : Memref sig .tc .vmem S1x1x512 .f32 := spec0_1.stage ((cfgA m hO).slots t 1)
abbrev hs0_1 (hO : Ok m) (t : Fin (cfgA m hO).N) : (ms0_1 m hO t).IsWhole := hstage0_1 (((cfgA m hO).slots t 1).cast nbuf0_1)
abbrev ms0_2 (hO : Ok m) (t : Fin (cfgA m hO).N) : Memref sig .tc .vmem S1x1x512 .f32 := spec0_2.stage ((cfgA m hO).slots t 2)
abbrev hs0_2 (hO : Ok m) (t : Fin (cfgA m hO).N) : (ms0_2 m hO t).IsWhole := hstage0_2 (((cfgA m hO).slots t 2).cast nbuf0_2)
abbrev ms0_3 (hO : Ok m) (t : Fin (cfgA m hO).N) : Memref sig .tc .vmem S1x1x1 .f32 := spec0_3.stage ((cfgA m hO).slots t 3)
abbrev hs0_3 (hO : Ok m) (t : Fin (cfgA m hO).N) : (ms0_3 m hO t).IsWhole := hstage0_3 (((cfgA m hO).slots t 3).cast nbuf0_3)

/-- The body at point `t`, on what the pipeline calls it with. -/
abbrev bodyAt0 (hO : Ok m) (t : Fin (cfgA m hO).N) : Prog (TpuEff nD τ sig (Elt F) Λ₀ .tc) PUnit :=
  cc0__gather_delta_kernel (grid0.coords t) (Memref.whole main_arg0) (Memref.isWhole_whole _)
    (ms0_0 m hO t) (hs0_0 m hO t) (ms0_1 m hO t) (hs0_1 m hO t) (ms0_2 m hO t) (hs0_2 m hO t) (ms0_3 m hO t) (hs0_3 m hO t)

def bodyPre0 (hO : Ok m) (c : Dev nD) (t : Fin (cfgA m hO).N) : sProp 𝕄 :=
  iprop((dat0 m hO c).Φ t.castSucc ∗ (dat0 m hO c).owesAt () t.castSucc
    ∗ (∃ d, owns (c : Thread nD τ) (ms0_0 m hO t) fullShare ((dat0 m hO c).before 0 t d))
    ∗ (∃ d, owns (c : Thread nD τ) (ms0_1 m hO t) fullShare ((dat0 m hO c).before 1 t d))
    ∗ (∃ d, owns (c : Thread nD τ) (ms0_2 m hO t) fullShare ((dat0 m hO c).before 2 t d))
    ∗ (∃ d, owns (c : Thread nD τ) (ms0_3 m hO t) fullShare ((dat0 m hO c).before 3 t d)))

def bodyPost0 (hO : Ok m) (c : Dev nD) (t : Fin (cfgA m hO).N) : sProp 𝕄 :=
  iprop((dat0 m hO c).Φ t.succ ∗ (dat0 m hO c).owesAt () t.succ
    ∗ owns (c : Thread nD τ) (ms0_0 m hO t) fullShare ((dat0 m hO c).after 0 t)
    ∗ owns (c : Thread nD τ) (ms0_1 m hO t) fullShare ((dat0 m hO c).after 1 t)
    ∗ owns (c : Thread nD τ) (ms0_2 m hO t) fullShare ((dat0 m hO c).after 2 t)
    ∗ owns (c : Thread nD τ) (ms0_3 m hO t) fullShare ((dat0 m hO c).after 3 t))

theorem sound_body0 (hO : Ok m) (c : Dev nD) (t : Fin (cfgA m hO).N) :
    bodyPre0 m hO c t ⊢ wp frame (wpE (defs₀ (F := F)) Variants.none c none) Set.univ (bodyAt0 m hO t) (fun _ => bodyPost0 m hO c t) := by
  unfold bodyPre0 bodyPost0 bodyAt0
  simp only [before0_0, before0_1]
  rw [show (dat0 m hO c).Φ t.succ = (dat0 m hO c).Φ t.castSucc from rfl,
    show (dat0 m hO c).owesAt () t.succ = (dat0 m hO c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 m hO c 0 t) (iblk0 m hO c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The first launch's body obligation. -/
theorem body_obligation0 (hO : Ok m) (c : Dev nD) :
    BodyObligation (dat0 (F := F) m hO c) (defs₀ (F := F)) Variants.none () Set.univ := fun t => by
  rw [bigSep_W0, bigSep_W0]
  exact sound_body0 m hO c t

/-! ## The second launch -/

abbrev ms1_0 (hO : Ok m) (t : Fin (cfgB m hO).N) : Memref sig .tc .vmem S1x1x512 .f32 := spec1_0.stage ((cfgB m hO).slots t 0)
abbrev hs1_0 (hO : Ok m) (t : Fin (cfgB m hO).N) : (ms1_0 m hO t).IsWhole := hstage1_0 (((cfgB m hO).slots t 0).cast nbuf1_0)

abbrev bodyAt1 (hO : Ok m) (t : Fin (cfgB m hO).N) : Prog (TpuEff nD τ sig (Elt F) Λ₀ .tc) PUnit :=
  cc1__scatter_kernel (grid1.coords t) (Memref.whole main_arg0) (Memref.isWhole_whole _) (ms1_0 m hO t) (hs1_0 m hO t)
    (Memref.whole main_v8) (Memref.isWhole_whole _) (Memref.whole main_v8) (Memref.isWhole_whole _)
    (Memref.whole cc1_scratch0) (Memref.isWhole_whole _) cc1_scratch1

/-- The table held whole is its one buffer held whole. -/
theorem prefHeld1_eq (c : Dev nD) (T : pre1.Contents (Elt F)) :
    (Pipeline.prefHeld (Ix := Unit) (Name := ℕ) (U := UU nD τ) (Lvl := ℕ) pre1 c (fun _ => fullShare) T : sProp 𝕄)
      = pt c (Memref.whole main_arg0) (T 0) := by
  unfold Pipeline.prefHeld
  rw [show (Finset.univ : Finset (Fin 1)) = {(0 : Fin 1)} from by decide, bigSep_singleton]
  rfl

/-- The centres' buffer one point further. -/
theorem acc1_succ (hO : Ok m) (hH : Hyps m) (c : Dev nD) (t : Fin (cfgB m hO).N) :
    acc1 m outs hO hH c (t.val + 1)
      = step1 c (wordAt c (tbl1 m 0) t) (hH _) (iblk1 m outs hO c 0 t) (acc1 m outs hO hH c t.val) := by
  rw [acc1, dif_pos t.isLt]

def bodyPre1 (hO : Ok m) (hH : Hyps m) (c : Dev nD) (t : Fin (cfgB m hO).N) : sProp 𝕄 :=
  iprop((dat1 m outs hO hH c).Φ t.castSucc ∗ (dat1 m outs hO hH c).owesAt () t.castSucc
    ∗ (∃ d, owns (c : Thread nD τ) (ms1_0 m hO t) fullShare ((dat1 m outs hO hH c).before 0 t d)))

def bodyPost1 (hO : Ok m) (hH : Hyps m) (c : Dev nD) (t : Fin (cfgB m hO).N) : sProp 𝕄 :=
  iprop((dat1 m outs hO hH c).Φ t.succ ∗ (dat1 m outs hO hH c).owesAt () t.succ
    ∗ owns (c : Thread nD τ) (ms1_0 m hO t) fullShare ((dat1 m outs hO hH c).after 0 t))

theorem sound_body1 (hO : Ok m) (hH : Hyps m) (c : Dev nD) (t : Fin (cfgB m hO).N) :
    bodyPre1 m outs hO hH c t ⊢ wp frame (wpE (defs₀ (F := F)) Variants.none c none) Set.univ (bodyAt1 m hO t)
      (fun _ => bodyPost1 m outs hO hH c t) := by
  unfold bodyPre1 bodyPost1 bodyAt1
  simp only [before1_0]
  rw [after1_0]
  rw [show (dat1 m outs hO hH c).Φ t.castSucc = iprop(pt c (Memref.whole main_v8) (acc1 m outs hO hH c t.val)
        ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c) from rfl,
    show (dat1 m outs hO hH c).Φ t.succ = iprop(pt c (Memref.whole main_v8) (acc1 m outs hO hH c (t.val + 1))
        ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c) from rfl,
    prefHeld1_eq, scopedRest1_eq, acc1_succ]
  unfold Dat.owesAt Pipeline.owesWithin
  rw [show (dat1 m outs hO hH c).owed t.castSucc = 0 from rfl, show (dat1 m outs hO hH c).owed t.succ = 0 from rfl]
  iintro ⟨⟨HA, Hd, Hy, S0, S1, S2, S3, S4, S5, S6, S7, ⟨%fs, Hs⟩⟩, ⟨%W, %hW, HO⟩, ⟨%d0, H0⟩⟩
  iapply ((scatterRun c t (ms1_0 m hO t) (hs1_0 m hO t) (tbl1 m 0) (iblk1 m outs hO c 0 t) (acc1 m outs hO hH c t.val) fs hH).2 W _)
  isplitl [Hy]; · iexact Hy
  isplitl [H0]; · iexact H0
  isplitl [HA]; · iexact HA
  isplitl [Hs]; · iexact Hs
  isplitl [Hd]; · iexact Hd
  isplitl [HO]; · iexact HO
  have e := Entails.of_eq (congrArg (fun f => pt c (Memref.whole main_v8) f)
    (scatterRun_eq c t (ms1_0 m hO t) (hs1_0 m hO t) (tbl1 m 0) (iblk1 m outs hO c 0 t) (acc1 m outs hO hH c t.val) fs hH))
  iintro ⟨Hy, H0, HA0, Hs, Hd, ⟨%W', HO⟩⟩
  ihave HA := e $$ HA0
  isplitl [HA Hd Hy S0 S1 S2 S3 S4 S5 S6 S7 Hs]
  · isplitl [HA]; · iexact HA
    isplitl [Hd]; · iexact Hd
    isplitl [Hy]; · iexact Hy
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iexact Hs
  isplitl [HO]
  · iexists W'; isplitr; · ipureintro; exact fun _ _ => Or.inl trivial
    iexact HO
  iexact H0

/-- The second launch's body obligation. -/
theorem body_obligation1 (hO : Ok m) (hH : Hyps m) (c : Dev nD) :
    BodyObligation (dat1 (F := F) m outs hO hH c) (defs₀ (F := F)) Variants.none () Set.univ := fun t => by
  rw [bigSep_W1, bigSep_W1]
  exact sound_body1 m outs hO hH c t

end Cert.CL.KI

end
-- ==== Proof.KIRun.lean ====
/-
  The program's run, from its two kernel launches.

  @main is five items in order: a host stretch (two reshapes), the first launch, a host stretch (the loss from the
  squared lengths, and the copy of the centres that the second launch updates in place), the second launch, a host
  stretch (one reshape). Between two items a core holds every unscoped buffer whole at a valuation: the launch
  contents, then each host stretch's operations applied, then what a launch leaves in the arrays it may change.

  Each launch is entered by sorting those buffers into its windows' arrays, the table of class ids and the rest, and
  left by putting them back: the first launch changes only its two output arrays; the second changes only the centres'
  buffer, which its invariant carries from `acc1 0` (as found) to `acc1 N` (every sample's step applied, in order).
  The run then reads the two results and the three arguments off the last valuation against the final memory.
  What the launches leave (`outs`) is chosen last, the first launch's arrays first and the second's buffer over them;
  the second's running buffer depends on the choice only through the first's.
-/
import proofs.«424214_j72353019068995_1_alg».proof.Proof.KIOblig
import Idealize.ShloMosaic.Lib.Pipeline.Regions

set_option maxRecDepth 16384

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UU nD τ) ℕ

variable (m : (ℓ : Loc nD τ sig) → Buf (Elt F) ℓ) (outs : Outs (F := F)) (ρ : Dev nD → PrngReg)

abbrev 𝒱₀ : Variants := Variants.none
abbrev L : GSem nD τ sig → Finset Unit := fun _ => ∅
abbrev lv : GSem nD τ sig → Unit → ℕ := fun _ _ => 0
/-- What rides beside the buffers between the launches: the core owing nothing. -/
abbrev R (c : Dev nD) : sProp 𝕄 := iprop(∃ W, owes (c : Thread nD τ) (0 : CellTallies nD τ sig Unit) W)

/-! ## What the launches find and leave -/

/-- On the one device the ids' buffer reaches both launches as launched. -/
theorem tblV1 (c : Dev nD) : (fun k => V1 m c (pre0.ref k)) = tbl0 m := by
  funext k
  obtain rfl : c = 0 := Subsingleton.elim _ _
  obtain rfl : k = 0 := Subsingleton.elim _ _
  exact V1_of m 0 (pre0.ref 0) (by decide)

/-- After the first launch its two inputs' arrays are as it found them and its two outputs' arrays are what the
    write-backs of all its points leave. -/
theorem arr0_final (hO : Ok m)
    (h20 : ∀ c, outs 2 main_v2_0 c = (dat0 m hO c).arrAt 2 (cfgA m hO).N)
    (h21 : ∀ c, outs 2 main_v2_1 c = (dat0 m hO c).arrAt 3 (cfgA m hO).N) (c : Dev nD) :
    ∀ w : Fin (cfgA m hO).W, (dat0 m hO c).arrAt w (cfgA m hO).N = V2 m outs c (Pipeline.arrRef spec0 w)
  | ⟨0, _⟩ => ((dat0 m hO c).arrAt_in 0 rfl _).trans ((A0_eq m hO c 0).trans (V2_of m outs c main_v0 (by decide)).symm)
  | ⟨1, _⟩ => ((dat0 m hO c).arrAt_in 1 rfl _).trans ((A0_eq m hO c 1).trans (V2_of m outs c main_v1 (by decide)).symm)
  | ⟨2, _⟩ => (h20 c).symm.trans (by
      show _ = Function.update (Function.update (V1 m c) main_v2_0 (outs 2 main_v2_0 c)) main_v2_1 (outs 2 main_v2_1 c) main_v2_0
      rw [Function.update_of_ne (StableHlo.devRef_ne_of_ne (by decide : (main_v2_0 : Ref sig .tc) ≠ main_v2_1)), Function.update_self])
  | ⟨3, _⟩ => (h21 c).symm.trans (by
      show _ = Function.update (Function.update (V1 m c) main_v2_0 (outs 2 main_v2_0 c)) main_v2_1 (outs 2 main_v2_1 c) main_v2_1
      rw [Function.update_self])

/-- The unscoped buffers that are neither an array of the first launch nor the table are the same before and after it. -/
theorem restP0_V2 (c : Dev nD) :
    (Pipeline.unscopedRestP (Ix := Unit) (Name := ℕ) (U := UU nD τ) (Lvl := ℕ) pre0 spec0 c (fun b => V2 m outs c b) : sProp 𝕄)
      = Pipeline.unscopedRestP pre0 spec0 c (fun b => V1 m c b) := by
  rw [unscopedRestP0_eq, unscopedRestP0_eq]
  simp only [V2_of m outs c main_arg1 (by decide), V2_of m outs c main_arg2 (by decide), V2_of m outs c main_v3 (by decide),
    V2_of m outs c main_cst (by decide), V2_of m outs c main_v4 (by decide), V2_of m outs c main_v5 (by decide),
    V2_of m outs c main_cst_0 (by decide), V2_of m outs c main_v6 (by decide), V2_of m outs c main_cst_1 (by decide),
    V2_of m outs c main_v7 (by decide), V2_of m outs c main_v8 (by decide), V2_of m outs c main_v9 (by decide)]

/-- The ids' buffer is not an array the first launch changes. -/
theorem tblV2 (c : Dev nD) : (fun k => V2 m outs c (pre0.ref k)) = tbl0 m :=
  (funext fun k => V2_of m outs c (pre0.ref k) (by obtain rfl : k = 0 := Subsingleton.elim _ _; decide)).trans (tblV1 m c)

/-- Entering the first launch: every unscoped buffer at what the host operations before it left is the launch's arrays
    at their entry contents, the table, and the rest. -/
theorem enter0 (hO : Ok m) (hH : Hyps m) (c : Dev nD) :
    (StableHlo.held (c : Thread nD τ) (Pipeline.ucRefs τ sig) (V1 m c) : sProp 𝕄)
      ⊢ iprop((pdats m outs hO hH 0 c).arrays ((pdats m outs hO hH 0 c).arrAt · 0)
          ∗ Pipeline.prefHeld pre0 c (fun _ => fullShare) (tbl0 m) ∗ Pipeline.unscopedRestP pre0 spec0 c (fun b => V1 m c b)) := by
  rw [show StableHlo.held (c : Thread nD τ) (Pipeline.ucRefs τ sig) (V1 m c) = unscopedBufs c (fun b => V1 m c b) from
    (Pipeline.unscopedBufs_held c _).symm]
  exact (Pipeline.arrays_of_unscopedBufs (p := 0) (pcfgs (F := F)) (adm m hO) (pdats m outs hO hH) (launch0 (F := F)).win (launch0 (F := F)).arr_whole c
    ((pdats m outs hO hH 0 c).share_full fun _ => rfl) (fun b => V1 m c b) fun _ => rfl).trans
    (sep_mono .rfl ((Entails.of_eq (Pipeline.unscopedRest_split (launch0 (F := F)).pre c (fun b => V1 m c b))).trans
      (sep_mono (Entails.of_eq (congrArg (fun T => (Pipeline.prefHeld (Ix := Unit) (Name := ℕ) (U := UU nD τ) (Lvl := ℕ) pre0 c (fun _ => fullShare) T : sProp 𝕄)) (tblV1 m c))) .rfl)))

/-- Leaving it: its arrays at their final contents, the table and the rest are every unscoped buffer at the
    valuation after it. -/
theorem leave0 (hO : Ok m) (hH : Hyps m)
    (h20 : ∀ c, outs 2 main_v2_0 c = (dat0 m hO c).arrAt 2 (cfgA m hO).N)
    (h21 : ∀ c, outs 2 main_v2_1 c = (dat0 m hO c).arrAt 3 (cfgA m hO).N) (c : Dev nD) :
    iprop((pdats m outs hO hH 0 c).arrays ((pdats m outs hO hH 0 c).arrAt · (Pipeline.pin (pcfgs (F := F)) (adm m hO) 0).N)
        ∗ Pipeline.prefHeld pre0 c (fun _ => fullShare) (tbl0 m) ∗ Pipeline.unscopedRestP pre0 spec0 c (fun b => V1 m c b))
      ⊢ (StableHlo.held (c : Thread nD τ) (Pipeline.ucRefs τ sig) (V2 m outs c) : sProp 𝕄) := by
  rw [show StableHlo.held (c : Thread nD τ) (Pipeline.ucRefs τ sig) (V2 m outs c) = unscopedBufs c (fun b => V2 m outs c b) from
      (Pipeline.unscopedBufs_held c _).symm,
    Pipeline.unscopedBufs_split (Pipeline.pin (pcfgs (F := F)) (adm m hO)) 0 (launch0 (F := F)).win.arr_unscoped (launch0 (F := F)).win.arr_inj c (fun b => V2 m outs c b),
    Pipeline.arrays_eq (Pipeline.pin (pcfgs (F := F)) (adm m hO)) (pdats m outs hO hH) 0 c (launch0 (F := F)).arr_whole
      ((pdats m outs hO hH 0 c).share_full fun _ => rfl)]
  refine BI.sep_mono (Entails.of_eq (bigSep_congr fun w _ =>
      congrArg (fun f => (((c : Thread nD τ).loc (Pipeline.arrRef spec0 w)) ↦{fullShare} f : sProp 𝕄)) (arr0_final m outs hO h20 h21 c w))) ?_
  exact (BI.sep_mono (Entails.of_eq (congrArg (fun T => (Pipeline.prefHeld (Ix := Unit) (Name := ℕ) (U := UU nD τ) (Lvl := ℕ) pre0 c (fun _ => fullShare) T : sProp 𝕄)) (tblV2 m outs c).symm))
    (Entails.of_eq (restP0_V2 m outs c).symm)).trans (Entails.of_eq (Pipeline.unscopedRest_split (launch0 (F := F)).pre c (fun b => V2 m outs c b)).symm)

set_option backward.isDefEq.respectTransparency.types false in
/-- THE FIRST LAUNCH as a segment of the program: entered with every unscoped buffer at what the host operations
    before it left, it is left with its two outputs' arrays at what its write-backs leave and everything else as it was. -/
def reg0 (hO : Ok m) (hH : Hyps m)
    (h20 : ∀ c, outs 2 main_v2_0 c = (dat0 m hO c).arrAt 2 (cfgA m hO).N)
    (h21 : ∀ c, outs 2 main_v2_1 c = (dat0 m hO c).arrAt 3 (cfgA m hO).N) :
    RegionSeg (pcfgs (F := F)) (adm m hO) (pdats m outs hO hH) () defs₀ 𝒱₀ L lv 0 where
  win := (launch0 (F := F)).win.to₀
  block_pos := (launch0 (F := F)).block_pos
  stage_whole := (launch0 (F := F)).stage_whole
  K := PEmpty
  osem := fun k => k.elim
  ho := Pipeline.OwnSemFacts.none _
  hbody c := (body_obligation0 m hO c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(emp)
  Y c := Pipeline.prefHeld (Ix := Unit) (Name := ℕ) (U := UU nD τ) (Lvl := ℕ) pre0 c (fun _ => fullShare) (tbl0 m)
  Z c := Pipeline.unscopedRestP (Ix := Unit) (Name := ℕ) (U := UU nD τ) (Lvl := ℕ) pre0 spec0 c (fun b => V1 m c b)
  hentry c := by
    iintro ⟨⟨Hub, HO⟩, -, -⟩
    ihave H := (enter0 m outs hO hH c) $$ Hub
    icases H with ⟨Ha, Hp, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (pdats m outs hO hH 0 c).Φ 0 = iprop(Pipeline.prefHeld (Ix := Unit) (Name := ℕ) (U := UU nD τ) (Lvl := ℕ) pre0 c (fun _ => fullShare) (tbl0 m)
      ∗ Pipeline.scopedRest (Ix := Unit) (Name := ℕ) (U := UU nD τ) (Lvl := ℕ) (Val := Elt F) spec0 c) from rfl]
    show iprop((emp : sProp 𝕄) ∗ Pipeline.prefHeld (Ix := Unit) (Name := ℕ) (U := UU nD τ) (Lvl := ℕ) pre0 c (fun _ => fullShare) (tbl0 m)
        ∗ Pipeline.scopedRest (Ix := Unit) (Name := ℕ) (U := UU nD τ) (Lvl := ℕ) (Val := Elt F) spec0 c)
      ⊢ iprop(Pipeline.prefHeld (Ix := Unit) (Name := ℕ) (U := UU nD τ) (Lvl := ℕ) pre0 c (fun _ => fullShare) (tbl0 m)
        ∗ Pipeline.scopedRest (Ix := Unit) (Name := ℕ) (U := UU nD τ) (Lvl := ℕ) (Val := Elt F) spec0 c)
    iintro ⟨-, Hp, Hr⟩
    isplitl [Hp]; · iexact Hp
    iexact Hr
  hout c := by
    rw [show (pdats m outs hO hH 0 c).Φ (Fin.last (Pipeline.pin (pcfgs (F := F)) (adm m hO) 0).N)
      = iprop(Pipeline.prefHeld (Ix := Unit) (Name := ℕ) (U := UU nD τ) (Lvl := ℕ) pre0 c (fun _ => fullShare) (tbl0 m)
      ∗ Pipeline.scopedRest (Ix := Unit) (Name := ℕ) (U := UU nD τ) (Lvl := ℕ) (Val := Elt F) spec0 c) from rfl]
    unfold Pipeline.ownSems0
    rw [Finset.univ_eq_empty, BI.bigSep_empty]
    iintro ⟨Hp, Hr⟩
    isplitl [Hp]; · iexact Hp
    isplitr; · iempintro
    iexact Hr
  hexit c := by
    iintro ⟨Ha, HO, Hp, Hz⟩
    ihave Hh := (leave0 m outs hO hH h20 h21 c) $$ [Ha Hp Hz]
    · isplitl [Ha]; · iexact Ha
      isplitl [Hp] <;> iassumption
    imodintro
    isplitl [Hh]; · iexact Hh
    unfold Pipeline.Dat.owesAt Pipeline.owesWithin
    icases HO with ⟨%W, -, HO⟩; iexists W; iexact HO

/-! ## The second launch -/

/-- The ids' buffer reaches the second launch as launched, and leaves it so. -/
theorem tblV3 (c : Dev nD) : (fun k => V3 m outs c (pre1.ref k)) = tbl1 m := by
  funext k
  obtain rfl : c = 0 := Subsingleton.elim _ _
  obtain rfl : k = 0 := Subsingleton.elim _ _
  exact (V3_of m outs 0 (pre1.ref 0) (by decide)).trans ((V2_of m outs 0 (pre1.ref 0) (by decide)).trans (V1_of m 0 (pre1.ref 0) (by decide)))

theorem tblV4 (c : Dev nD) : (fun k => V4 m outs c (pre1.ref k)) = tbl1 m :=
  (funext fun k => V4_of m outs c (pre1.ref k) (by obtain rfl : k = 0 := Subsingleton.elim _ _; decide)).trans (tblV3 m outs c)

/-- The centres' buffer after the second launch is what that launch leaves there. -/
theorem V4_v8 (c : Dev nD) : V4 m outs c main_v8 = outs 4 main_v8 c := by
  show Function.update (V3 m outs c) main_v8 (outs 4 main_v8 c) main_v8 = _
  rw [Function.update_self]

/-- The second launch's one array, an input, is after it as it found it. -/
theorem arr1_final (hO : Ok m) (hH : Hyps m) (c : Dev nD) :
    ∀ w : Fin (cfgB m hO).W, (dat1 m outs hO hH c).arrAt w (cfgB m hO).N = V4 m outs c (Pipeline.arrRef spec1 w)
  | ⟨0, _⟩ => ((dat1 m outs hO hH c).arrAt_in 0 rfl _).trans ((A1_eq m outs hO hH c 0).trans (V4_of m outs c main_v2_0 (by decide)).symm)

/-- The fourteen unscoped buffers the second launch neither stages, nor reads as its table, nor writes: each whole at `V`. -/
abbrev rest14 (c : Dev nD) (V : (b : Ref sig .tc) → Buf (Elt F) ((c : Thread nD τ).loc b)) : sProp 𝕄 :=
  iprop((((c : Thread nD τ).loc main_arg1) ↦{fullShare} V main_arg1) ∗ (((c : Thread nD τ).loc main_arg2) ↦{fullShare} V main_arg2)
    ∗ (((c : Thread nD τ).loc main_v0) ↦{fullShare} V main_v0) ∗ (((c : Thread nD τ).loc main_v1) ↦{fullShare} V main_v1)
    ∗ (((c : Thread nD τ).loc main_v2_1) ↦{fullShare} V main_v2_1) ∗ (((c : Thread nD τ).loc main_v3) ↦{fullShare} V main_v3)
    ∗ (((c : Thread nD τ).loc main_cst) ↦{fullShare} V main_cst) ∗ (((c : Thread nD τ).loc main_v4) ↦{fullShare} V main_v4)
    ∗ (((c : Thread nD τ).loc main_v5) ↦{fullShare} V main_v5) ∗ (((c : Thread nD τ).loc main_cst_0) ↦{fullShare} V main_cst_0)
    ∗ (((c : Thread nD τ).loc main_v6) ↦{fullShare} V main_v6) ∗ (((c : Thread nD τ).loc main_cst_1) ↦{fullShare} V main_cst_1)
    ∗ (((c : Thread nD τ).loc main_v7) ↦{fullShare} V main_v7) ∗ (((c : Thread nD τ).loc main_v9) ↦{fullShare} V main_v9))

/-- The rest of the second launch is the centres' buffer and the fourteen others. -/
theorem restP1_split (c : Dev nD) (V : (b : Ref sig .tc) → Buf (Elt F) ((c : Thread nD τ).loc b)) :
    (Pipeline.unscopedRestP (Ix := Unit) (Name := ℕ) (U := UU nD τ) (Lvl := ℕ) pre1 spec1 c V : sProp 𝕄)
      ⊣⊢ iprop((((c : Thread nD τ).loc main_v8) ↦{fullShare} V main_v8) ∗ rest14 c V) := by
  rw [unscopedRestP1_eq]
  constructor
  · iintro ⟨H1, H2, H3, H4, H5, H6, H7, H8, H9, H10, H11, H12, H13, H14, H15⟩
    isplitl [H14]; · iexact H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H15
  · iintro ⟨H14, H1, H2, H3, H4, H5, H6, H7, H8, H9, H10, H11, H12, H13, H15⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

/-- The fourteen others are the same before and after the second launch. -/
theorem rest14_V4 (c : Dev nD) : (rest14 c (fun b => V4 m outs c b) : sProp 𝕄) = rest14 c (fun b => V3 m outs c b) := by
  unfold rest14
  simp only [V4_of m outs c main_arg1 (by decide), V4_of m outs c main_arg2 (by decide), V4_of m outs c main_v0 (by decide),
    V4_of m outs c main_v1 (by decide), V4_of m outs c main_v2_1 (by decide), V4_of m outs c main_v3 (by decide),
    V4_of m outs c main_cst (by decide), V4_of m outs c main_v4 (by decide), V4_of m outs c main_v5 (by decide),
    V4_of m outs c main_cst_0 (by decide), V4_of m outs c main_v6 (by decide), V4_of m outs c main_cst_1 (by decide),
    V4_of m outs c main_v7 (by decide), V4_of m outs c main_v9 (by decide)]

/-- Entering the second launch. -/
theorem enter1 (hO : Ok m) (hH : Hyps m) (c : Dev nD) :
    (StableHlo.held (c : Thread nD τ) (Pipeline.ucRefs τ sig) (V3 m outs c) : sProp 𝕄)
      ⊢ iprop((pdats m outs hO hH 1 c).arrays ((pdats m outs hO hH 1 c).arrAt · 0)
          ∗ Pipeline.prefHeld pre1 c (fun _ => fullShare) (tbl1 m)
          ∗ pt c (Memref.whole main_v8) (V3 m outs c main_v8) ∗ rest14 c (fun b => V3 m outs c b)) := by
  rw [show StableHlo.held (c : Thread nD τ) (Pipeline.ucRefs τ sig) (V3 m outs c) = unscopedBufs c (fun b => V3 m outs c b) from
    (Pipeline.unscopedBufs_held c _).symm]
  exact (Pipeline.arrays_of_unscopedBufs (p := 1) (pcfgs (F := F)) (adm m hO) (pdats m outs hO hH) (launch1 (F := F)).win (launch1 (F := F)).arr_whole c
    ((pdats m outs hO hH 1 c).share_full fun _ => rfl) (fun b => V3 m outs c b) fun _ => rfl).trans
    (BI.sep_mono (BI.Entails.refl _) ((Entails.of_eq (Pipeline.unscopedRest_split (launch1 (F := F)).pre c (fun b => V3 m outs c b))).trans
      (BI.sep_mono (Entails.of_eq (congrArg (fun T => (Pipeline.prefHeld (Ix := Unit) (Name := ℕ) (U := UU nD τ) (Lvl := ℕ) pre1 c (fun _ => fullShare) T : sProp 𝕄)) (tblV3 m outs c)))
        (restP1_split c (fun b => V3 m outs c b)).1)))

/-- Leaving it. -/
theorem leave1 (hO : Ok m) (hH : Hyps m)
    (h48 : ∀ c, outs 4 main_v8 c = acc1 m outs hO hH c (cfgB m hO).N) (c : Dev nD) :
    iprop((pdats m outs hO hH 1 c).arrays ((pdats m outs hO hH 1 c).arrAt · (Pipeline.pin (pcfgs (F := F)) (adm m hO) 1).N)
        ∗ Pipeline.prefHeld pre1 c (fun _ => fullShare) (tbl1 m)
        ∗ pt c (Memref.whole main_v8) (acc1 m outs hO hH c (cfgB m hO).N) ∗ rest14 c (fun b => V3 m outs c b))
      ⊢ (StableHlo.held (c : Thread nD τ) (Pipeline.ucRefs τ sig) (V4 m outs c) : sProp 𝕄) := by
  rw [show StableHlo.held (c : Thread nD τ) (Pipeline.ucRefs τ sig) (V4 m outs c) = unscopedBufs c (fun b => V4 m outs c b) from
      (Pipeline.unscopedBufs_held c _).symm,
    Pipeline.unscopedBufs_split (Pipeline.pin (pcfgs (F := F)) (adm m hO)) 1 (launch1 (F := F)).win.arr_unscoped (launch1 (F := F)).win.arr_inj c (fun b => V4 m outs c b),
    Pipeline.arrays_eq (Pipeline.pin (pcfgs (F := F)) (adm m hO)) (pdats m outs hO hH) 1 c (launch1 (F := F)).arr_whole
      ((pdats m outs hO hH 1 c).share_full fun _ => rfl)]
  refine BI.sep_mono (Entails.of_eq (bigSep_congr fun w _ =>
      congrArg (fun f => (((c : Thread nD τ).loc (Pipeline.arrRef spec1 w)) ↦{fullShare} f : sProp 𝕄)) (arr1_final m outs hO hH c w))) ?_
  refine (BI.sep_mono (Entails.of_eq (congrArg (fun T => (Pipeline.prefHeld (Ix := Unit) (Name := ℕ) (U := UU nD τ) (Lvl := ℕ) pre1 c (fun _ => fullShare) T : sProp 𝕄)) (tblV4 m outs c).symm))
    ?_).trans (Entails.of_eq (Pipeline.unscopedRest_split (launch1 (F := F)).pre c (fun b => V4 m outs c b)).symm)
  refine (BI.sep_mono (Entails.of_eq (congrArg (fun f => pt c (Memref.whole main_v8) f) ((h48 c).symm.trans (V4_v8 m outs c).symm)))
    (Entails.of_eq (rest14_V4 m outs c).symm)).trans (restP1_split c (fun b => V4 m outs c b)).2

/-- The second body's one counter is scoped, and no staging cell. -/
theorem ownSemFacts1 : Pipeline.OwnSemFacts spec1 (fun _ : Fin 1 => (SemLoc.dma 10 : SemLoc sig)) := by decide

/-- The second body's one counter at zero. -/
theorem ownSems1_eq (c : Dev nD) :
    (Pipeline.ownSems0 (Ix := Unit) (Name := ℕ) (U := UU nD τ) (Lvl := ℕ) (Val := Elt F) (τ := τ) (fun _ : Fin 1 => (SemLoc.dma 10 : SemLoc sig)) c : sProp 𝕄)
      = semVal ((c : Thread nD τ), SemLoc.dma 10) 0 := by
  unfold Pipeline.ownSems0
  rw [show (Finset.univ : Finset (Fin 1)) = {(0 : Fin 1)} from by decide, bigSep_singleton]

set_option backward.isDefEq.respectTransparency.types false in
/-- THE SECOND LAUNCH as a segment of the program: entered with every unscoped buffer at what the host operations
    between the launches left, it is left with the centres' buffer at the last `acc1` and everything else as it was. -/
def reg1 (hO : Ok m) (hH : Hyps m) (h48 : ∀ c, outs 4 main_v8 c = acc1 m outs hO hH c (cfgB m hO).N) :
    RegionSeg (pcfgs (F := F)) (adm m hO) (pdats m outs hO hH) () defs₀ 𝒱₀ L lv 1 where
  win := (launch1 (F := F)).win.to₀
  block_pos := (launch1 (F := F)).block_pos
  stage_whole := (launch1 (F := F)).stage_whole
  K := Fin 1
  osem := fun _ => SemLoc.dma 10
  ho := ownSemFacts1
  hbody c := (body_obligation1 m outs hO hH c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(pt c (Memref.whole main_v8) (V3 m outs c main_v8) ∗ semVal ((c : Thread nD τ), SemLoc.dma 10) 0)
  Y c := iprop(pt c (Memref.whole main_v8) (acc1 m outs hO hH c (cfgB m hO).N)
    ∗ Pipeline.prefHeld (Ix := Unit) (Name := ℕ) (U := UU nD τ) (Lvl := ℕ) pre1 c (fun _ => fullShare) (tbl1 m))
  Z c := rest14 c (fun b => V3 m outs c b)
  hentry c := by
    rw [ownSems1_eq]
    iintro ⟨⟨Hub, HO⟩, Hos, -⟩
    ihave H := (enter1 m outs hO hH c) $$ Hub
    icases H with ⟨Ha, Hp, H8, Hz⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H8 Hos]
    · isplitl [H8]; · iexact H8
      iexact Hos
    iexact Hz
  hin c := by
    show iprop(iprop(pt c (Memref.whole main_v8) (V3 m outs c main_v8) ∗ semVal ((c : Thread nD τ), SemLoc.dma 10) 0)
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c)
      ⊢ iprop(pt c (Memref.whole main_v8) (V3 m outs c main_v8) ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c)
    iintro ⟨⟨H8, Hd⟩, Hp, Hr⟩
    isplitl [H8]; · iexact H8
    isplitl [Hd]; · iexact Hd
    isplitl [Hp]; · iexact Hp
    iexact Hr
  hout c := by
    rw [ownSems1_eq]
    show iprop(pt c (Memref.whole main_v8) (acc1 m outs hO hH c (cfgB m hO).N) ∗ semVal ((c : Thread nD τ), SemLoc.dma 10) 0
        ∗ Pipeline.prefHeld (Ix := Unit) (Name := ℕ) (U := UU nD τ) (Lvl := ℕ) pre1 c (fun _ => fullShare) (tbl1 m)
        ∗ Pipeline.scopedRest (Ix := Unit) (Name := ℕ) (U := UU nD τ) (Lvl := ℕ) (Val := Elt F) spec1 c)
      ⊢ iprop(iprop(pt c (Memref.whole main_v8) (acc1 m outs hO hH c (cfgB m hO).N)
          ∗ Pipeline.prefHeld (Ix := Unit) (Name := ℕ) (U := UU nD τ) (Lvl := ℕ) pre1 c (fun _ => fullShare) (tbl1 m))
        ∗ semVal ((c : Thread nD τ), SemLoc.dma 10) 0
        ∗ Pipeline.scopedRest (Ix := Unit) (Name := ℕ) (U := UU nD τ) (Lvl := ℕ) (Val := Elt F) spec1 c)
    iintro ⟨H8, Hd, Hp, Hr⟩
    isplitl [H8 Hp]
    · isplitl [H8]; · iexact H8
      iexact Hp
    isplitl [Hd]; · iexact Hd
    iexact Hr
  hexit c := by
    iintro ⟨Ha, HO, ⟨H8, Hp⟩, Hz⟩
    ihave Hh := (leave1 m outs hO hH h48 c) $$ [Ha Hp H8 Hz]
    · isplitl [Ha]; · iexact Ha
      isplitl [Hp]; · iexact Hp
      isplitl [H8]; · iexact H8
      iexact Hz
    imodintro
    isplitl [Hh]; · iexact Hh
    unfold Pipeline.Dat.owesAt Pipeline.owesWithin
    icases HO with ⟨%W, -, HO⟩; iexists W; iexact HO

/-! ## The program's run -/

/-- What rides beside the buffers through each host stretch. -/
abbrev Erest : Fin 3 → Dev nD → sProp 𝕄 := fun _ c => R c

/-- The launch element: the pipelines' staging cells and transfers as the library deals them; no counter drawn yet. -/
def u₀ (hO : Ok m) : UU nD τ :=
  (initOf (Pipeline.cells (Pipeline.pin (pcfgs (F := F)) (adm m hO)) (cellOf_inj (adm m hO)))
    (Pipeline.launchToks (Pipeline.pin (pcfgs (F := F)) (adm m hO)) (cellOf_inj (adm m hO))), 1)

set_option backward.isDefEq.respectTransparency.types false in
/-- From any memory with zero counters, under the two side conditions of the table: every weakly fair execution of the
    program terminates, nothing faulting, with its two results at what the last host stretch computes from what the
    launches left (`V5`) and its three arguments as launched. @main is run as its five items in order — host
    stretch, first launch, host stretch, second launch, host stretch —, each entered from exactly what the one before
    left; the first state is made from what the launch deals, the last is read against the final memory. -/
theorem run_main (hO : Ok m) (hH : Hyps m)
    (h20 : ∀ c, outs 2 main_v2_0 c = (dat0 m hO c).arrAt 2 (cfgA m hO).N)
    (h21 : ∀ c, outs 2 main_v2_1 c = (dat0 m hO c).arrAt 3 (cfgA m hO).N)
    (h48 : ∀ c, outs 4 main_v8 c = acc1 m outs hO hH c (cfgB m hO).N) :
    θ_run defs (onTc (τ := τ) (main (F := F))) ⟨m, fun _ => 0, ρ⟩ (fun r => ∀ c : Dev nD,
      r.2.mem ((c.tc : Thread nD τ).loc main_v7) = V5 m outs c main_v7
      ∧ r.2.mem ((c.tc : Thread nD τ).loc main_v9) = V5 m outs c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) (adm m hO) (pdats m outs hO hH) () (cellOf_inj (adm m hO)) embL defs₀ 𝒱₀ L lv m ρ main
    [.host (seg0 m 𝒱₀ L lv Erest), .region (reg0 m outs hO hH h20 h21), .host (seg2 m outs 𝒱₀ L lv Erest),
      .region (reg1 m outs hO hH h48), .host (seg4 m outs 𝒱₀ L lv Erest)]
    (fun c Q => by
      rw [main_segs (adm m hO) (pdats m outs hO hH) () 𝒱₀ L lv (seg0 m 𝒱₀ L lv Erest) (seg2 m outs 𝒱₀ L lv Erest)
        (seg4 m outs 𝒱₀ L lv Erest) (reg0 m outs hO hH h20 h21) (reg1 m outs hO hH h48) rfl rfl rfl c])
    (by simp only [Pipeline.Seg.pipes_host, Pipeline.Seg.pipes_region, Pipeline.Seg.pipes_nil]; decide)
    (O₀ := 0) (hL := fun _ _ => rfl) (G := fun _ => iprop(emp)) (u₀ := u₀ m hO)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V5 m outs c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v7) = V5 m outs c main_v7
      ∧ s.mem ((c.tc : Thread nD τ).loc main_v9) = V5 m outs c main_v9
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      unfold StableHlo.held
      iintro ⟨Hh, HSI⟩
      ihave Hr := (pointsTo_read_all (Pipeline.ucRefs τ sig) (fun b => ((c : Thread nD τ).1, b)) (V5 m outs c) s') $$ [Hh HSI]
      · isplitl [Hh] <;> iassumption
      icases Hr with ⟨%h, HSI⟩
      imodintro
      isplitr
      · ipureintro
        have rd : ∀ r : Ref sig .tc, (Proc.devRef .tc r : DevRef τ sig).isScoped = false →
            s'.mem.mem ((c.tc : Thread nD τ).loc r) = V5 m outs c r := fun r hr =>
          h (Proc.devRef .tc r) (Finset.mem_filter.mpr ⟨StableHlo.devRef_mem_tcRefs r, by simp [hr]⟩)
        exact ⟨rd main_v7 (by decide), rd main_v9 (by decide), (rd main_arg0 (by decide)).trans (V5_main_arg0 m outs c),
          (rd main_arg1 (by decide)).trans (V5_main_arg1 m outs c), (rd main_arg2 (by decide)).trans (V5_main_arg2 m outs c)⟩
      · iexact HSI)
    (hQ := fun _ h => h)

/-- info: 'Cert.CL.KI.run_main' depends on axioms: [propext, Classical.choice, Quot.sound] -/
#guard_msgs in #print axioms run_main

/-! ## What the launches leave, chosen -/

/-- The second launch's running buffer depends on what the launches leave only through the buffers the host stretch
    before it computes from. -/
theorem acc1_congr (outs' : Outs (F := F)) (hO : Ok m) (hH : Hyps m) (c : Dev nD) (hV : V3 m outs c = V3 m outs' c) (n : Nat) :
    acc1 m outs hO hH c n = acc1 m outs' hO hH c n := by
  induction n with
  | zero =>
    show V3 m outs c main_v8 = V3 m outs' c main_v8
    rw [hV]
  | succ n ih =>
    rw [acc1, acc1]
    by_cases h : n < (cfgB m hO).N
    · rw [dif_pos h, dif_pos h, ih]
      have hb : iblk1 m outs hO c 0 ⟨n, h⟩ = iblk1 m outs' hO c 0 ⟨n, h⟩ := by unfold iblk1; rw [hV]
      rw [hb]
    · rw [dif_neg h, dif_neg h, ih]

/-- What the first launch leaves in its two outputs' arrays; elsewhere, anything. -/
def outsA (hO : Ok m) : Outs (F := F) := fun _ r c =>
  if h : r = main_v2_0 then h ▸ ((dat0 m hO c).arrAt 2 (cfgA m hO).N : Buf (Elt F) ((c : Thread nD τ).loc main_v2_0))
  else if h : r = main_v2_1 then h ▸ ((dat0 m hO c).arrAt 3 (cfgA m hO).N : Buf (Elt F) ((c : Thread nD τ).loc main_v2_1))
  else V0 m c r

/-- With it, what the second launch leaves in the centres' buffer. -/
def outsC (hO : Ok m) (hH : Hyps m) : Outs (F := F) := fun J r c =>
  if J = 4 then
    (if h : r = main_v8 then h ▸ (acc1 m (outsA m hO) hO hH c (cfgB m hO).N : Buf (Elt F) ((c : Thread nD τ).loc main_v8))
      else outsA m hO J r c)
  else outsA m hO J r c

theorem outsC_two (hO : Ok m) (hH : Hyps m) (r : Ref sig .tc) (c : Dev nD) : outsC m hO hH 2 r c = outsA m hO 2 r c :=
  if_neg (by decide)

theorem outsC_h20 (hO : Ok m) (hH : Hyps m) (c : Dev nD) : outsC m hO hH 2 main_v2_0 c = (dat0 m hO c).arrAt 2 (cfgA m hO).N :=
  (outsC_two m hO hH main_v2_0 c).trans (dif_pos rfl)

theorem outsC_h21 (hO : Ok m) (hH : Hyps m) (c : Dev nD) : outsC m hO hH 2 main_v2_1 c = (dat0 m hO c).arrAt 3 (cfgA m hO).N :=
  (outsC_two m hO hH main_v2_1 c).trans ((dif_neg (by decide)).trans (dif_pos rfl))

theorem V3_outsC (hO : Ok m) (hH : Hyps m) (c : Dev nD) : V3 m (outsC m hO hH) c = V3 m (outsA m hO) c := by
  show StableHlo.after hostOps1 (Function.update (Function.update (V1 m c) main_v2_0 (outsC m hO hH 2 main_v2_0 c)) main_v2_1 (outsC m hO hH 2 main_v2_1 c))
    = StableHlo.after hostOps1 (Function.update (Function.update (V1 m c) main_v2_0 (outsA m hO 2 main_v2_0 c)) main_v2_1 (outsA m hO 2 main_v2_1 c))
  rw [outsC_two, outsC_two]

theorem outsC_h48 (hO : Ok m) (hH : Hyps m) (c : Dev nD) :
    outsC m hO hH 4 main_v8 c = acc1 m (outsC m hO hH) hO hH c (cfgB m hO).N :=
  ((if_pos rfl).trans (dif_pos rfl)).trans (acc1_congr m (outsC m hO hH) (outsA m hO) hO hH c (V3_outsC m hO hH c) _).symm

/-- THE RUN, with what the launches leave chosen: under the two side conditions of the table, the program terminates
    with its results at the last valuation and its arguments as launched. -/
theorem run_final (hO : Ok m) (hH : Hyps m) :
    θ_run defs (onTc (τ := τ) (main (F := F))) ⟨m, fun _ => 0, ρ⟩ (fun r => ∀ c : Dev nD,
      r.2.mem ((c.tc : Thread nD τ).loc main_v7) = V5 m (outsC m hO hH) c main_v7
      ∧ r.2.mem ((c.tc : Thread nD τ).loc main_v9) = V5 m (outsC m hO hH) c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_main m (outsC m hO hH) ρ hO hH (outsC_h20 m hO hH) (outsC_h21 m hO hH) (outsC_h48 m hO hH)

end Cert.CL.KI

end
-- ==== Proof.KIHyps.lean ====
/-
  The two side conditions of the table of class ids, from one bound: every id, read as an unsigned word, is below the
  number of centres. Then each gathered centre block, at block index the id, lies inside the centres' array (and a
  block of 32-bit elements is word-exact), and each row the second body slices lies inside the centres' buffer.
-/
import proofs.«424214_j72353019068995_1_alg».proof.Proof.KIData

noncomputable section

namespace Cert.CL.KI

open Cert.KernelIdeal Cert.KernelIdeal.Gen
open Idealize.ShloMosaic Idealize.ShloMosaic.TcCoe Idealize.SL.Sem

variable {F : FTy → Type} [FloatOps F]

/-- A block index below the number of rows keeps a one-row block inside. -/
theorem block_inb (n : Nat) (h : n < 100000) : (n + 1) * 1 ≤ 100000 := by omega

/-- A word below the number of centres names a row inside the centres' buffer. -/
theorem chk1_of_lt (v : BitVec 32) (h : v.toNat < 100000) : k1_chk1 v := by
  intro a
  fin_cases a
  · show v.toNat + 1 ≤ 100000
    omega
  · show 0 + 1 ≤ 1
    omega
  · show 0 + 512 ≤ 512
    omega

/-- At a table all of whose words are below the number of centres, the first launch's gathered blocks lie inside. -/
theorem ok0_of_lt (pf : pre0.Contents (Elt F)) (hlt : ∀ i, (pf 0 i).toNat < 100000) : ok0 (F := F) pf := fun i =>
  ⟨fun a => by
    fin_cases a
    · exact block_inb _ (hlt _)
    · show (0 + 1) * 1 ≤ 1
      omega
    · show (0 + 1) * 512 ≤ 512
      omega, Or.inl rfl⟩

variable (m : (ℓ : Loc nD τ sig) → Buf (Elt F) ℓ)

/-- The first launch's side condition, from the bound. -/
theorem ok_of_lt (hlt : ∀ i, (tbl0 m 0 i).toNat < 100000) : Ok m := ok0_of_lt (tbl0 m) hlt

/-- The second body's side condition, from the bound. -/
theorem hyps_of_lt (hlt : ∀ i, (tbl1 m 0 i).toNat < 100000) : Hyps m := fun i => chk1_of_lt _ (hlt i)

end Cert.CL.KI

end
-- ==== Proof.Spec.lean ====
/-
  What both programs compute, as functions of the three argument arrays read by coordinates: the class ids
  `y : Fin 4096 → BitVec 32`, the embeddings `b : Fin 4096 → Fin 512 → EReal`, the class centres
  `c : Fin 100000 → Fin 512 → EReal`.

  * `row v` is the centre a class id names: the id's value, capped at the last row (a cap that is idle for an id below 100000).
  * `delta`: sample `i`'s embedding minus its class centre, entry by entry.
  * `sumsq`: the squared length of that difference.
  * `loss`: the mean over the batch (each squared length divided by the batch size, then summed) times the weight.
  * `newC`: every centre plus the step size times the sum of the differences of the samples of its class.

  The three float constants are kept as the words both programs print; only the zero word is ever evaluated.
  The one law the equivalence needs is that a sum taken one sample at a time, in sample order, is the sum over the
  class (`acc_eq`): addition on the extended reals is associative and commutative, so no finiteness is used.
-/
import Idealize.ShloMosaic.PureOps.Ideal
import Mathlib.Algebra.BigOperators.Group.Finset.Basic
import Mathlib.Algebra.BigOperators.Fin

noncomputable section

namespace Cert.CL

open Idealize.ShloMosaic

/-- The step size `0.1` as printed (an f32 word), at the ideal instance. -/
abbrev wStep : EReal := Ideal.ofBits .f32 0x3DCCCCCD#32
/-- The batch size `4096.0` as printed. -/
abbrev wBatch : EReal := Ideal.ofBits .f32 0x45800000#32
/-- The loss weight `0.01` as printed. -/
abbrev wLambda : EReal := Ideal.ofBits .f32 0x3C23D70A#32

/-- The centre a class id names: its value, capped at the last row. -/
def row (v : BitVec 32) : Fin 100000 := ⟨min v.toNat 99999, by omega⟩

theorem row_val_of_lt {v : BitVec 32} (h : v.toNat < 100000) : (row v).val = v.toNat := by
  simp only [row]; omega

variable (y : Fin 4096 → BitVec 32) (b : Fin 4096 → Fin 512 → EReal) (c : Fin 100000 → Fin 512 → EReal)

/-- Sample `i`'s embedding minus its class centre. -/
def delta (i : Fin 4096) (e : Fin 512) : EReal := b i e - c (row (y i)) e

/-- The squared length of sample `i`'s difference. -/
def sumsq (i : Fin 4096) : EReal := ∑ e : Fin 512, delta y b c i e * delta y b c i e

/-- The loss: the weight times the sum over the batch of each squared length divided by the batch size. -/
def loss : EReal := wLambda * ∑ i : Fin 4096, Ideal.div (sumsq y b c i) wBatch

/-- The updated centres: each centre plus the sum, over the samples of its class, of the step size times the difference. -/
def newC (r : Fin 100000) (e : Fin 512) : EReal :=
  c r e + ∑ i ∈ Finset.univ.filter (fun i : Fin 4096 => row (y i) = r), wStep * delta y b c i e

/-- The centres after the first `n` samples have been applied one at a time, in order: sample `n` adds its step to
    its own class's row and leaves every other row as it was. -/
def acc : Nat → Fin 100000 → Fin 512 → EReal
  | 0 => c
  | n + 1 => fun r e =>
    if h : n < 4096 then
      (if row (y ⟨n, h⟩) = r then acc n r e + wStep * delta y b c ⟨n, h⟩ e else acc n r e)
    else acc n r e

/-- Applied one at a time, the first `n` samples leave each centre plus the sum of the steps of those among them that
    belong to its class. -/
theorem acc_eq_sum (n : Nat) (r : Fin 100000) (e : Fin 512) :
    acc y b c n r e
      = c r e + ∑ i ∈ Finset.univ.filter (fun i : Fin 4096 => i.val < n ∧ row (y i) = r), wStep * delta y b c i e := by
  induction n with
  | zero => simp [acc]
  | succ n ih =>
    rw [acc]
    beta_reduce
    by_cases h : n < 4096
    · rw [dif_pos h]
      have hsplit : (Finset.univ.filter (fun i : Fin 4096 => i.val < n + 1 ∧ row (y i) = r))
          = if row (y ⟨n, h⟩) = r then insert ⟨n, h⟩ (Finset.univ.filter (fun i : Fin 4096 => i.val < n ∧ row (y i) = r))
            else Finset.univ.filter (fun i : Fin 4096 => i.val < n ∧ row (y i) = r) := by
        ext i
        by_cases hr : row (y ⟨n, h⟩) = r
        · rw [if_pos hr]
          simp only [Finset.mem_filter, Finset.mem_univ, true_and, Finset.mem_insert]
          constructor
          · rintro ⟨hlt, hi⟩
            by_cases hin : i.val = n
            · left; exact Fin.ext hin
            · right; exact ⟨by omega, hi⟩
          · rintro (rfl | ⟨hlt, hi⟩)
            · exact ⟨Nat.lt_succ_self _, hr⟩
            · exact ⟨by omega, hi⟩
        · rw [if_neg hr]
          simp only [Finset.mem_filter, Finset.mem_univ, true_and]
          constructor
          · rintro ⟨hlt, hi⟩
            refine ⟨?_, hi⟩
            by_contra hge
            have hin : i = ⟨n, h⟩ := Fin.ext (show i.val = n by omega)
            exact hr (hin ▸ hi)
          · rintro ⟨hlt, hi⟩; exact ⟨by omega, hi⟩
      rw [hsplit]
      by_cases hr : row (y ⟨n, h⟩) = r
      · rw [if_pos hr, if_pos hr, ih, Finset.sum_insert (by simp), add_assoc]
        congr 1
        exact add_comm _ _
      · rw [if_neg hr, if_neg hr, ih]
    · rw [dif_neg h, ih]
      congr 2
      ext i
      simp only [Finset.mem_filter, Finset.mem_univ, true_and]
      have := i.isLt
      constructor
      · rintro ⟨_, hi⟩; exact ⟨by omega, hi⟩
      · rintro ⟨_, hi⟩; exact ⟨by omega, hi⟩

/-- After the whole batch, one sample at a time, the centres are the updated centres. -/
theorem acc_eq : acc y b c 4096 = newC y b c := by
  funext r e
  rw [acc_eq_sum, newC]
  congr 2
  ext i
  simp only [Finset.mem_filter, Finset.mem_univ, true_and, and_iff_right_iff_imp]
  exact fun _ => i.isLt

end Cert.CL

end
-- ==== Proof.RefValue.lean ====
/-
  The reference program's two results, read off its run one operation at a time, are the specification's
  `loss` and `newC` of the three argument arrays, for class ids inside the table.
-/
import proofs.«424214_j72353019068995_1_alg».proof.Proof.Gen.ReferenceIdeal.Run
import proofs.«424214_j72353019068995_1_alg».proof.Proof.Gen.ReferenceIdeal.Read
import proofs.«424214_j72353019068995_1_alg».proof.Proof.Spec
import Idealize.ShloMosaic.Lib.ValueIdx

noncomputable section

namespace Cert.CL.Ref

open Idealize.ShloMosaic Idealize.ShloMosaic.TcCoe Idealize.SL.Sem Cert.ReferenceIdeal Cert.ReferenceIdeal.Gen
open Idealize.ShloMosaic.ValueIdx

/-- The arrays read by coordinates. -/
def yOf (y : IVec S4096 32) : Fin 4096 → BitVec 32 := fun i => y (ValueIdx.ix1 i)
def bOf (b : FVec Ideal S4096x512 .f32) : Fin 4096 → Fin 512 → EReal := fun i e => b (ValueIdx.ix2 i e)
def cOf (c : FVec Ideal S100000x512 .f32) : Fin 100000 → Fin 512 → EReal := fun r e => c (ValueIdx.ix2 r e)

/-- The specification's results laid out as the program's result arrays. -/
def lossArr (y : IVec S4096 32) (b : FVec Ideal S4096x512 .f32) (c : FVec Ideal S100000x512 .f32) :
    FVec Ideal S_ .f32 := fun _ => Cert.CL.loss (yOf y) (bOf b) (cOf c)
def newCArr (y : IVec S4096 32) (b : FVec Ideal S4096x512 .f32) (c : FVec Ideal S100000x512 .f32) :
    FVec Ideal S100000x512 .f32 :=
  fun j => Cert.CL.newC (yOf y) (bOf b) (cOf c) ⟨(j 0).val, ValueIdx.idx2_lt0 j⟩ ⟨(j 1).val, ValueIdx.idx2_lt1 j⟩

/-! ## Words: a class id inside the table -/

/-- A word below 100000 is not negative read signed. -/
theorem not_slt_zero {v : BitVec 32} (h : v.toNat < 100000) : IntOp.cmpi .slt v 0#32 = 0#1 := by
  have : ¬ v.toInt < 0 := by
    rw [BitVec.toInt_eq_toNat_of_lt (by omega)]; omega
  simp [IntOp.cmpi, BitVec.slt, this]

/-- Read signed, a word below 100000 is its own value. -/
theorem toInt_of_lt {v : BitVec 32} (h : v.toNat < 100000) : v.toInt = (v.toNat : Int) :=
  BitVec.toInt_eq_toNat_of_lt (by omega)

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  let E : (⟨1, ![n]⟩ : Shape).Idx ≃ Fin n :=
    ⟨fun j => j 0, fun a => ix1 a, fun j => (eq_ix1 j).symm, fun _ => rfl⟩
  rw [← Equiv.sum_comp E.symm f]
  rfl

/-! ## The row gather read at an index

Operand `[100000, 512]`, start indices `[4096, 1]`, offset_dims `[1]`, collapsed_slice_dims `[0]`, start_index_map
`[0]`, index_vector_dim 1, slice sizes `[1, 512]`: result element `(i, e)` is the operand at row `idx[i, 0]`, read
signed and clamped into `[0, 99999]`, and column `e`. -/

section Gather
variable {α : Type}

/-- The gather's dimension numbers. -/
abbrev G := gather_S100000x512_S4096x1_S4096x512_1_0_n_n_0_1_1512

theorem gather_apply (c : S100000x512.Idx → α) (idx : IVec S4096x1 32) (i : Fin 4096) (e : Fin 512) :
    Host.gather G c idx (ix2 i e)
      = c (ix2 ⟨min (idx (ix2 i (0 : Fin 1))).toInt.toNat 99999, by omega⟩ e) := by
  unfold Host.gather
  congr 1
  funext a
  refine Fin.ext ?_
  match a with
  | ⟨0, _⟩ =>
    -- axis 0 is collapsed and named by the start index map: the clamped start alone
    show G.start (ix2 i e) idx 0 + G.batchCoord (ix2 i e) 0 + G.offCoord (ix2 i e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ G.startIndexMap from List.mem_singleton.mpr rfl)]
    have hsi : G.siIdx (ix2 i e) ⟨List.idxOf (0 : Fin 2) G.startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- axis 1 is the offset axis: no start, the result's own column
    show G.start (ix2 i e) idx 1 + G.batchCoord (ix2 i e) 1 + G.offCoord (ix2 i e) 1 = _
    have hs : G.start (ix2 i e) idx 1 = 0 := by
      unfold GatherDims.start
      rw [dif_neg (show (1 : Fin 2) ∉ G.startIndexMap by decide)]
    have ho : G.offCoord (ix2 i e) 1 = e.val := by
      unfold GatherDims.offCoord
      rw [dif_pos ((GatherDims.mem_sKept _ _).mpr ⟨by decide, List.not_mem_nil⟩)]
      rfl
    rw [hs, GatherDims.batchCoord_eq_zero _ _ _ List.not_mem_nil, ho]
    simp

/-- The same with the clamped row named. -/
theorem gather_apply_of_eq (c : S100000x512.Idx → α) (idx : IVec S4096x1 32) (i : Fin 4096) (e : Fin 512)
    (r : Fin 100000) (hr : min (idx (ix2 i (0 : Fin 1))).toInt.toNat 99999 = r.val) :
    Host.gather G c idx (ix2 i e) = c (ix2 r e) := by
  rw [gather_apply]
  exact congrArg (fun r => c (ix2 r e)) (Fin.ext hr)

end Gather

/-! ## The scatter's result index

Operand `[100000, 512]`, scatter indices `[4096, 1]`, updates `[4096, 512]`, update_window_dims `[1]`,
inserted_window_dims `[0]`, scatter_dims_to_operand_dims `[0]`, index_vector_dim 1: update `(i, e)` lands on row
`idx[i, 0]`, read signed and not clamped, in its own column `e`. -/

section Scatter

/-- The scatter's dimension numbers. -/
abbrev D := scatter_S100000x512_S4096x1_S4096x512_1_0_0_1

variable (idx : IVec S4096x1 32) (i : Fin 4096) (e : Fin 512)

theorem scat_start0 : D.start (ix2 i e) idx 0 = (idx (ix2 i (0 : Fin 1))).toInt := by
  unfold ScatterDims.start
  rw [dif_pos (show (0 : Fin 2) ∈ D.scatterDimsToOperandDims from List.mem_singleton.mpr rfl)]
  have hsi : D.siIdx (ix2 i e) ⟨List.idxOf (0 : Fin 2) D.scatterDimsToOperandDims,
      List.idxOf_lt_length_iff.2 (List.mem_singleton.mpr rfl)⟩ = ix2 i (0 : Fin 1) := by
    funext b; refine Fin.ext ?_
    match b with
    | ⟨0, _⟩ => rfl
    | ⟨1, _⟩ => rfl
  rw [hsi]

theorem scat_start1 : D.start (ix2 i e) idx 1 = 0 := by
  unfold ScatterDims.start
  rw [dif_neg (show (1 : Fin 2) ∉ D.scatterDimsToOperandDims by decide)]

theorem scat_window0 : D.window (ix2 i e) 0 = 0 := by
  unfold ScatterDims.window
  rw [dif_neg (show (0 : Fin 2) ∉ D.sKept by decide)]

theorem scat_window1 : D.window (ix2 i e) 1 = e.val := by
  unfold ScatterDims.window
  rw [dif_pos (show (1 : Fin 2) ∈ D.sKept by decide)]
  rfl

/-- An update whose start index, read signed, is a row of the table lands on that row, in its own column. -/
theorem scat_resultIdx (r : Fin 100000) (h : (idx (ix2 i (0 : Fin 1))).toInt = (r.val : Int)) :
    D.resultIdx? (ix2 i e) idx = some (ix2 r e) := by
  unfold ScatterDims.resultIdx?
  have hall : ∀ a : Fin 2, 0 ≤ D.start (ix2 i e) idx a + D.window (ix2 i e) a
      ∧ D.start (ix2 i e) idx a + D.window (ix2 i e) a < S100000x512.size a := by
    intro a
    match a with
    | ⟨0, _⟩ =>
      show 0 ≤ D.start (ix2 i e) idx 0 + D.window (ix2 i e) 0
        ∧ D.start (ix2 i e) idx 0 + D.window (ix2 i e) 0 < (100000 : Nat)
      rw [scat_start0, scat_window0, h]
      have := r.isLt
      omega
    | ⟨1, _⟩ =>
      show 0 ≤ D.start (ix2 i e) idx 1 + D.window (ix2 i e) 1
        ∧ D.start (ix2 i e) idx 1 + D.window (ix2 i e) 1 < (512 : Nat)
      rw [scat_start1, scat_window1]
      have := e.isLt
      omega
  rw [dif_pos hall]
  congr 1
  funext a
  refine Fin.ext ?_
  match a with
  | ⟨0, _⟩ =>
    show (D.start (ix2 i e) idx 0 + D.window (ix2 i e) 0).toNat = r.val
    rw [scat_start0, scat_window0, h]
    omega
  | ⟨1, _⟩ =>
    show (D.start (ix2 i e) idx 1 + D.window (ix2 i e) 1).toNat = e.val
    rw [scat_start1, scat_window1]
    omega

end Scatter

/-! ## The program's stages read at an index, for class ids inside the table -/

section Value
open Cert.ReferenceIdeal.Read

theorem ix2_inj {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

variable (y : IVec S4096 32) (b : FVec Ideal S4096x512 .f32) (c : FVec Ideal S100000x512 .f32)
variable (hy : ∀ i : S4096.Idx, (y i).toNat < 100000)

include hy

/-- A class id inside the table is not negative, so the wrapped index is the class id itself. -/
theorem v4_eq : val_main_v4 (F := Ideal) y = y := by
  funext i
  rw [val_main_v4_apply, val_main_v1_apply, val_main_v0_apply, val_main_c_apply, not_slt_zero (hy i), select_zero]

theorem v14_eq : val_main_v14 (F := Ideal) y = y := by
  funext i
  rw [val_main_v14_apply, val_main_v11_apply, val_main_v10_apply, val_main_c_1_apply, not_slt_zero (hy i), select_zero]

/-- The gather's start index of sample `i` is its class id. -/
theorem v5_at (i : Fin 4096) : val_main_v5 (F := Ideal) y (ix2 i (0 : Fin 1)) = yOf y i := by
  rw [val_main_v5_apply, v4_eq y hy]
  unfold yOf
  congr 1
  funext a
  match a with
  | ⟨0, _⟩ => rfl

/-- The scatter's start index of sample `i` is its class id. -/
theorem v15_at (i : Fin 4096) : val_main_v15 (F := Ideal) y (ix2 i (0 : Fin 1)) = yOf y i := by
  rw [val_main_v15_apply, v14_eq y hy]
  unfold yOf
  congr 1
  funext a
  match a with
  | ⟨0, _⟩ => rfl

/-- The gathered row of sample `i` is its class centre. -/
theorem v6_at (i : Fin 4096) (e : Fin 512) :
    val_main_v6 (F := Ideal) y c (ix2 i e) = cOf c (Cert.CL.row (yOf y i)) e := by
  have h : (yOf y i).toNat < 100000 := hy (ix1 i)
  unfold val_main_v6
  rw [gather_apply_of_eq _ _ i e (Cert.CL.row (yOf y i))]
  · rfl
  · rw [v5_at y hy, toInt_of_lt h]
    simp [Cert.CL.row]

/-- The difference: sample `i`'s embedding minus its class centre. -/
theorem v7_at (i : Fin 4096) (e : Fin 512) :
    val_main_v7 (F := Ideal) y b c (ix2 i e) = Cert.CL.delta (yOf y) (bOf b) (cOf c) i e := by
  rw [val_main_v7_apply, v6_at y c hy]
  rfl

/-- The inner sum: the squared length of sample `i`'s difference. -/
theorem v18_at (i : Fin 4096) :
    val_main_v18 (F := Ideal) y b c (ix1 i) = Cert.CL.sumsq (yOf y) (bOf b) (cOf c) i := by
  rw [val_main_v18_apply, val_main_cst_3_apply, Ideal.ofBits_def, Ideal.ofBits_zero_f32, zero_add]
  unfold Cert.CL.sumsq
  refine Finset.sum_congr rfl fun k _ => ?_
  have hk : idx_main_v18 (ix1 i) k = ix2 i k := by
    funext a
    match a with
    | ⟨0, _⟩ => rfl
    | ⟨1, _⟩ => rfl
  rw [hk, val_main_v17_apply, v7_at y b c hy]
  rfl

/-- Each squared length divided by the batch size. -/
theorem v20_at (i : Fin 4096) :
    val_main_v20 (F := Ideal) y b c (ix1 i) = Ideal.div (Cert.CL.sumsq (yOf y) (bOf b) (cOf c) i) Cert.CL.wBatch := by
  rw [val_main_v20_apply, v18_at y b c hy, val_main_v19_apply, val_main_cst_4_apply]
  rfl

/-- THE LOSS: the program's first result is the specification's. -/
theorem loss_eq : val_main_v22 (F := Ideal) y b c = lossArr y b c := by
  funext j
  rw [val_main_v22_apply, val_main_cst_6_apply, val_main_v21_apply, val_main_cst_5_apply, Ideal.ofBits_def,
    Ideal.ofBits_def, Ideal.ofBits_zero_f32, zero_add, sum_idx1]
  unfold lossArr Cert.CL.loss
  rw [Finset.sum_congr rfl fun i _ => v20_at y b c hy i]
  rfl

/-- Each update: the step size times the difference. -/
theorem v9_at (i : Fin 4096) (e : Fin 512) :
    val_main_v9 (F := Ideal) y b c (ix2 i e) = Cert.CL.wStep * Cert.CL.delta (yOf y) (bOf b) (cOf c) i e := by
  rw [val_main_v9_apply, val_main_v8_apply, val_main_cst_apply, v7_at y b c hy]
  rfl

/-- Update `(i, e')` lands on sample `i`'s class row, in column `e'`. -/
theorem v16_resultIdx (i : Fin 4096) (e' : Fin 512) :
    D.resultIdx? (ix2 i e') (val_main_v15 (F := Ideal) y) = some (ix2 (Cert.CL.row (yOf y i)) e') := by
  have h : (yOf y i).toNat < 100000 := hy (ix1 i)
  apply scat_resultIdx
  rw [v15_at y hy, toInt_of_lt h, Cert.CL.row_val_of_lt h]

/-- The updates that land on `(r, e)` are those of the samples of class `r`, in column `e`. -/
theorem scatter_sum (r : Fin 100000) (e : Fin 512) :
    ∑ u ∈ Finset.univ.filter (fun u => D.resultIdx? u (val_main_v15 (F := Ideal) y) = some (ix2 r e)),
        val_main_v9 (F := Ideal) y b c u
      = ∑ i ∈ Finset.univ.filter (fun i : Fin 4096 => Cert.CL.row (yOf y i) = r),
          Cert.CL.wStep * Cert.CL.delta (yOf y) (bOf b) (cOf c) i e := by
  rw [Finset.sum_filter, sum_idx2, Finset.sum_filter]
  refine Finset.sum_congr rfl fun i _ => ?_
  simp only [v16_resultIdx y hy, v9_at y b c hy]
  by_cases hr : Cert.CL.row (yOf y i) = r
  · rw [if_pos hr, Finset.sum_eq_single e]
    · rw [if_pos (by rw [hr])]
    · intro e' _ hne
      rw [if_neg]
      intro h
      exact hne ((ix2_inj _ _ _ _).mp (Option.some.inj h)).2
    · intro h; exact absurd (Finset.mem_univ e) h
  · rw [if_neg hr]
    refine Finset.sum_eq_zero fun e' _ => ?_
    rw [if_neg]
    intro h
    exact hr ((ix2_inj _ _ _ _).mp (Option.some.inj h)).1

/-- THE UPDATED CENTRES: the program's second result is the specification's. -/
theorem newC_eq : val_main_v16 (F := Ideal) y b c = newCArr y b c := by
  funext j
  obtain ⟨r, e, rfl⟩ : ∃ (r : Fin 100000) (e : Fin 512), j = ix2 r e := ⟨j 0, j 1, eq_ix2 j⟩
  unfold val_main_v16 Host.scatterAdd
  rw [Ideal.hostScatterAdd_def]
  unfold Ideal.hostScatterAdd
  rw [scatter_sum y b c hy]
  rfl

end Value

/-- On every device, for class ids inside the table: every weakly fair execution of the reference terminates with
    its two results the specification's loss and updated centres of the three argument arrays, the arguments
    unchanged. -/
theorem run_spec (m : (ℓ : Loc nD τ sig) → Buf (Elt Ideal) ℓ) (ρ : Dev nD → PrngReg)
    (hy : ∀ (c : Dev nD) (i : S4096.Idx), ((m ((c.tc : Thread nD τ).loc main_arg0)) i).toNat < 100000) :
    θ_run (defs (F := Ideal)) (onTc (τ := τ) (main (F := Ideal))) ⟨m, fun _ => 0, ρ⟩ fun r => ∀ c : Dev nD,
      r.2.mem ((c.tc : Thread nD τ).loc main_v22) = lossArr (m ((c.tc : Thread nD τ).loc main_arg0)) (m ((c.tc : Thread nD τ).loc main_arg1)) (m ((c.tc : Thread nD τ).loc main_arg2))
      ∧ r.2.mem ((c.tc : Thread nD τ).loc main_v16) = newCArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono
    (fun _ h c => ⟨(h c).1.trans ((Read.val_main_v22_eq _ _ _).trans (loss_eq _ _ _ (hy c))),
      (h c).2.1.trans ((Read.val_main_v16_eq _ _ _).trans (newC_eq _ _ _ (hy c))), (h c).2.2⟩)
    (Cert.ReferenceIdeal.Value.run (F := Ideal) m ρ)

end Cert.CL.Ref

end
-- ==== Proof.KIArgs.lean ====
/-
  The idealized program's three argument arrays on a core, read by coordinates: the class ids, the embeddings and
  the class centres, as the specification takes them.
-/
import proofs.«424214_j72353019068995_1_alg».proof.Proof.KIData
import proofs.«424214_j72353019068995_1_alg».proof.Proof.Spec
import Idealize.ShloMosaic.Lib.ValueIdx

noncomputable section

namespace Cert.CL.KI

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Sample `i`'s class id. -/
def yK (c : Dev nD) : Fin 4096 → BitVec 32 := fun i => m ((c : Thread nD τ).loc main_arg0) (ix1 i)
/-- Entry `e` of sample `i`'s embedding. -/
def bK (c : Dev nD) : Fin 4096 → Fin 512 → EReal := fun i e => m ((c : Thread nD τ).loc main_arg1) (ix2 i e)
/-- Entry `e` of class `r`'s centre. -/
def cK (c : Dev nD) : Fin 100000 → Fin 512 → EReal := fun r e => m ((c : Thread nD τ).loc main_arg2) (ix2 r e)

end Cert.CL.KI

end
-- ==== Proof.KIStepValue.lean ====
/-
  The two kernel bodies' results read index by index at the ideal values.

  The first body's first output block is the difference of its two input blocks, lane by lane; its second output
  block, which has one element, is the sum over the 512 lanes of the squared difference. The second body's effect on
  the centres' buffer changes row `v` only: there each lane gains the step size times the sample's lane.
-/
import proofs.«424214_j72353019068995_1_alg».proof.Proof.KIBody
import proofs.«424214_j72353019068995_1_alg».proof.Proof.Spec
import Idealize.ShloMosaic.Lib.ValueIdx
import Idealize.ShloMosaic.Lib.ValueLayout
import Idealize.ShloMosaic.PureOps.Ideal.Laws
import Idealize.ShloMosaic.Lib.Pipeline.Value

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

theorem hz3 : (![0, 0, 0] : Fin 3 → Nat) = fun _ => 0 := by funext a; fin_cases a <;> rfl

/-- The first output block is the difference of the input blocks. -/
theorem out0_2_eq (x0 x1 : Vec Ideal S1x1x512 .f32) :
    out0_2 (F := Ideal) x0 x1 = fun i => x0 i - x1 i := by
  unfold out0_2
  rw [View.canon_unit_zero (S := S1x1x512) hz3]
  simp only [View.ld_unit_zero (S := S1x1x512) hz3]
  unfold k0_pay1
  simp only [shapeCast_self]
  rfl

theorem out0_2_apply (x0 x1 : Vec Ideal S1x1x512 .f32) (e : Fin 512) :
    out0_2 (F := Ideal) x0 x1 (ix3 (0 : Fin 1) (0 : Fin 1) e) = x0 (ix3 0 0 e) - x1 (ix3 0 0 e) := by
  rw [out0_2_eq]

/-- The difference payload at an index. -/
theorem k0_pay1_apply (x0 x1 : Vec Ideal S1x1x512 .f32) (i : S1x1x512.Idx) :
    k0_pay1 (F := Ideal) x0 x1 i = x0 i - x1 i := by
  unfold k0_pay1
  simp only [shapeCast_self]
  rfl

/-- The index the lane reduction inserts lane `k` at, over the one reduced index, is `(0, 0, k)`. -/
theorem lift_lane (h : S1x1x512.Reduces [2] S1x1) (k : Fin 512) :
    h.lift (ix2 (0 : Fin 1) (0 : Fin 1)) k = ix3 (0 : Fin 1) (0 : Fin 1) k := by
  funext c
  match c with
  | ⟨0, _⟩ => exact Fin.ext rfl
  | ⟨1, _⟩ => exact Fin.ext rfl
  | ⟨2, _⟩ => exact Fin.ext rfl

theorem out0_3_apply (x0 x1 : Vec Ideal S1x1x512 .f32) :
    out0_3 (F := Ideal) x0 x1 (ix3 (0 : Fin 1) (0 : Fin 1) (0 : Fin 1))
      = ∑ e : Fin 512, (x0 (ix3 0 0 e) - x1 (ix3 0 0 e)) * (x0 (ix3 0 0 e) - x1 (ix3 0 0 e)) := by
  unfold out0_3
  rw [View.canon_unit_zero (S := S1x1x1) hz3]
  simp only [View.ld_unit_zero (S := S1x1x512) hz3]
  unfold k0_pay2
  dsimp only
  rw [shapeCast_ab_1ab_apply]
  refine (Ideal.multiReduction_add_single (φ := .f32) _ _ reduces_S1x1x512_S1x1 _ _ _).trans ?_
  show ∑ k : Fin 512, _ = _
  refine Finset.sum_congr rfl fun k _ => ?_
  rw [lift_lane, mulf_apply, k0_pay1_apply]

/-! ## The second body's effect on the centres' buffer, row by row -/

/-- A class id the body's side condition admits names a row inside the buffer. -/
theorem row_lt {v : BitVec 32} (hv : k1_chk1 v) : v.toNat < 100000 := by
  have h : v.toNat + 1 ≤ 100000 := hv 0
  omega

/-- Lane `e` of the row view lies at `(v, 0, e)` of the buffer. -/
theorem rowRef_emb (v : BitVec 32) (hv : k1_chk1 v) (e : Fin 512) :
    ((rowRef v hv).view.emb (ix2 (0 : Fin 1) e) : S100000x1x512.Idx)
      = ix3 (⟨v.toNat, row_lt hv⟩ : Fin 100000) (0 : Fin 1) e := by
  have hr : Shape.reshapeEquiv (squeezes_S1x1x512_S1x512).numel_eq (ix2 (0 : Fin 1) e)
      = (ix3 (0 : Fin 1) (0 : Fin 1) e : S1x1x512.Idx) := by
    apply Shape.reshapeEquiv_eq_of_rowMajor
    rw [Shape.rowMajor_val_three, Shape.rowMajor_val_two]
    rfl
  show (Rect.unit (s := S100000x1x512) (k1_off2 v) S1x1x512.size (k1_off2_inb v hv)).emb
      (Shape.reshapeEquiv (squeezes_S1x1x512_S1x512).numel_eq (ix2 (0 : Fin 1) e)) = _
  rw [hr]
  funext a
  apply Fin.ext
  rw [Rect.emb_apply]
  match a with
  | ⟨0, _⟩ => show v.toNat + 1 * 0 = v.toNat; omega
  | ⟨1, _⟩ => show 0 + 1 * 0 = 0; rfl
  | ⟨2, _⟩ => show 0 + 1 * e.val = e.val; omega

/-- Every element under the row view has row coordinate `v`. -/
theorem rowRef_emb_row (v : BitVec 32) (hv : k1_chk1 v) (a : Fin 1) (e : Fin 512) :
    (((rowRef v hv).view.emb (ix2 a e) : S100000x1x512.Idx) (0 : Fin 3)).val = v.toNat := by
  obtain rfl : a = 0 := Subsingleton.elim _ _
  rw [rowRef_emb]

/-- An element of another row is not under the row view. -/
theorem not_mem_rowRef (v : BitVec 32) (hv : k1_chk1 v) (i : S100000x1x512.Idx) (hi : (i (0 : Fin 3)).val ≠ v.toNat) :
    i ∉ (rowRef v hv).view.setOn Finset.univ := by
  intro hmem
  rw [View.setOn_univ] at hmem
  obtain ⟨y, hy⟩ := View.exists_emb_of_mem_set _ hmem
  apply hi
  rw [← hy, eq_ix2 y]
  exact rowRef_emb_row v hv (y 0) (y 1)

/-- The second body's payload at lane `e`: the row's lane plus the step size times the sample's lane. -/
theorem k1_pay1_apply (x : Vec Ideal S1x1x512 .f32) (row : Vec Ideal S1x512 .f32) (e : Fin 512) :
    k1_pay1 (F := Ideal) x row (ix2 (0 : Fin 1) e) = row (ix2 0 e) + Cert.CL.wStep * x (ix3 (0 : Fin 1) (0 : Fin 1) e) := by
  unfold k1_pay1
  simp only [shapeCast_self]
  rw [addf_apply, mulf_apply, broadcast_apply, shapeCast_1ab_ab_apply]
  rfl

theorem step1_apply (c : Dev nD) (v : BitVec 32) (hv : k1_chk1 v) (x : Vec Ideal S1x1x512 .f32)
    (A : Bf (F := Ideal) c (Memref.whole main_v8)) (r : Fin 100000) (e : Fin 512) :
    step1 (F := Ideal) c v hv x A (ix3 r (0 : Fin 1) e)
      = if r.val = v.toNat then @HAdd.hAdd EReal EReal EReal instHAdd (A (ix3 r 0 e)) (Cert.CL.wStep * x (ix3 0 0 e))
        else A (ix3 r 0 e) := by
  unfold step1
  by_cases hr : r.val = v.toNat
  · rw [if_pos hr]
    have hidx : (ix3 r (0 : Fin 1) e : S100000x1x512.Idx) = (rowRef v hv).view.emb (ix2 (0 : Fin 1) e) := by
      rw [rowRef_emb]
      have : r = ⟨v.toNat, row_lt hv⟩ := Fin.ext hr
      rw [this]
    rw [hidx, View.write_emb_of_mem _ _ (Finset.mem_univ _)]
    refine (cast_eq _ _).trans ?_
    rw [k1_pay1_apply, View.read_apply]
    rfl
  · rw [if_neg hr]
    exact View.write_of_not_mem _ _ _ (not_mem_rowRef v hv _ hr)

end Cert.CL.KI

end
-- ==== Proof.KIArr0.lean ====
/-
  The first kernel launch's two output arrays, read index by index after all its write-backs.

  The launch runs 4096 grid points. At point `t` its first input window holds block `(t, 0, 0)` of the embeddings
  reshaped to [4096, 1, 512], that is sample `t`'s embedding; its second holds block `(v, 0, 0)` of the centres reshaped
  to [100000, 1, 512], `v` the table's word at `t`, that is the centre sample `t`'s class id names (the id is below
  100000 by hypothesis, so the cap in `Cert.CL.row` is idle). The body leaves their difference in the first output
  window and the difference's squared length in the second, and each output window's block `(t, 0, 0)` is written back
  at every point: the next point's block index always differs. So every write-back writes its block of ONE function of
  the array's index — `G2`: at `(i, 0, e)` entry `e` of sample `i`'s difference; `G3`: at `(i, 0, 0)` its squared
  length — and an index a written block covers reads that function after the run, whatever later points wrote
  (`Dat.arrAt_apply_of_mem`); index `(i, 0, ·)` is covered by point `i`'s block.
-/
import proofs.«424214_j72353019068995_1_alg».proof.Proof.KIArgs
import proofs.«424214_j72353019068995_1_alg».proof.Proof.KIStepValue
import Idealize.ShloMosaic.Lib.Pipeline.Value
import Idealize.ShloMosaic.Lib.Pipeline.Kit
import Idealize.ShloMosaic.Lib.StableHlo.Run
import Idealize.ShloMosaic.Lib.ValueLayout
import Idealize.ShloMosaic.Lib.ValueIdx

set_option maxRecDepth 16384

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

namespace Arr0

/-! ## The printed index maps, as arithmetic -/

/-- A grid coordinate fits a 32-bit word. -/
theorem ofNat_toNat_lt {x : Nat} (h : x < 4096) : (BitVec.ofNat 32 x).toNat = x := by
  rw [BitVec.toNat_ofNat]; exact Nat.mod_eq_of_lt (by omega)

/-- On the one-axis grid, point `t`'s coordinate is `t`. -/
theorem coords0_val (t : Fin grid0.N) : (grid0.coords t (0 : Fin 1)).val = t.val := by
  have hs : grid0.stride (0 : Fin 1) = 1 := by decide
  have ht : t.val < 4096 := t.isLt
  show t.val / grid0.stride (0 : Fin 1) % 4096 = t.val
  rw [hs, Nat.div_one, Nat.mod_eq_of_lt ht]

/-- Windows 0, 2 and 3 take block `(i, 0, 0)` at coordinate `i`. -/
theorem tr0 (i : grid0.Coords) : cc0_transform_0 i = ![(i 0).val, 0, 0] := by
  have hi : (i 0).val < 4096 := (i 0).isLt
  unfold cc0_transform_0
  dsimp only
  rw [ofNat_toNat_lt hi]
  rfl

theorem tr2 (i : grid0.Coords) : cc0_transform_2 i = ![(i 0).val, 0, 0] := by
  have hi : (i 0).val < 4096 := (i 0).isLt
  unfold cc0_transform_2
  dsimp only
  rw [ofNat_toNat_lt hi]
  rfl

theorem tr3 (i : grid0.Coords) : cc0_transform_3 i = ![(i 0).val, 0, 0] := by
  have hi : (i 0).val < 4096 := (i 0).isLt
  unfold cc0_transform_3
  dsimp only
  rw [ofNat_toNat_lt hi]
  rfl

/-- Window 1 takes block `(v, 0, 0)` at coordinate `i`, `v` the table's word at `i`; at any table. -/
theorem tr1 (pf : pre0.Contents (Elt Ideal)) (i : grid0.Coords) :
    cc0_transform_1 k0_off1_inb numel1_S1 pf i = ![(pf 0 (ix1 (⟨(i 0).val, (i 0).isLt⟩ : Fin 4096) : S4096.Idx)).toNat, 0, 0] := by
  have hi : (i 0).val < 4096 := (i 0).isLt
  have hidx : ((Rect.unit (s := S4096) ![(Scalar.indexCast (BitVec.ofNat 32 (i 0).val)).toNat] S1.size (k0_off1_inb i)).emb
        (Shape.Idx.first (numel1_S1.symm ▸ Nat.one_pos)) : S4096.Idx) = ix1 (⟨(i 0).val, (i 0).isLt⟩ : Fin 4096) := by
    funext a
    apply Fin.ext
    rw [Rect.emb_apply]
    match a with
    | ⟨0, _⟩ =>
      show (Scalar.indexCast (BitVec.ofNat 32 (i 0).val)).toNat + 1 * 0 = (i 0).val
      unfold Scalar.indexCast
      rw [ofNat_toNat_lt hi]
      omega
  unfold cc0_transform_1
  dsimp only
  exact congrArg (fun z => ![BitVec.toNat (pf 0 z), 0, 0]) hidx

/-! ## What the host reshapes leave in the two input arrays -/

theorem V1_v0 (c : Dev nD) :
    (V1 m c main_v0 : S4096x1x512.Idx → EReal) = shapeCast S4096x1x512 (m ((c : Thread nD τ).loc main_arg1)) shapeCasts_S4096x512_S4096x1x512 := by
  unfold V1
  after_results
  rfl

theorem V1_v1 (c : Dev nD) :
    (V1 m c main_v1 : S100000x1x512.Idx → EReal) = shapeCast S100000x1x512 (m ((c : Thread nD τ).loc main_arg2)) shapeCasts_S100000x512_S100000x1x512 := by
  unfold V1
  after_results
  rfl

/-- The first input array at `(i, 0, e)` is entry `e` of sample `i`'s embedding. -/
theorem V1_v0_apply (c : Dev nD) (i : Fin 4096) (e : Fin 512) :
    (V1 m c main_v0 : S4096x1x512.Idx → EReal) (ix3 i (0 : Fin 1) e) = bK m c i e := by
  rw [V1_v0]
  refine (shapeCast_apply _ _ (ix3 i (0 : Fin 1) e) (ix2 i e) ?_).trans rfl
  rw [Shape.rowMajor_val_two, Shape.rowMajor_val_three]
  show i.val * 512 + e.val = (i.val * 1 + 0) * 512 + e.val
  omega

/-- The second input array at `(r, 0, e)` is entry `e` of centre `r`. -/
theorem V1_v1_apply (c : Dev nD) (r : Fin 100000) (e : Fin 512) :
    (V1 m c main_v1 : S100000x1x512.Idx → EReal) (ix3 r (0 : Fin 1) e) = cK m c r e := by
  rw [V1_v1]
  refine (shapeCast_apply _ _ (ix3 r (0 : Fin 1) e) (ix2 r e) ?_).trans rfl
  rw [Shape.rowMajor_val_two, Shape.rowMajor_val_three]
  show r.val * 512 + e.val = (r.val * 1 + 0) * 512 + e.val
  omega

/-- The table's word at `i` is sample `i`'s class id (one device). -/
theorem tbl0_apply (c : Dev nD) (i : Fin 4096) : (tbl0 m 0 (ix1 i : S4096.Idx) : BitVec 32) = yK m c i := by
  obtain rfl : c = 0 := Subsingleton.elim _ _
  rfl

/-! ## Where each window's block at point `t` lies in its array -/

theorem index0 (hO : Ok m) (t : Fin (cfgA m hO).N) : ((cfgA m hO).win 0).index t = ![t.val, 0, 0] := by
  show cc0_transform_0 (grid0.coords t) = _
  rw [tr0, coords0_val]

theorem index2 (hO : Ok m) (t : Fin (cfgA m hO).N) : ((cfgA m hO).win 2).index t = ![t.val, 0, 0] := by
  show cc0_transform_2 (grid0.coords t) = _
  rw [tr2, coords0_val]

theorem index3 (hO : Ok m) (t : Fin (cfgA m hO).N) : ((cfgA m hO).win 3).index t = ![t.val, 0, 0] := by
  show cc0_transform_3 (grid0.coords t) = _
  rw [tr3, coords0_val]

theorem index1 (hO : Ok m) (t : Fin (cfgA m hO).N) :
    ((cfgA m hO).win 1).index t = ![(tbl0 m 0 (ix1 (⟨t.val, t.isLt⟩ : Fin 4096) : S4096.Idx)).toNat, 0, 0] := by
  have hfin : (⟨(grid0.coords t (0 : Fin 1)).val, (grid0.coords t (0 : Fin 1)).isLt⟩ : Fin 4096) = ⟨t.val, t.isLt⟩ :=
    Fin.ext (coords0_val t)
  have h := tr1 (tbl0 m) (grid0.coords t)
  rw [hfin] at h
  exact h

/-- Element `y` of window 0's block at point `t` is the array's element `(t, 0, y₂)`. -/
theorem emb0 (hO : Ok m) (t : Fin (cfgA m hO).N) (y : S1x1x512.Idx) :
    ((((cfgA m hO).win 0).blk t).view.emb y : S4096x1x512.Idx) = ix3 (⟨t.val, t.isLt⟩ : Fin 4096) (0 : Fin 1) (y 2) := by
  funext a
  apply Fin.ext
  refine (((cfgA m hO).win 0).rect_emb_val t y a).trans ?_
  rw [index0]
  have h0 : (y 0).val < 1 := (y 0).isLt
  have h1 : (y 1).val < 1 := (y 1).isLt
  match a with
  | ⟨0, _⟩ => show t.val * 1 + (y 0).val = t.val; omega
  | ⟨1, _⟩ => show 0 * 1 + (y 1).val = 0; omega
  | ⟨2, _⟩ => show 0 * 512 + (y 2).val = (y 2).val; omega

/-- Element `y` of window 2's block at point `t` is the array's element `(t, 0, y₂)`. -/
theorem emb2 (hO : Ok m) (t : Fin (cfgA m hO).N) (y : S1x1x512.Idx) :
    ((((cfgA m hO).win 2).blk t).view.emb y : S4096x1x512.Idx) = ix3 (⟨t.val, t.isLt⟩ : Fin 4096) (0 : Fin 1) (y 2) := by
  funext a
  apply Fin.ext
  refine (((cfgA m hO).win 2).rect_emb_val t y a).trans ?_
  rw [index2]
  have h0 : (y 0).val < 1 := (y 0).isLt
  have h1 : (y 1).val < 1 := (y 1).isLt
  match a with
  | ⟨0, _⟩ => show t.val * 1 + (y 0).val = t.val; omega
  | ⟨1, _⟩ => show 0 * 1 + (y 1).val = 0; omega
  | ⟨2, _⟩ => show 0 * 512 + (y 2).val = (y 2).val; omega

/-- Element `y` of window 3's block at point `t` is the array's element `(t, 0, 0)`. -/
theorem emb3 (hO : Ok m) (t : Fin (cfgA m hO).N) (y : S1x1x1.Idx) :
    ((((cfgA m hO).win 3).blk t).view.emb y : S4096x1x1.Idx) = ix3 (⟨t.val, t.isLt⟩ : Fin 4096) (0 : Fin 1) (0 : Fin 1) := by
  funext a
  apply Fin.ext
  refine (((cfgA m hO).win 3).rect_emb_val t y a).trans ?_
  rw [index3]
  have h0 : (y 0).val < 1 := (y 0).isLt
  have h1 : (y 1).val < 1 := (y 1).isLt
  have h2 : (y 2).val < 1 := (y 2).isLt
  match a with
  | ⟨0, _⟩ => show t.val * 1 + (y 0).val = t.val; omega
  | ⟨1, _⟩ => show 0 * 1 + (y 1).val = 0; omega
  | ⟨2, _⟩ => show 0 * 1 + (y 2).val = 0; omega

/-- Element `y` of window 1's block at point `t` is the array's element `(r, 0, y₂)`, `r` the row the table's word
    at `t` names. -/
theorem emb1 (hO : Ok m) (t : Fin (cfgA m hO).N) (r : Fin 100000)
    (hr : r.val = (tbl0 m 0 (ix1 (⟨t.val, t.isLt⟩ : Fin 4096) : S4096.Idx)).toNat) (y : S1x1x512.Idx) :
    ((((cfgA m hO).win 1).blk t).view.emb y : S100000x1x512.Idx) = ix3 r (0 : Fin 1) (y 2) := by
  funext a
  apply Fin.ext
  refine (((cfgA m hO).win 1).rect_emb_val t y a).trans ?_
  rw [index1, ← hr]
  have h0 : (y 0).val < 1 := (y 0).isLt
  have h1 : (y 1).val < 1 := (y 1).isLt
  match a with
  | ⟨0, _⟩ => show r.val * 1 + (y 0).val = r.val; omega
  | ⟨1, _⟩ => show 0 * 1 + (y 1).val = 0; omega
  | ⟨2, _⟩ => show 0 * 512 + (y 2).val = (y 2).val; omega

/-! ## The two input blocks at point `t` -/

/-- Lane `e` of the first input block at point `t` is entry `e` of sample `t`'s embedding. -/
theorem iblk0_0_apply (hO : Ok m) (c : Dev nD) (t : Fin (cfgA m hO).N) (e : Fin 512) :
    iblk0 m hO c 0 t (ix3 (0 : Fin 1) (0 : Fin 1) e) = bK m c ⟨t.val, t.isLt⟩ e := by
  show (V1 m c main_v0 : S4096x1x512.Idx → EReal) ((((cfgA m hO).win 0).blk t).view.emb (ix3 (0 : Fin 1) (0 : Fin 1) e)) = _
  exact (congrArg (V1 m c main_v0 : S4096x1x512.Idx → EReal) (emb0 m hO t (ix3 (0 : Fin 1) (0 : Fin 1) e))).trans
    (V1_v0_apply m c _ e)

/-- Lane `e` of the second input block at point `t` is entry `e` of the centre sample `t`'s class id names. -/
theorem iblk0_1_apply (hO : Ok m) (hy : ∀ (c : Dev nD) (i : Fin 4096), (yK m c i).toNat < 100000) (c : Dev nD)
    (t : Fin (cfgA m hO).N) (e : Fin 512) :
    iblk0 m hO c 1 t (ix3 (0 : Fin 1) (0 : Fin 1) e) = cK m c (Cert.CL.row (yK m c ⟨t.val, t.isLt⟩)) e := by
  have hr : (Cert.CL.row (yK m c ⟨t.val, t.isLt⟩)).val = (tbl0 m 0 (ix1 (⟨t.val, t.isLt⟩ : Fin 4096) : S4096.Idx)).toNat := by
    rw [tbl0_apply m c]
    exact Cert.CL.row_val_of_lt (hy c _)
  show (V1 m c main_v1 : S100000x1x512.Idx → EReal) ((((cfgA m hO).win 1).blk t).view.emb (ix3 (0 : Fin 1) (0 : Fin 1) e)) = _
  exact (congrArg (V1 m c main_v1 : S100000x1x512.Idx → EReal) (emb1 m hO t _ hr (ix3 (0 : Fin 1) (0 : Fin 1) e))).trans
    (V1_v1_apply m c _ e)

/-- Lane `e` of the two input blocks' difference at point `t` is entry `e` of sample `t`'s difference. -/
theorem diff_apply (hO : Ok m) (hy : ∀ (c : Dev nD) (i : Fin 4096), (yK m c i).toNat < 100000) (c : Dev nD)
    (t : Fin (cfgA m hO).N) (e : Fin 512) (x0 x1 : Vec Ideal S1x1x512 .f32)
    (h0 : x0 = iblk0 m hO c 0 t) (h1 : x1 = iblk0 m hO c 1 t) :
    x0 (ix3 (0 : Fin 1) (0 : Fin 1) e) - x1 (ix3 (0 : Fin 1) (0 : Fin 1) e)
      = Cert.CL.delta (yK m c) (bK m c) (cK m c) ⟨t.val, t.isLt⟩ e := by
  subst h0 h1
  exact (congrArg₂ (fun (a b : EReal) => a - b) (iblk0_0_apply m hO c t e) (iblk0_1_apply m hO hy c t e)).trans rfl

/-! ## What the body leaves at point `t` -/

/-- The first output block at point `t` is sample `t`'s difference. -/
theorem pt2 (hO : Ok m) (hy : ∀ (c : Dev nD) (i : Fin 4096), (yK m c i).toNat < 100000) (c : Dev nD)
    (t : Fin (cfgA m hO).N) (y : S1x1x512.Idx) :
    out0_2 (F := Ideal) (iblk0 m hO c 0 t) (iblk0 m hO c 1 t) y
      = Cert.CL.delta (yK m c) (bK m c) (cK m c) ⟨t.val, t.isLt⟩ (y 2) := by
  obtain ⟨a, b, e, rfl⟩ : ∃ (a : Fin 1) (b : Fin 1) (e : Fin 512), y = ix3 a b e := ⟨y 0, y 1, y 2, eq_ix3 y⟩
  obtain rfl : a = 0 := Subsingleton.elim _ _
  obtain rfl : b = 0 := Subsingleton.elim _ _
  exact (out0_2_apply (iblk0 m hO c 0 t) (iblk0 m hO c 1 t) e).trans (diff_apply m hO hy c t e _ _ rfl rfl)

/-- The second output block at point `t` is the squared length of sample `t`'s difference. -/
theorem pt3 (hO : Ok m) (hy : ∀ (c : Dev nD) (i : Fin 4096), (yK m c i).toNat < 100000) (c : Dev nD)
    (t : Fin (cfgA m hO).N) (y : S1x1x1.Idx) :
    out0_3 (F := Ideal) (iblk0 m hO c 0 t) (iblk0 m hO c 1 t) y
      = Cert.CL.sumsq (yK m c) (bK m c) (cK m c) ⟨t.val, t.isLt⟩ := by
  obtain ⟨a, b, d, rfl⟩ : ∃ (a : Fin 1) (b : Fin 1) (d : Fin 1), y = ix3 a b d := ⟨y 0, y 1, y 2, eq_ix3 y⟩
  obtain rfl : a = 0 := Subsingleton.elim _ _
  obtain rfl : b = 0 := Subsingleton.elim _ _
  obtain rfl : d = 0 := Subsingleton.elim _ _
  refine (out0_3_apply (iblk0 m hO c 0 t) (iblk0 m hO c 1 t)).trans ?_
  unfold Cert.CL.sumsq
  refine Finset.sum_congr rfl fun e _ => ?_
  exact congrArg₂ (fun (a b : EReal) => a * b) (diff_apply m hO hy c t e _ _ rfl rfl) (diff_apply m hO hy c t e _ _ rfl rfl)

/-! ## The two output arrays after all the write-backs -/

/-- What the first output array ends holding: at `(i, 0, e)`, entry `e` of sample `i`'s difference. -/
def G2 (c : Dev nD) : S4096x1x512.Idx → EReal := fun j => Cert.CL.delta (yK m c) (bK m c) (cK m c) (j 0) (j 2)

/-- What the second ends holding: at `(i, 0, 0)`, the squared length of sample `i`'s difference. -/
def G3 (c : Dev nD) : S4096x1x1.Idx → EReal := fun j => Cert.CL.sumsq (yK m c) (bK m c) (cK m c) (j 0)

/-- Point `t` writes back block `t` of `G2`. -/
theorem flushed2 (hO : Ok m) (hy : ∀ (c : Dev nD) (i : Fin 4096), (yK m c i).toNat < 100000) (c : Dev nD)
    (t : Fin (cfgA m hO).N) :
    (dat0 m hO c).flushed 2 t = (((cfgA m hO).win 2).blk t).view.read (Elt Ideal) (G2 m c) := by
  show ((cfgA m hO).win 2).cut ((cfgA m hO).grid.coords t) ((dat0 m hO c).after 2 t) = _
  rw [after0_2]
  funext y
  show out0_2 (F := Ideal) (iblk0 m hO c 0 t) (iblk0 m hO c 1 t) y = G2 m c ((((cfgA m hO).win 2).blk t).view.emb y)
  exact (pt2 m hO hy c t y).trans (congrArg (G2 m c) (emb2 m hO t y)).symm

/-- Point `t` writes back block `t` of `G3`. -/
theorem flushed3 (hO : Ok m) (hy : ∀ (c : Dev nD) (i : Fin 4096), (yK m c i).toNat < 100000) (c : Dev nD)
    (t : Fin (cfgA m hO).N) :
    (dat0 m hO c).flushed 3 t = (((cfgA m hO).win 3).blk t).view.read (Elt Ideal) (G3 m c) := by
  show ((cfgA m hO).win 3).cut ((cfgA m hO).grid.coords t) ((dat0 m hO c).after 3 t) = _
  rw [after0_3]
  funext y
  show out0_3 (F := Ideal) (iblk0 m hO c 0 t) (iblk0 m hO c 1 t) y = G3 m c ((((cfgA m hO).win 3).blk t).view.emb y)
  exact (pt3 m hO hy c t y).trans (congrArg (G3 m c) (emb3 m hO t y)).symm

/-- Every point's block index differs from the next point's, so each output block is written back at every point
    (decided over the grid). -/
theorem flushOf2 : ∀ t : Fin grid0.N, Pipeline.Window.flushOf grid0 true cc0_transform_2 t = true := by decide +kernel
theorem flushOf3 : ∀ t : Fin grid0.N, Pipeline.Window.flushOf grid0 true cc0_transform_3 t = true := by decide +kernel

theorem flush2 (hO : Ok m) (t : Fin (cfgA m hO).N) : ((cfgA m hO).win 2).flush t = true :=
  (((cfgA m hO).win 2).flush_eq_flushOf t).trans (flushOf2 t)
theorem flush3 (hO : Ok m) (t : Fin (cfgA m hO).N) : ((cfgA m hO).win 3).flush t = true :=
  (((cfgA m hO).win 3).flush_eq_flushOf t).trans (flushOf3 t)

/-- `(t, 0, e)` lies in the first output's block at point `t`. -/
theorem mem2 (hO : Ok m) (t : Fin (cfgA m hO).N) (e : Fin 512) :
    (ix3 (⟨t.val, t.isLt⟩ : Fin 4096) (0 : Fin 1) e : S4096x1x512.Idx) ∈ (((cfgA m hO).win 2).blk t).view.set := by
  exact Finset.mem_map.mpr ⟨ix3 (0 : Fin 1) (0 : Fin 1) e, Finset.mem_univ _, emb2 m hO t (ix3 (0 : Fin 1) (0 : Fin 1) e)⟩

/-- `(t, 0, 0)` lies in the second output's block at point `t`. -/
theorem mem3 (hO : Ok m) (t : Fin (cfgA m hO).N) :
    (ix3 (⟨t.val, t.isLt⟩ : Fin 4096) (0 : Fin 1) (0 : Fin 1) : S4096x1x1.Idx) ∈ (((cfgA m hO).win 3).blk t).view.set := by
  exact Finset.mem_map.mpr ⟨ix3 (0 : Fin 1) (0 : Fin 1) (0 : Fin 1), Finset.mem_univ _, emb3 m hO t (ix3 (0 : Fin 1) (0 : Fin 1) (0 : Fin 1))⟩

end Arr0

open Arr0

/-- After the first launch, the first output array holds every sample's difference, entry by entry. -/
theorem arr0_delta (hO : Ok m) (hy : ∀ (c : Dev nD) (i : Fin 4096), (yK m c i).toNat < 100000) (c : Dev nD)
    (i : Fin 4096) (e : Fin 512) :
    (dat0 m hO c).arrAt 2 (cfgA m hO).N (ix3 i (0 : Fin 1) e) = Cert.CL.delta (yK m c) (bK m c) (cK m c) i e :=
  ((dat0 m hO c).arrAt_apply_of_mem 2 (G2 m c) (fun t _ => flushed2 m hO hy c t) (cfgA m hO).N ⟨i.val, i.isLt⟩
    (ix3 i (0 : Fin 1) e) i.isLt (flush2 m hO _) (mem2 m hO ⟨i.val, i.isLt⟩ e)).trans rfl

/-- After the first launch, the second output array holds the squared length of every sample's difference. -/
theorem arr0_sumsq (hO : Ok m) (hy : ∀ (c : Dev nD) (i : Fin 4096), (yK m c i).toNat < 100000) (c : Dev nD)
    (i : Fin 4096) :
    (dat0 m hO c).arrAt 3 (cfgA m hO).N (ix3 i (0 : Fin 1) (0 : Fin 1)) = Cert.CL.sumsq (yK m c) (bK m c) (cK m c) i :=
  ((dat0 m hO c).arrAt_apply_of_mem 3 (G3 m c) (fun t _ => flushed3 m hO hy c t) (cfgA m hO).N ⟨i.val, i.isLt⟩
    (ix3 i (0 : Fin 1) (0 : Fin 1)) i.isLt (flush3 m hO _) (mem3 m hO ⟨i.val, i.isLt⟩)).trans rfl

end Cert.CL.KI

end
-- ==== Proof.KIArr1.lean ====
/-
  The arrays the idealized program leaves, read by coordinates.

  The second launch's running centres' buffer is the specification's one-sample-at-a-time accumulation; the
  program's second result is that buffer with its unit axis dropped; the program's first result is the weight times
  the sum over the batch of each squared length divided by the batch size.
-/
import proofs.«424214_j72353019068995_1_alg».proof.Proof.KIArgs
import proofs.«424214_j72353019068995_1_alg».proof.Proof.KIStepValue
import Idealize.ShloMosaic.Lib.Pipeline.Value
import Idealize.ShloMosaic.Lib.StableHlo.Run
import Idealize.ShloMosaic.Lib.ValueLayout
import Idealize.ShloMosaic.PureOps.Ideal.Laws

set_option maxRecDepth 16384

noncomputable section

namespace Cert.CL.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (outs : Outs (F := Ideal))

/-! ## The second launch's running centres' buffer -/

/-- The centres' buffer as the second launch finds it is the centres argument with a unit axis inserted. -/
theorem V3_v8_apply (c : Dev nD) (r : Fin 100000) (e : Fin 512) :
    V3 m outs c main_v8 (ix3 r (0 : Fin 1) e) = cK m c r e := by
  show StableHlo.after hostOps1 (V2 m outs c) (Proc.devRef .tc main_v8) (ix3 r (0 : Fin 1) e) = _
  after_results
  show V2 m outs c main_v1 (ix3 r (0 : Fin 1) e) = _
  rw [V2_of m outs c main_v1 (by decide)]
  show StableHlo.after hostOps0 (V0 m c) (Proc.devRef .tc main_v1) (ix3 r (0 : Fin 1) e) = _
  after_results
  show shapeCast S100000x1x512 (V0 m c main_arg2) shapeCasts_S100000x512_S100000x1x512 (ix3 r (0 : Fin 1) e) = _
  rw [shapeCast_apply _ _ (ix3 r (0 : Fin 1) e) (ix2 r e) (by
    rw [Shape.rowMajor_val_three, Shape.rowMajor_val_two]
    show r.val * 512 + e.val = (r.val * 1 + 0) * 512 + e.val
    omega)]
  rfl

/-- Grid point `n` of the second launch has the one coordinate `n`. -/
theorem coord1 (n : Nat) (h : n < grid1.N) (h' : n < 4096) : ((grid1.coords ⟨n, h⟩) 0).val = n := by
  show n / grid1.stride 0 % 4096 = n
  rw [show grid1.stride 0 = 1 from by decide, Nat.div_one, Nat.mod_eq_of_lt h']

/-- A sample number as a 32-bit word reads back as itself. -/
theorem toNat_ofNat_sample (n : Nat) (h' : n < 4096) : (BitVec.ofNat 32 n).toNat = n := by
  rw [BitVec.toNat_ofNat]; exact Nat.mod_eq_of_lt (by omega)

/-- The class id the second body reads at grid point `n` is sample `n`'s. -/
theorem wordAt_eq (c : Dev nD) (n : Nat) (h : n < grid1.N) (h' : n < 4096) :
    wordAt (F := Ideal) c (tbl1 m 0) ⟨n, h⟩ = yK m c ⟨n, h'⟩ := by
  obtain rfl : c = 0 := Subsingleton.elim _ _
  unfold wordAt yK
  refine (View.readAt_apply _ _ _).trans ((View.read_apply _ _).trans ((cast_eq _ _).trans ?_))
  refine congrArg (m ((Dev.tc 0 : Thread nD τ).loc main_arg0)) ?_
  funext a
  apply Fin.ext
  match a with
  | ⟨0, _⟩ =>
    show k1_off1 (grid1.coords ⟨n, h⟩) 0 + 1 * 0 = n
    show (BitVec.ofNat 32 ((grid1.coords ⟨n, h⟩) 0).val).toNat + 1 * 0 = n
    rw [coord1 n h h', toNat_ofNat_sample n h']
    omega

/-- The second launch's input block at grid point `n` is row `n` of the differences' array. -/
theorem iblk1_apply (hO : Ok m) (c : Dev nD) (n : Nat) (h : n < (cfgB m hO).N) (h' : n < 4096) (e : Fin 512) :
    iblk1 m outs hO c 0 ⟨n, h⟩ (ix3 (0 : Fin 1) (0 : Fin 1) e) = V3 m outs c main_v2_0 (ix3 (⟨n, h'⟩ : Fin 4096) (0 : Fin 1) e) := by
  unfold iblk1
  refine (View.read_apply _ _).trans ((cast_eq _ _).trans ?_)
  refine congrArg (V3 m outs c main_v2_0) ?_
  funext a
  apply Fin.ext
  match a with
  | ⟨0, _⟩ =>
    show cc1_transform_0 (grid1.coords ⟨n, h⟩) 0 * 1 + 1 * 0 = n
    show (BitVec.ofNat 32 ((grid1.coords ⟨n, h⟩) 0).val).toNat * 1 + 1 * 0 = n
    rw [coord1 n h h', toNat_ofNat_sample n h']
    omega
  | ⟨1, _⟩ => show cc1_transform_0 (grid1.coords ⟨n, h⟩) 1 * 1 + 1 * 0 = 0; rfl
  | ⟨2, _⟩ => show cc1_transform_0 (grid1.coords ⟨n, h⟩) 2 * 512 + 1 * e.val = e.val; show 0 * 512 + 1 * e.val = e.val; omega

/-- The second launch's running centres' buffer before grid point `n` is the specification's centres after the
    first `n` samples, given that the launch's input array holds the differences and every class id names a row. -/
theorem acc1_apply (hO : Ok m) (hH : Hyps m) (hy : ∀ (c : Dev nD) (i : Fin 4096), (yK m c i).toNat < 100000) (c : Dev nD)
    (hD : ∀ (i : Fin 4096) (e : Fin 512), V3 m outs c main_v2_0 (ix3 i (0 : Fin 1) e) = Cert.CL.delta (yK m c) (bK m c) (cK m c) i e)
    (n : Nat) (r : Fin 100000) (e : Fin 512) :
    acc1 m outs hO hH c n (ix3 r (0 : Fin 1) e) = Cert.CL.acc (yK m c) (bK m c) (cK m c) n r e := by
  induction n with
  | zero =>
    rw [acc1, Cert.CL.acc]
    exact V3_v8_apply m outs c r e
  | succ n ih =>
    rw [acc1, Cert.CL.acc]
    beta_reduce
    by_cases h : n < 4096
    · have hN : n < (cfgB m hO).N := h
      rw [dif_pos hN, dif_pos h]
      refine (step1_apply c _ _ _ _ r e).trans ?_
      have hw : wordAt (F := Ideal) c (tbl1 m 0) ⟨n, hN⟩ = yK m c ⟨n, h⟩ := wordAt_eq m c n hN h
      have hx : iblk1 m outs hO c 0 ⟨n, hN⟩ (ix3 (0 : Fin 1) (0 : Fin 1) e)
          = Cert.CL.delta (yK m c) (bK m c) (cK m c) ⟨n, h⟩ e :=
        (iblk1_apply m outs hO c n hN h e).trans (hD _ _)
      rw [hw, ih, hx]
      have hrow : r.val = (yK m c ⟨n, h⟩).toNat ↔ Cert.CL.row (yK m c ⟨n, h⟩) = r :=
        ⟨fun hr => Fin.ext ((Cert.CL.row_val_of_lt (hy c ⟨n, h⟩)).trans hr.symm),
          fun hr => by rw [← hr]; exact Cert.CL.row_val_of_lt (hy c ⟨n, h⟩)⟩
      by_cases hr : r.val = (yK m c ⟨n, h⟩).toNat
      · rw [if_pos hr, if_pos (hrow.mp hr)]
      · rw [if_neg hr, if_neg fun h' => hr (hrow.mpr h')]
    · have hN : ¬ n < (cfgB m hO).N := h
      rw [dif_neg hN, dif_neg h, ih]

/-! ## The program's two results off the launches' buffers -/

/-- After the second launch the centres' buffer is what that launch left. -/
theorem V4_main_v8_eq (c : Dev nD) : V4 m outs c main_v8 = outs 4 main_v8 c := by
  show Function.update (V3 m outs c) main_v8 (outs 4 main_v8 c) main_v8 = _
  exact Function.update_self _ _ _

/-- The program's second result is the centres' buffer the second launch left, its unit axis dropped. -/
theorem V5_v9_apply (c : Dev nD) (r : Fin 100000) (e : Fin 512) :
    V5 m outs c main_v9 (ix2 r e) = outs 4 main_v8 c (ix3 r (0 : Fin 1) e) := by
  show StableHlo.after hostOps2 (V4 m outs c) (Proc.devRef .tc main_v9) (ix2 r e) = _
  after_results
  show shapeCast S100000x512 (V4 m outs c main_v8) shapeCasts_S100000x1x512_S100000x512 (ix2 r e) = _
  rw [shapeCast_apply _ _ (ix2 r e) (ix3 r (0 : Fin 1) e) (by
    rw [Shape.rowMajor_val_three, Shape.rowMajor_val_two]
    show (r.val * 1 + 0) * 512 + e.val = r.val * 512 + e.val
    omega), V4_main_v8_eq]

/-- After the first launch the squared lengths' buffer is what that launch left. -/
theorem V2_v2_1 (c : Dev nD) : V2 m outs c main_v2_1 = outs 2 main_v2_1 c := by
  show Function.update (Function.update (V1 m c) main_v2_0 (outs 2 main_v2_0 c)) main_v2_1 (outs 2 main_v2_1 c) main_v2_1 = _
  exact Function.update_self _ _ _

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n := ⟨fun i => i 0, ix1, fun i => (eq_ix1 i).symm, fun _ => rfl⟩
  rw [← Equiv.sum_comp eqv.symm f]
  rfl

/-- The squared lengths' buffer with its two unit axes dropped, read at a sample. -/
theorem v3_apply (c : Dev nD) (i : Fin 4096) :
    shapeCast S4096 (V2 m outs c main_v2_1) shapeCasts_S4096x1x1_S4096 (ix1 i)
      = outs 2 main_v2_1 c (ix3 i (0 : Fin 1) (0 : Fin 1)) := by
  rw [shapeCast_apply _ _ (ix1 i) (ix3 i (0 : Fin 1) (0 : Fin 1)) (by
    rw [Shape.rowMajor_val_three, Shape.rowMajor_val_one]
    show (i.val * 1 + 0) * 1 + 0 = i.val
    omega), V2_v2_1]

/-- The program's first result: the weight times the sum over the batch of each squared length the first launch left
    divided by the batch size. -/
theorem V5_v7_apply (c : Dev nD) :
    V5 m outs c main_v7 ix0 = Cert.CL.wLambda * ∑ i : Fin 4096, Ideal.div (outs 2 main_v2_1 c (ix3 i (0 : Fin 1) (0 : Fin 1))) Cert.CL.wBatch := by
  rw [V5_of m outs c main_v7 (by decide), V4_of m outs c main_v7 (by decide)]
  show StableHlo.after hostOps1 (V2 m outs c) (Proc.devRef .tc main_v7) ix0 = _
  after_results
  rw [mulf_apply]
  show Cert.CL.wLambda * Ideal.hostReduceAdd reducesTo_S4096_S_d0
      (Host.divf (F := Ideal) (fun i => shapeCast S4096 (V2 m outs c main_v2_1) shapeCasts_S4096x1x1_S4096 i)
        (broadcastInDim S4096 ![] bcast_S_S4096 (constant (F := Ideal) S_ .f32 0x45800000#32)))
      (Ideal.ofBits .f32 0x00000000#32) ix0 = _
  rw [Ideal.hostReduceAdd_total _ (fun b => b.elim0), Ideal.ofBits_zero_f32, zero_add, sum_idx1]
  refine congrArg (Cert.CL.wLambda * ·) (Finset.sum_congr rfl fun i _ => ?_)
  show Ideal.div (shapeCast S4096 (V2 m outs c main_v2_1) shapeCasts_S4096x1x1_S4096 (ix1 i)) Cert.CL.wBatch = _
  rw [v3_apply]

end Cert.CL.KI

end
-- ==== Proof.KIValue.lean ====
/-
  The idealized kernel program's two results are the specification's loss and updated centres of its three arguments.

  The loss: the last host stretch weighs the sum over the batch of each squared length, as the first launch left it,
  divided by the batch size; the squared lengths are the specification's. The updated centres: the last host stretch
  reshapes the centres' buffer as the second launch left it, which is that launch's running buffer after the whole
  batch, the specification's centres after every sample's step in sample order, hence the sum over each class.
  The two facts about the first launch's output arrays enter as hypotheses (they are proved beside this module).
-/
import proofs.«424214_j72353019068995_1_alg».proof.Proof.KIRun
import proofs.«424214_j72353019068995_1_alg».proof.Proof.KIArr1

noncomputable section

namespace Cert.CL.KI

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The differences' array as the second launch finds it is what the first launch left there. -/
theorem V3_v2_0 (outs : Outs (F := Ideal)) (c : Dev nD) : V3 m outs c main_v2_0 = outs 2 main_v2_0 c := by
  rw [V3_of m outs c main_v2_0 (by decide)]
  show Function.update (Function.update (V1 m c) main_v2_0 (outs 2 main_v2_0 c)) main_v2_1 (outs 2 main_v2_1 c) main_v2_0 = _
  rw [Function.update_of_ne (StableHlo.devRef_ne_of_ne (by decide : (main_v2_0 : Ref sig .tc) ≠ main_v2_1)), Function.update_self]

/-- The first result is the specification's loss. -/
theorem v7_eq (hO : Ok m) (hH : Hyps m) (c : Dev nD)
    (hSq : ∀ i : Fin 4096, (dat0 m hO c).arrAt 3 (cfgA m hO).N (ix3 i (0 : Fin 1) (0 : Fin 1)) = Cert.CL.sumsq (yK m c) (bK m c) (cK m c) i) :
    V5 m (outsC m hO hH) c main_v7 = fun _ => Cert.CL.loss (yK m c) (bK m c) (cK m c) := by
  funext j
  obtain rfl := eq_ix0 j
  refine (V5_v7_apply m (outsC m hO hH) c).trans ?_
  unfold Cert.CL.loss
  refine congrArg (fun s => Cert.CL.wLambda * s) (Finset.sum_congr rfl fun i _ => ?_)
  refine congrArg (fun x => Ideal.div x Cert.CL.wBatch) ?_
  exact (congrFun (outsC_h21 m hO hH c) _).trans (hSq i)

/-- The second result is the specification's updated centres. -/
theorem v9_eq (hO : Ok m) (hH : Hyps m) (hy : ∀ (c : Dev nD) (i : Fin 4096), (yK m c i).toNat < 100000) (c : Dev nD)
    (hDel : ∀ (i : Fin 4096) (e : Fin 512), (dat0 m hO c).arrAt 2 (cfgA m hO).N (ix3 i (0 : Fin 1) e) = Cert.CL.delta (yK m c) (bK m c) (cK m c) i e) :
    V5 m (outsC m hO hH) c main_v9
      = fun j => Cert.CL.newC (yK m c) (bK m c) (cK m c) ⟨(j 0).val, idx2_lt0 j⟩ ⟨(j 1).val, idx2_lt1 j⟩ := by
  funext j
  have hj : j = ix2 (⟨(j 0).val, idx2_lt0 j⟩ : Fin 100000) (⟨(j 1).val, idx2_lt1 j⟩ : Fin 512) :=
    funext fun a => Fin.ext (by match a with | ⟨0, _⟩ => rfl | ⟨1, _⟩ => rfl)
  refine (congrArg (V5 m (outsC m hO hH) c main_v9) hj).trans ?_
  refine (V5_v9_apply m (outsC m hO hH) c _ _).trans ?_
  refine (congrFun (outsC_h48 m hO hH c) _).trans ?_
  have hD : ∀ (i : Fin 4096) (e : Fin 512), V3 m (outsC m hO hH) c main_v2_0 (ix3 i (0 : Fin 1) e) = Cert.CL.delta (yK m c) (bK m c) (cK m c) i e :=
    fun i e => (congrFun ((V3_v2_0 m (outsC m hO hH) c).trans (outsC_h20 m hO hH c)) _).trans (hDel i e)
  refine (acc1_apply m (outsC m hO hH) hO hH hy c hD _ _ _).trans ?_
  exact congrFun (congrFun (Cert.CL.acc_eq (yK m c) (bK m c) (cK m c)) _) _

end Cert.CL.KI

end
-- ==== Proof.lean ====
/-
  The certificate: for class ids inside the table of centres and finite embeddings and centres, the kernel program
  and its idealization run to the end, fault nowhere and leave their arguments unchanged; so does the reference; the
  idealization rewrote nothing; and the idealized kernel program and the idealized reference, run from memories that
  agree on the arguments, end with the same loss and the same updated centres as extended reals.

  Kernel side: the first launch leaves each sample's difference from its class centre and the squared length of it;
  the host sums the squared lengths over the batch size and weighs the sum; the second launch adds, one sample after
  the other, the step size times the difference to the row of the sample's class. Reference side: the same loss, and
  each centre plus the sum of the steps of the samples of its class. A sum taken one sample at a time in sample order
  is the sum over the class, since addition of extended reals is associative and commutative; the precondition enters
  only through the class ids' range, which both kernel launches need to have a step at all.
-/
import proofs.«424214_j72353019068995_1_alg».proof.Defs
import proofs.«424214_j72353019068995_1_alg».proof.Proof.Gen.Kernel
import proofs.«424214_j72353019068995_1_alg».proof.Proof.Gen.KernelIdeal
import proofs.«424214_j72353019068995_1_alg».proof.Proof.Gen.ReferenceIdeal
import proofs.«424214_j72353019068995_1_alg».proof.Proof.Gen.Pre_finite_inputs
import proofs.«424214_j72353019068995_1_alg».proof.Proof.Gen.ReferenceIdeal.Run
import proofs.«424214_j72353019068995_1_alg».proof.Proof.YRange
import proofs.«424214_j72353019068995_1_alg».proof.Proof.KRun
import proofs.«424214_j72353019068995_1_alg».proof.Proof.KHyps
import proofs.«424214_j72353019068995_1_alg».proof.Proof.KIRun
import proofs.«424214_j72353019068995_1_alg».proof.Proof.KIHyps
import proofs.«424214_j72353019068995_1_alg».proof.Proof.RefValue
import proofs.«424214_j72353019068995_1_alg».proof.Proof.KIArr0
import proofs.«424214_j72353019068995_1_alg».proof.Proof.KIValue

noncomputable section

namespace Cert.Proof

open Idealize.ShloMosaic Idealize.ShloMosaic.TcCoe Idealize.SL.Sem

/-- The kernel program's frame: the class ids' range gives both launches their side conditions; the run's results
    are dropped. -/
theorem frame_k : Cert.frame_Kernel := fun m ρ hpre =>
  (θ_run Cert.Kernel.defs _ _).mono (fun _ h c => (h c).2.2)
    (Cert.CL.K.run_final (F := Bits) m ρ
      (Cert.CL.K.ok_of_lt m fun i => Cert.CL.y_lt_of_pre _ _ _ (hpre 0) i)
      (Cert.CL.K.hyps_of_lt m fun i => Cert.CL.y_lt_of_pre _ _ _ (hpre 0) i))

/-- The idealized kernel program's frame, the same way. -/
theorem frame_ki : Cert.frame_KernelIdeal := fun m ρ hpre =>
  (θ_run Cert.KernelIdeal.defs _ _).mono (fun _ h c => (h c).2.2)
    (Cert.CL.KI.run_final (F := Ideal) m ρ
      (Cert.CL.KI.ok_of_lt m fun i => Cert.CL.y_lt_of_pre _ _ _ (hpre 0) i)
      (Cert.CL.KI.hyps_of_lt m fun i => Cert.CL.y_lt_of_pre _ _ _ (hpre 0) i))

/-- The reference's frame: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The idealized kernel program and the idealized reference, from memories agreeing on the arguments, both end with
    the specification's loss and updated centres of those arguments. -/
theorem algebraic : Cert.algebraic_KernelIdeal_ReferenceIdeal := by
  intro m ρ m' ρ' hpre hagree
  have hlt : ∀ (c : Dev Cert.KernelIdeal.nD) i, ((m ((c.tc : Thread Cert.KernelIdeal.nD Cert.KernelIdeal.τ).loc Cert.KernelIdeal.main_arg0)) i).toNat < 100000 :=
    fun c i => Cert.CL.y_lt_of_pre _ _ _ (hpre c) i
  have hO : Cert.CL.KI.Ok m := Cert.CL.KI.ok_of_lt m fun i => hlt 0 i
  have hH : Cert.CL.KI.Hyps m := Cert.CL.KI.hyps_of_lt m fun i => hlt 0 i
  have hy : ∀ (c : Dev Cert.KernelIdeal.nD) (i : Fin 4096), (Cert.CL.KI.yK m c i).toNat < 100000 := fun c i => hlt c _
  refine ⟨fun c => fun _ => Cert.CL.loss (Cert.CL.KI.yK m c) (Cert.CL.KI.bK m c) (Cert.CL.KI.cK m c),
    fun c => fun j => Cert.CL.newC (Cert.CL.KI.yK m c) (Cert.CL.KI.bK m c) (Cert.CL.KI.cK m c)
      ⟨(j 0).val, ValueIdx.idx2_lt0 j⟩ ⟨(j 1).val, ValueIdx.idx2_lt1 j⟩, ?_, ?_⟩
  · exact (θ_run Cert.KernelIdeal.defs _ _).mono (fun _ h c =>
      ⟨(h c).1.trans (Cert.CL.KI.v7_eq m hO hH c fun i => Cert.CL.KI.arr0_sumsq m hO hy c i),
        (h c).2.1.trans (Cert.CL.KI.v9_eq m hO hH hy c fun i e => Cert.CL.KI.arr0_delta m hO hy c i e), (h c).2.2⟩)
      (Cert.CL.KI.run_final (F := Ideal) m ρ hO hH)
  · refine (θ_run Cert.ReferenceIdeal.defs _ _).mono (fun _ h c => ⟨(h c).1.trans ?_, (h c).2.1.trans ?_, (h c).2.2⟩)
      (Cert.CL.Ref.run_spec m' ρ' fun c i => by rw [(hagree c).1]; exact hlt c i)
    · rw [(hagree c).1, (hagree c).2.1, (hagree c).2.2]; rfl
    · rw [(hagree c).1, (hagree c).2.1, (hagree c).2.2]; rfl

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
